-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S2x512x512 : Shape := ⟨3, ![2, 512, 512]⟩
abbrev S4x128 : Shape := ⟨2, ![4, 128]⟩
abbrev S2x128x128 : Shape := ⟨3, ![2, 128, 128]⟩
abbrev S2x128 : Shape := ⟨2, ![2, 128]⟩
abbrev S2x1x128 : Shape := ⟨3, ![2, 1, 128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S2x512x512 : S_.BroadcastsInDim S2x512x512 (![] : Fin 0 → Fin S2x512x512.rank)
  reducesTo_S2x512x512_S_d0_1_2 : S2x512x512.ReducesTo [0, 1, 2] S_
  bcast_S_S4x128 : S_.BroadcastsInDim S4x128 (![] : Fin 0 → Fin S4x128.rank)
  reducesTo_S4x128_S_d0_1 : S4x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S2x1x128 : S_.BroadcastsInDim S2x1x128 (![] : Fin 0 → Fin S2x1x128.rank)
  reducesTo_S2x1x128_S_d0_1_2 : S2x1x128.ReducesTo [0, 1, 2] S_

variable [Facts]

def fn_part2 {F : FTy → Type} [FloatOps F] (main_arg7 : FVec F S2x1x128 .f32) (main_v33 : IVec S_ 1) : IVec S_ 1 :=
  let main_v34 : FVec F S2x1x128 .f32 := Host.absf main_arg7
  let main_cst_12 : FVec F S_ .f32 := constant S_ .f32 0x7F800000#32
  let main_v35 : FVec F S2x1x128 .f32 := broadcastInDim S2x1x128 ![] bcast_S_S2x1x128 main_cst_12
  let main_v36 : IVec S2x1x128 1 := cmpf .olt main_v34 main_v35
  let main_c_13 : IVec S_ 1 := constantI S_ 1 1#1
  let main_v37 : IVec S_ 1 := (fun x v => Host.reduce IntOp.andi x v reducesTo_S2x1x128_S_d0_1_2 h_S_) main_v36 main_c_13
  let main_v38 : IVec S_ 1 := andi main_v33 main_v37
  main_v38

def fn_part1 {F : FTy → Type} [FloatOps F] (main_arg4 : FVec F S2x128x128 .f32) (main_arg5 : FVec F S2x128x128 .f32) (main_arg6 : FVec F S2x128 .f32) (main_arg7 : FVec F S2x1x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128x128 .f32 := Host.absf main_arg4
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128x128 .f32 := Host.absf main_arg5
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg6
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg7 main_v33

def fn {F : FTy → Type} [FloatOps F] (main_arg0 : FVec F S512x128 .f32) (main_arg1 : FVec F S2x512x512 .f32) (main_arg2 : FVec F S4x128 .f32) (main_arg3 : FVec F S2x128x128 .f32) (main_arg4 : FVec F S2x128x128 .f32) (main_arg5 : FVec F S2x128x128 .f32) (main_arg6 : FVec F S2x128 .f32) (main_arg7 : FVec F S2x1x128 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S2x512x512 .f32 := Host.absf main_arg1
  let main_cst_0 : FVec F S_ .f32 := constant S_ .f32 0x7F800000#32
  let main_v5 : FVec F S2x512x512 .f32 := broadcastInDim S2x512x512 ![] bcast_S_S2x512x512 main_cst_0
  let main_v6 : IVec S2x512x512 1 := cmpf .olt main_v4 main_v5
  let main_c_1 : IVec S_ 1 := constantI S_ 1 1#1
  let main_v7 : IVec S_ 1 := (fun x v => Host.reduce IntOp.andi x v reducesTo_S2x512x512_S_d0_1_2 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S2x128x128 .f32 := Host.absf main_arg3
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg4 main_arg5 main_arg6 main_arg7 main_v13 main_v16
-- ==== Kernel.lean ====
abbrev S512x128 : Shape := ⟨2, ![512, 128]⟩
abbrev S2x512x512 : Shape := ⟨3, ![2, 512, 512]⟩
abbrev S4x128 : Shape := ⟨2, ![4, 128]⟩
abbrev S2x128x128 : Shape := ⟨3, ![2, 128, 128]⟩
abbrev S2x128 : Shape := ⟨2, ![2, 128]⟩
abbrev S2x1x128 : Shape := ⟨3, ![2, 1, 128]⟩
abbrev S1x512x512 : Shape := ⟨3, ![1, 512, 512]⟩
abbrev S512x512 : Shape := ⟨2, ![512, 512]⟩
abbrev S1024x512 : Shape := ⟨2, ![1024, 512]⟩
abbrev S1x1024 : Shape := ⟨2, ![1, 1024]⟩
abbrev S1x512 : Shape := ⟨2, ![1, 512]⟩
abbrev S128x512 : Shape := ⟨2, ![128, 512]⟩
abbrev S128x2 : Shape := ⟨2, ![128, 2]⟩
abbrev S1x1x128 : Shape := ⟨3, ![1, 1, 128]⟩
abbrev S1x128 : Shape := ⟨2, ![1, 128]⟩
abbrev S128x1 : Shape := ⟨2, ![128, 1]⟩
abbrev S128x1024 : Shape := ⟨2, ![128, 1024]⟩
abbrev S1x128x128 : Shape := ⟨3, ![1, 128, 128]⟩
abbrev S128x128 : Shape := ⟨2, ![128, 128]⟩

abbrev nBuf : Space → Nat
  | .hbm => 9
  | .vmem => 9
  | .smem => 0
  | _ => 0

abbrev bufTy : (tb : Table) → Fin (tcTables nBuf tb) → BufTy
  | .hbm, ⟨0, _⟩ => ⟨S512x128, .f32⟩
  | .hbm, ⟨1, _⟩ => ⟨S2x512x512, .f32⟩
  | .hbm, ⟨2, _⟩ => ⟨S4x128, .f32⟩
  | .hbm, ⟨3, _⟩ => ⟨S2x128x128, .f32⟩
  | .hbm, ⟨4, _⟩ => ⟨S2x128x128, .f32⟩
  | .hbm, ⟨5, _⟩ => ⟨S2x128x128, .f32⟩
  | .hbm, ⟨6, _⟩ => ⟨S2x128, .f32⟩
  | .hbm, ⟨7, _⟩ => ⟨S2x1x128, .f32⟩
  | .hbm, ⟨8, _⟩ => ⟨S512x128, .f32⟩
  | .local _ .vmem, ⟨0, _⟩ => ⟨S2x512x512, .f32⟩
  | .local _ .vmem, ⟨1, _⟩ => ⟨S512x128, .f32⟩
  | .local _ .vmem, ⟨2, _⟩ => ⟨S4x128, .f32⟩
  | .local _ .vmem, ⟨3, _⟩ => ⟨S2x128x128, .f32⟩
  | .local _ .vmem, ⟨4, _⟩ => ⟨S2x128x128, .f32⟩
  | .local _ .vmem, ⟨5, _⟩ => ⟨S2x128x128, .f32⟩
  | .local _ .vmem, ⟨6, _⟩ => ⟨S2x128, .f32⟩
  | .local _ .vmem, ⟨7, _⟩ => ⟨S2x1x128, .f32⟩
  | .local _ .vmem, ⟨8, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

class Facts₀ : Prop where
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  natLt_1_32 : 1 < 32
  bitsLt_bf16_f32 : FTy.bits .bf16 < FTy.bits .f32
  inb_S2x512x512_S1x512x512_1_0_0 : ∀ a, (![1, 0, 0] : Fin 3 → Nat) a + S1x512x512.size a ≤ S2x512x512.size a
  concatenates_S512x512_S512x512_S1024x512_d0 : Shape.Concatenates [S512x512, S512x512] S1024x512 0
  inb_S512x128_S512x128_0_0 : ∀ a, (![0, 0] : Fin 2 → Nat) a + S512x128.size a ≤ S512x128.size a
  h_S512x128 : 0 < S512x128.numel
  transposes_S512x128_p1_0_S128x512 : S512x128.Transposes [1, 0] S128x512
  inb_S4x128_S2x128_0_0 : ∀ a, (![0, 0] : Fin 2 → Nat) a + S2x128.size a ≤ S4x128.size a
  h_S2x128 : 0 < S2x128.numel
  transposes_S2x128_p1_0_S128x2 : S2x128.Transposes [1, 0] S128x2
  inb_S2x128_S2x128_0_0 : ∀ a, (![0, 0] : Fin 2 → Nat) a + S2x128.size a ≤ S2x128.size a
  inb_S2x1x128_S1x1x128_0_0_0 : ∀ a, (![0, 0, 0] : Fin 3 → Nat) a + S1x1x128.size a ≤ S2x1x128.size a
  h_S1x1x128 : 0 < S1x1x128.numel
  shapeCasts_S1x1x128_S1x128 : S1x1x128.ShapeCasts S1x128
  inb_S2x1x128_S1x1x128_1_0_0 : ∀ a, (![1, 0, 0] : Fin 3 → Nat) a + S1x1x128.size a ≤ S2x1x128.size a
  concatenates_S1x128_S1x128_S2x128_d0 : Shape.Concatenates [S1x128, S1x128] S2x128 0
  broadcasts_S1x512_S128x512 : S1x512.Broadcasts S128x512
  slices_S128x2_o0_0_S128x1 : S128x2.Slices ![0, 0] S128x1
  broadcasts_S128x1_S128x512 : S128x1.Broadcasts S128x512
  slices_S128x2_o0_1_S128x1 : S128x2.Slices ![0, 1] S128x1
  concatenates_S128x512_S128x512_S128x1024_d1 : Shape.Concatenates [S128x512, S128x512] S128x1024 1
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  inb_S2x128x128_S1x128x128_1_0_0 : ∀ a, (![1, 0, 0] : Fin 3 → Nat) a + S1x128x128.size a ≤ S2x128x128.size a
  transposes_S128x512_p1_0_S512x128 : S128x512.Transposes [1, 0] S512x128
  dot_S1x1024_S1024x512_S1x512_1_0_0_1_n_n_wf : DotDims.WF S1x1024 S1024x512 S1x512 [1] [0] [0] [1] [] []
  dot_S128x1024_S1024x512_S128x512_1_0_0_1_n_n_wf : DotDims.WF S128x1024 S1024x512 S128x512 [1] [0] [0] [1] [] []
  dot_S128x128_S128x512_S128x512_0_0_1_1_n_n_wf : DotDims.WF S128x128 S128x512 S128x512 [0] [0] [1] [1] [] []
  dot_S128x128_S128x2_S128x2_0_0_1_1_n_n_wf : DotDims.WF S128x128 S128x2 S128x2 [0] [0] [1] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole

variable [Facts₀]

def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x128_S128x512_S128x512_0_0_1_1_n_n : DotDims S128x128 S128x512 S128x512 where
  lhsContracting := [0]
  rhsContracting := [0]
  lhsNonContracting := [1]
  rhsNonContracting := [1]
  lhsBatch := []
  rhsBatch := []
  wf := dot_S128x128_S128x512_S128x512_0_0_1_1_n_n_wf
def dot_S128x128_S128x2_S128x2_0_0_1_1_n_n : DotDims S128x128 S128x2 S128x2 where
  lhsContracting := [0]
  rhsContracting := [0]
  lhsNonContracting := [1]
  rhsNonContracting := [1]
  lhsBatch := []
  rhsBatch := []
  wf := dot_S128x128_S128x2_S128x2_0_0_1_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg0) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_arg7) false false (stage0_7 0) (sem0_7 0) (Memref.isWhole_whole _) (hstage0_7 0)

abbrev win0_8 : Pipeline.Window sig grid0 :=
  Pipeline.Window.whole (Memref.whole main_v0) true false (stage0_8 0) (sem0_8 0) (Memref.isWhole_whole _) (hstage0_8 0)

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S512x128 : Shape := ⟨2, ![512, 128]⟩
abbrev S2x512x512 : Shape := ⟨3, ![2, 512, 512]⟩
abbrev S4x128 : Shape := ⟨2, ![4, 128]⟩
abbrev S2x128x128 : Shape := ⟨3, ![2, 128, 128]⟩
abbrev S2x128 : Shape := ⟨2, ![2, 128]⟩
abbrev S2x1x128 : Shape := ⟨3, ![2, 1, 128]⟩
abbrev S512 : Shape := ⟨1, ![512]⟩
abbrev S512x512 : Shape := ⟨2, ![512, 512]⟩
abbrev S262144 : Shape := ⟨1, ![262144]⟩
abbrev S1x512 : Shape := ⟨2, ![1, 512]⟩
abbrev S1x512x512 : Shape := ⟨3, ![1, 512, 512]⟩
abbrev S_ : Shape := ⟨0, ![]⟩
abbrev S524288 : Shape := ⟨1, ![524288]⟩
abbrev S524288x1 : Shape := ⟨2, ![524288, 1]⟩
abbrev S524288x128 : Shape := ⟨2, ![524288, 128]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩

abbrev nBuf : Space → Nat
  | .hbm => 201
  | .vmem => 0
  | .smem => 0
  | _ => 0

abbrev hbmTy0_0 (i : Nat) : BufTy := match i % 128 with
  | 0 => ⟨S512x128, .f32⟩
  | 1 => ⟨S2x512x512, .f32⟩
  | 2 => ⟨S4x128, .f32⟩
  | 3 => ⟨S2x128x128, .f32⟩
  | 4 => ⟨S2x128x128, .f32⟩
  | 5 => ⟨S2x128x128, .f32⟩
  | 6 => ⟨S2x128, .f32⟩
  | 7 => ⟨S2x1x128, .f32⟩
  | 8 => ⟨S512, .i32⟩
  | 9 => ⟨S512x512, .i32⟩
  | 10 => ⟨S262144, .i32⟩
  | 11 => ⟨S512, .i32⟩
  | 12 => ⟨S1x512, .i32⟩
  | 13 => ⟨S512x512, .i32⟩
  | 14 => ⟨S262144, .i32⟩
  | 15 => ⟨S1x512x512, .f32⟩
  | 16 => ⟨S512x512, .f32⟩
  | 17 => ⟨S_, .f32⟩
  | 18 => ⟨S512x512, .f32⟩
  | 19 => ⟨S512x512, .i1⟩
  | 20 => ⟨S262144, .i1⟩
  | 21 => ⟨S_, .i32⟩
  | 22 => ⟨S_, .i32⟩
  | 23 => ⟨S262144, .i32⟩
  | 24 => ⟨S262144, .i32⟩
  | 25 => ⟨S_, .i32⟩
  | 26 => ⟨S_, .i32⟩
  | 27 => ⟨S262144, .i32⟩
  | 28 => ⟨S262144, .i32⟩
  | 29 => ⟨S_, .i32⟩
  | 30 => ⟨S262144, .i32⟩
  | 31 => ⟨S1x512x512, .f32⟩
  | 32 => ⟨S512x512, .f32⟩
  | 33 => ⟨S_, .f32⟩
  | 34 => ⟨S512x512, .f32⟩
  | 35 => ⟨S512x512, .i1⟩
  | 36 => ⟨S262144, .i1⟩
  | 37 => ⟨S_, .i32⟩
  | 38 => ⟨S_, .i32⟩
  | 39 => ⟨S262144, .i32⟩
  | 40 => ⟨S262144, .i32⟩
  | 41 => ⟨S_, .i32⟩
  | 42 => ⟨S_, .i32⟩
  | 43 => ⟨S262144, .i32⟩
  | 44 => ⟨S262144, .i32⟩
  | 45 => ⟨S_, .i32⟩
  | 46 => ⟨S262144, .i32⟩
  | 47 => ⟨S524288, .i32⟩
  | 48 => ⟨S524288, .i32⟩
  | 49 => ⟨S524288, .i32⟩
  | 50 => ⟨S524288, .i1⟩
  | 51 => ⟨S_, .i32⟩
  | 52 => ⟨S512, .i32⟩
  | 53 => ⟨S524288, .i32⟩
  | 54 => ⟨S_, .i32⟩
  | 55 => ⟨S524288, .i32⟩
  | 56 => ⟨S524288, .i1⟩
  | 57 => ⟨S_, .i32⟩
  | 58 => ⟨S524288, .i32⟩
  | 59 => ⟨S524288, .i32⟩
  | 60 => ⟨S524288, .i32⟩
  | 61 => ⟨S524288x1, .i32⟩
  | 62 => ⟨S512, .i32⟩
  | 63 => ⟨S512, .f32⟩
  | 64 => ⟨S_, .f32⟩
  | 65 => ⟨S512, .f32⟩
  | 66 => ⟨S512, .i1⟩
  | 67 => ⟨S_, .f32⟩
  | 68 => ⟨S512, .f32⟩
  | 69 => ⟨S512, .f32⟩
  | 70 => ⟨S_, .f32⟩
  | 71 => ⟨S_, .f32⟩
  | 72 => ⟨S512, .f32⟩
  | 73 => ⟨S512, .f32⟩
  | 74 => ⟨S_, .i32⟩
  | 75 => ⟨S524288, .i32⟩
  | 76 => ⟨S524288, .i1⟩
  | 77 => ⟨S_, .i32⟩
  | 78 => ⟨S524288, .i32⟩
  | 79 => ⟨S524288, .i32⟩
  | 80 => ⟨S524288, .i32⟩
  | 81 => ⟨S524288x1, .i32⟩
  | 82 => ⟨S524288, .f32⟩
  | 83 => ⟨S_, .i32⟩
  | 84 => ⟨S524288, .i32⟩
  | 85 => ⟨S524288, .i1⟩
  | 86 => ⟨S_, .i32⟩
  | 87 => ⟨S524288, .i32⟩
  | 88 => ⟨S524288, .i32⟩
  | 89 => ⟨S524288, .i32⟩
  | 90 => ⟨S524288x1, .i32⟩
  | 91 => ⟨S524288, .f32⟩
  | 92 => ⟨S524288, .f32⟩
  | 93 => ⟨S524288, .f32⟩
  | 94 => ⟨S524288, .f32⟩
  | 95 => ⟨S_, .i32⟩
  | 96 => ⟨S524288, .i32⟩
  | 97 => ⟨S524288, .i1⟩
  | 98 => ⟨S_, .i32⟩
  | 99 => ⟨S524288, .i32⟩
  | 100 => ⟨S524288, .i32⟩
  | 101 => ⟨S524288, .i32⟩
  | 102 => ⟨S524288x1, .i32⟩
  | 103 => ⟨S524288x128, .f32⟩
  | 104 => ⟨S_, .i32⟩
  | 105 => ⟨S524288, .i32⟩
  | 106 => ⟨S524288, .i1⟩
  | 107 => ⟨S_, .i32⟩
  | 108 => ⟨S524288, .i32⟩
  | 109 => ⟨S524288, .i32⟩
  | 110 => ⟨S524288, .i32⟩
  | 111 => ⟨S524288x1, .i32⟩
  | 112 => ⟨S524288x128, .f32⟩
  | 113 => ⟨S524288x128, .f32⟩
  | 114 => ⟨S1x128x128, .f32⟩
  | 115 => ⟨S128x128, .f32⟩
  | 116 => ⟨S524288x128, .f32⟩
  | 117 => ⟨S524288x1, .f32⟩
  | 118 => ⟨S524288x128, .f32⟩
  | 119 => ⟨S524288x128, .f32⟩
  | 120 => ⟨S_, .f32⟩
  | 121 => ⟨S512x128, .f32⟩
  | 122 => ⟨S_, .i32⟩
  | 123 => ⟨S524288, .i32⟩
  | 124 => ⟨S524288, .i1⟩
  | 125 => ⟨S_, .i32⟩
  | 126 => ⟨S524288, .i32⟩
  | 127 => ⟨S524288, .i32⟩
  | _ => ⟨S512x128, .f32⟩

abbrev hbmTy0_1 (i : Nat) : BufTy := match i % 128 with
  | 0 => ⟨S524288, .i32⟩
  | 1 => ⟨S524288x1, .i32⟩
  | 2 => ⟨S512x128, .f32⟩
  | 3 => ⟨S1x1x128, .f32⟩
  | 4 => ⟨S1x128, .f32⟩
  | 5 => ⟨S512x128, .f32⟩
  | 6 => ⟨S512x128, .f32⟩
  | 7 => ⟨S1x128x128, .f32⟩
  | 8 => ⟨S128x128, .f32⟩
  | 9 => ⟨S512x128, .f32⟩
  | 10 => ⟨S512x128, .f32⟩
  | 11 => ⟨S1x128, .f32⟩
  | 12 => ⟨S128, .f32⟩
  | 13 => ⟨S1x128, .f32⟩
  | 14 => ⟨S512x128, .f32⟩
  | 15 => ⟨S512x128, .f32⟩
  | 16 => ⟨S512x128, .f32⟩
  | 17 => ⟨S1x128x128, .f32⟩
  | 18 => ⟨S128x128, .f32⟩
  | 19 => ⟨S4x128, .f32⟩
  | 20 => ⟨S_, .i32⟩
  | 21 => ⟨S524288, .i32⟩
  | 22 => ⟨S524288, .i1⟩
  | 23 => ⟨S_, .i32⟩
  | 24 => ⟨S524288, .i32⟩
  | 25 => ⟨S524288, .i32⟩
  | 26 => ⟨S524288, .i32⟩
  | 27 => ⟨S524288x1, .i32⟩
  | 28 => ⟨S524288x128, .f32⟩
  | 29 => ⟨S_, .i32⟩
  | 30 => ⟨S524288, .i32⟩
  | 31 => ⟨S524288, .i1⟩
  | 32 => ⟨S_, .i32⟩
  | 33 => ⟨S524288, .i32⟩
  | 34 => ⟨S524288, .i32⟩
  | 35 => ⟨S524288, .i32⟩
  | 36 => ⟨S524288x1, .i32⟩
  | 37 => ⟨S524288x128, .f32⟩
  | 38 => ⟨S524288x128, .f32⟩
  | 39 => ⟨S1x128x128, .f32⟩
  | 40 => ⟨S128x128, .f32⟩
  | 41 => ⟨S524288x128, .f32⟩
  | 42 => ⟨S524288x1, .f32⟩
  | 43 => ⟨S524288x128, .f32⟩
  | 44 => ⟨S524288x128, .f32⟩
  | 45 => ⟨S_, .f32⟩
  | 46 => ⟨S512x128, .f32⟩
  | 47 => ⟨S_, .i32⟩
  | 48 => ⟨S524288, .i32⟩
  | 49 => ⟨S524288, .i1⟩
  | 50 => ⟨S_, .i32⟩
  | 51 => ⟨S524288, .i32⟩
  | 52 => ⟨S524288, .i32⟩
  | 53 => ⟨S524288, .i32⟩
  | 54 => ⟨S524288x1, .i32⟩
  | 55 => ⟨S512x128, .f32⟩
  | 56 => ⟨S1x1x128, .f32⟩
  | 57 => ⟨S1x128, .f32⟩
  | 58 => ⟨S512x128, .f32⟩
  | 59 => ⟨S512x128, .f32⟩
  | 60 => ⟨S1x128x128, .f32⟩
  | 61 => ⟨S128x128, .f32⟩
  | 62 => ⟨S512x128, .f32⟩
  | 63 => ⟨S512x128, .f32⟩
  | 64 => ⟨S1x128, .f32⟩
  | 65 => ⟨S128, .f32⟩
  | 66 => ⟨S1x128, .f32⟩
  | 67 => ⟨S512x128, .f32⟩
  | 68 => ⟨S512x128, .f32⟩
  | 69 => ⟨S512x128, .f32⟩
  | 70 => ⟨S1x128x128, .f32⟩
  | 71 => ⟨S128x128, .f32⟩
  | 72 => ⟨S4x128, .f32⟩
  | _ => ⟨S512x128, .f32⟩

abbrev hbmTy (i : Nat) : BufTy := match i / 128 with
  | 0 => hbmTy0_0 i
  | 1 => hbmTy0_1 i
  | _ => ⟨S512x128, .f32⟩

abbrev bufTy : (tb : Table) → Fin (tcTables nBuf tb) → BufTy
  | .hbm, ⟨i, _⟩ => hbmTy i
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_v20 : Ref sig .tc := ⟨.hbm, 40, rfl⟩
abbrev main_c_4 : Ref sig .tc := ⟨.hbm, 41, rfl⟩
abbrev main_call3_v0 : Ref sig .tc := ⟨.hbm, 42, rfl⟩
abbrev main_call3_v1 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_c_8 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_cst_10 : Ref sig .tc := ⟨.hbm, 67, rfl⟩
abbrev main_v39 : Ref sig .tc := ⟨.hbm, 68, rfl⟩
abbrev main_v40 : Ref sig .tc := ⟨.hbm, 69, rfl⟩
abbrev main_cst_11 : Ref sig .tc := ⟨.hbm, 70, rfl⟩
abbrev main_call4_v0 : Ref sig .tc := ⟨.hbm, 71, rfl⟩
abbrev main_call4_v1 : Ref sig .tc := ⟨.hbm, 72, rfl⟩
abbrev main_v41 : Ref sig .tc := ⟨.hbm, 73, rfl⟩
abbrev main_c_12 : Ref sig .tc := ⟨.hbm, 74, rfl⟩
abbrev main_v42 : Ref sig .tc := ⟨.hbm, 75, rfl⟩
abbrev main_v43 : Ref sig .tc := ⟨.hbm, 76, rfl⟩
abbrev main_c_13 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_14 : Ref sig .tc := ⟨.hbm, 83, rfl⟩
abbrev main_v49 : Ref sig .tc := ⟨.hbm, 84, rfl⟩
abbrev main_v50 : Ref sig .tc := ⟨.hbm, 85, rfl⟩
abbrev main_c_15 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c_16 : Ref sig .tc := ⟨.hbm, 95, rfl⟩
abbrev main_v59 : Ref sig .tc := ⟨.hbm, 96, rfl⟩
abbrev main_v60 : Ref sig .tc := ⟨.hbm, 97, rfl⟩
abbrev main_c_17 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_18 : Ref sig .tc := ⟨.hbm, 104, rfl⟩
abbrev main_v66 : Ref sig .tc := ⟨.hbm, 105, rfl⟩
abbrev main_v67 : Ref sig .tc := ⟨.hbm, 106, rfl⟩
abbrev main_c_19 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_20 : Ref sig .tc := ⟨.hbm, 120, rfl⟩
abbrev main_v80 : Ref sig .tc := ⟨.hbm, 121, rfl⟩
abbrev main_c_21 : Ref sig .tc := ⟨.hbm, 122, rfl⟩
abbrev main_v81 : Ref sig .tc := ⟨.hbm, 123, rfl⟩
abbrev main_v82 : Ref sig .tc := ⟨.hbm, 124, rfl⟩
abbrev main_c_22 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_c_23 : Ref sig .tc := ⟨.hbm, 148, rfl⟩
abbrev main_v105 : Ref sig .tc := ⟨.hbm, 149, rfl⟩
abbrev main_v106 : Ref sig .tc := ⟨.hbm, 150, rfl⟩
abbrev main_c_24 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_c_25 : Ref sig .tc := ⟨.hbm, 157, rfl⟩
abbrev main_v112 : Ref sig .tc := ⟨.hbm, 158, rfl⟩
abbrev main_v113 : Ref sig .tc := ⟨.hbm, 159, rfl⟩
abbrev main_c_26 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_27 : Ref sig .tc := ⟨.hbm, 173, rfl⟩
abbrev main_v126 : Ref sig .tc := ⟨.hbm, 174, rfl⟩
abbrev main_c_28 : Ref sig .tc := ⟨.hbm, 175, rfl⟩
abbrev main_v127 : Ref sig .tc := ⟨.hbm, 176, rfl⟩
abbrev main_v128 : Ref sig .tc := ⟨.hbm, 177, rfl⟩
abbrev main_c_29 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩

abbrev nD : Nat := 1
abbrev τ : Topo := Topo.v7x

variable {F : FTy → Type} [FloatOps F]

class Facts₀ : Prop where
  bcast_S512_S512x512_0 : S512.BroadcastsInDim S512x512 (![0] : Fin 1 → Fin S512x512.rank)
  shapeCasts_S512x512_S262144 : S512x512.ShapeCasts S262144
  shapeCasts_S512_S1x512 : S512.ShapeCasts S1x512
  bcast_S1x512_S512x512_0_1 : S1x512.BroadcastsInDim S512x512 (![0, 1] : Fin 2 → Fin S512x512.rank)
  slices_S2x512x512_S1x512x512_0_0_0 : S2x512x512.Slices ![0, 0, 0] S1x512x512
  shapeCasts_S1x512x512_S512x512 : S1x512x512.ShapeCasts S512x512
  bcast_S_S512x512 : S_.BroadcastsInDim S512x512 (![] : Fin 0 → Fin S512x512.rank)
  bcast_S_S262144 : S_.BroadcastsInDim S262144 (![] : Fin 0 → Fin S262144.rank)
  slices_S2x512x512_S1x512x512_1_0_0 : S2x512x512.Slices ![1, 0, 0] S1x512x512
  concatenates_S262144_S262144_S524288_d0 : Shape.Concatenates [S262144, S262144] S524288 0
  bcast_S_S512 : S_.BroadcastsInDim S512 (![] : Fin 0 → Fin S512.rank)
  natLt_1_32 : 1 < 32
  bcast_S_S524288 : S_.BroadcastsInDim S524288 (![] : Fin 0 → Fin S524288.rank)
  bcast_S524288_S524288x1_0 : S524288.BroadcastsInDim S524288x1 (![0] : Fin 1 → Fin S524288x1.rank)
  slices_S2x128x128_S1x128x128_0_0_0 : S2x128x128.Slices ![0, 0, 0] S1x128x128
  shapeCasts_S1x128x128_S128x128 : S1x128x128.ShapeCasts S128x128
  bcast_S524288x1_S524288x128_0_1 : S524288x1.BroadcastsInDim S524288x128 (![0, 1] : Fin 2 → Fin S524288x128.rank)
  bcast_S_S512x128 : S_.BroadcastsInDim S512x128 (![] : Fin 0 → Fin S512x128.rank)
  slices_S2x1x128_S1x1x128_0_0_0 : S2x1x128.Slices ![0, 0, 0] S1x1x128
  shapeCasts_S1x1x128_S1x128 : S1x1x128.ShapeCasts S1x128
  bcast_S1x128_S512x128_0_1 : S1x128.BroadcastsInDim S512x128 (![0, 1] : Fin 2 → Fin S512x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  slices_S2x128x128_S1x128x128_1_0_0 : S2x128x128.Slices ![1, 0, 0] S1x128x128
  slices_S2x1x128_S1x1x128_1_0_0 : S2x1x128.Slices ![1, 0, 0] S1x1x128
  slices_S2x128_S1x128_1_0 : S2x128.Slices ![1, 0] S1x128
  scatter_S512_S524288x1_S524288_n_0_0_1_wf : ScatterDims.WF S512 S524288x1 S524288 [] [0] [0] 1
  gather_S512_S524288x1_S524288_n_0_n_n_0_1_1_wf : GatherDims.WF S512 S524288x1 S524288 [] [0] [] [0] [] 1 ![1]
  gather_S512x128_S524288x1_S524288x128_1_0_n_n_0_1_1128_wf : GatherDims.WF S512x128 S524288x1 S524288x128 [1] [0] [] [0] [] 1 ![1, 128]
  gather_S4x128_S524288x1_S524288x128_1_0_n_n_0_1_1128_wf : GatherDims.WF S4x128 S524288x1 S524288x128 [1] [0] [] [0] [] 1 ![1, 128]
  dot_S524288x128_S128x128_S524288x128_1_0_0_1_n_n_wf : DotDims.WF S524288x128 S128x128 S524288x128 [1] [0] [0] [1] [] []
  scatter_S512x128_S524288x1_S524288x128_1_0_0_1_wf : ScatterDims.WF S512x128 S524288x1 S524288x128 [1] [0] [0] 1
  dot_S512x128_S128x128_S512x128_1_0_0_1_n_n_wf : DotDims.WF S512x128 S128x128 S512x128 [1] [0] [0] [1] [] []
  dot_S4x128_S128x128_S4x128_1_0_0_1_n_n_wf : DotDims.WF S4x128 S128x128 S4x128 [1] [0] [0] [1] [] []

variable [Facts₀]

def scatter_S512_S524288x1_S524288_n_0_0_1 : ScatterDims S512 S524288x1 S524288 where
  updateWindowDims := []
  insertedWindowDims := [0]
  scatterDimsToOperandDims := [0]
  indexVectorDim := 1
  wf := scatter_S512_S524288x1_S524288_n_0_0_1_wf
def gather_S512_S524288x1_S524288_n_0_n_n_0_1_1 : GatherDims S512 S524288x1 S524288 where
  offsetDims := []
  collapsedSliceDims := [0]
  operandBatchingDims := []
  startIndicesBatchingDims := []
  startIndexMap := [0]
  indexVectorDim := 1
  sliceSizes := ![1]
  wf := gather_S512_S524288x1_S524288_n_0_n_n_0_1_1_wf
def gather_S512x128_S524288x1_S524288x128_1_0_n_n_0_1_1128 : GatherDims S512x128 S524288x1 S524288x128 where
  offsetDims := [1]
  collapsedSliceDims := [0]
  operandBatchingDims := []
  startIndicesBatchingDims := []
  startIndexMap := [0]
  indexVectorDim := 1
  sliceSizes := ![1, 128]
  wf := gather_S512x128_S524288x1_S524288x128_1_0_n_n_0_1_1128_wf
def gather_S4x128_S524288x1_S524288x128_1_0_n_n_0_1_1128 : GatherDims S4x128 S524288x1 S524288x128 where
  offsetDims := [1]
  collapsedSliceDims := [0]
  operandBatchingDims := []
  startIndicesBatchingDims := []
  startIndexMap := [0]
  indexVectorDim := 1
  sliceSizes := ![1, 128]
  wf := gather_S4x128_S524288x1_S524288x128_1_0_n_n_0_1_1128_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def scatter_S512x128_S524288x1_S524288x128_1_0_0_1 : ScatterDims S512x128 S524288x1 S524288x128 where
  updateWindowDims := [1]
  insertedWindowDims := [0]
  scatterDimsToOperandDims := [0]
  indexVectorDim := 1
  wf := scatter_S512x128_S524288x1_S524288x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S4x128_S128x128_S4x128_1_0_0_1_n_n : DotDims S4x128 S128x128 S4x128 where
  lhsContracting := [1]
  rhsContracting := [0]
  lhsNonContracting := [0]
  rhsNonContracting := [1]
  lhsBatch := []
  rhsBatch := []
  wf := dot_S4x128_S128x128_S4x128_1_0_0_1_n_n_wf

class Facts : Prop extends Facts₀ where

variable [Facts]
-- ==== Proof.Spec.lean ====
import Idealize.ShloMosaic.PureOps.Ideal
import Mathlib.Algebra.BigOperators.Group.Finset.Basic

/-!
# Two-layer relational graph convolution: the two arrangements of one function

A graph on 512 nodes with 2 edge types is given by a dense array `A r s t`: the edge `s → t` of type `r` is present
when `A r s t > 1/2`. The in-degree of `t` counts the present edges into `t` over both types, and a node's
normalizer is `deg ^ (-1/2)` (zero for an isolated node). One layer sends node features `h` (512 × 128) and
relation features `rl` (2 × 128) to

  `h' t j = tanh ( Σ_{r,s : edge} nrm t · nrm s · Σ_k h s k · rl r k · W k j  +  Σ_k h t k · lr k · WL k j  +  b j )`,

and the relation features to `rl · WR`. Two layers are composed.

The function is written twice, as the two programs arrange it. In `layerK` the edge sum is taken inside the
contraction with `W` (features first weighted by the source's normalizer, the target's normalizer applied last); in
`layerR` each edge carries its own message `(Σ_k h s k · rl r k · W k j) · (nrm t · nrm s)` and the messages into `t`
are added. The normalizer is `(√deg)⁻¹` in the first and `deg` to the power `-1/2` in the second. On finite data the
two agree (distributivity), which a separate module proves.
-/

noncomputable section

open scoped BigOperators
open Idealize.ShloMosaic

namespace Cert.Spec

/-- A matrix of extended reals. -/
abbrev Mat (a b : Nat) := Fin a → Fin b → EReal

/-- Which edges are present: one bit per (type, source, target). -/
abbrev Adj := Fin 2 → Fin 512 → Fin 512 → BitVec 1

/-- The edge `s → t` of type `r` is present when the dense adjacency exceeds one half. -/
def edge (A : Fin 2 → Fin 512 → Fin 512 → EReal) : Adj :=
  fun r s t => Ideal.cmp .ogt (A r s t) (Ideal.ofBits .f32 0x3F000000#32)

/-- A bit as the number 0 or 1. -/
def ind (b : BitVec 1) : EReal := if b = 1#1 then 1 else 0

/-- The in-degree of `t`: the number of present edges into it, over both types. -/
def deg (μ : Adj) (t : Fin 512) : EReal := ∑ r : Fin 2, ∑ s : Fin 512, ind (μ r s t)

/-- The normalizer as a reciprocal square root; zero for an isolated node. -/
def nrmK (μ : Adj) (t : Fin 512) : EReal := if 0 < deg μ t then Ideal.rsqrt (deg μ t) else 0

/-- The normalizer as the power `-1/2`; zero for an isolated node. -/
def nrmR (μ : Adj) (t : Fin 512) : EReal :=
  if 0 < deg μ t then Ideal.pow (deg μ t) (Ideal.ofBits .f32 0xBF000000#32) else 0

/-- One layer, the edge sum inside the contraction with `W`. -/
def layerK (nrm : Fin 512 → EReal) (μ : Adj) (h : Mat 512 128) (rl : Mat 2 128) (W WL : Mat 128 128)
    (bb lrr : Fin 128 → EReal) : Mat 512 128 :=
  fun t j => Ideal.tanh
    (((∑ k : Fin 128, W k j * (∑ r : Fin 2, ∑ s : Fin 512, ((h s k * nrm s) * rl r k) * ind (μ r s t))) * nrm t
        + ∑ k : Fin 128, WL k j * (h t k * lrr k))
      + bb j)

/-- The next layer's relation features, the weight on the left. -/
def relNextK (rl : Mat 2 128) (WR : Mat 128 128) : Mat 2 128 := fun r j => ∑ k : Fin 128, WR k j * rl r k

/-- One layer, a message per edge added into its target. -/
def layerR (nrm : Fin 512 → EReal) (μ : Adj) (h : Mat 512 128) (rl : Mat 2 128) (W WL : Mat 128 128)
    (bb lrr : Fin 128 → EReal) : Mat 512 128 :=
  fun t j => Ideal.tanh
    (((∑ r : Fin 2, ∑ s : Fin 512,
          if μ r s t = 1#1 then (∑ k : Fin 128, (h s k * rl r k) * W k j) * (nrm t * nrm s) else 0)
        + ∑ k : Fin 128, (h t k * lrr k) * WL k j)
      + bb j)

/-- The next layer's relation features, the weight on the right. -/
def relNextR (rl : Mat 2 128) (WR : Mat 128 128) : Mat 2 128 := fun r j => ∑ k : Fin 128, rl r k * WR k j

/-- The first two of the four relation rows: the forward relations, the only ones an edge type names. -/
def fwd (rel : Mat 4 128) : Mat 2 128 := fun r => rel (Fin.castLE (by decide) r)

/-- Two layers in the first arrangement. -/
def GK (X : Mat 512 128) (A : Fin 2 → Fin 512 → Fin 512 → EReal) (rel : Mat 4 128)
    (Ws Wl Wr : Fin 2 → Mat 128 128) (b lr : Mat 2 128) : Mat 512 128 :=
  layerK (nrmK (edge A)) (edge A)
    (layerK (nrmK (edge A)) (edge A) X (fwd rel) (Ws 0) (Wl 0) (b 0) (lr 0))
    (relNextK (fwd rel) (Wr 0)) (Ws 1) (Wl 1) (b 1) (lr 1)

/-- Two layers in the second arrangement. -/
def GR (X : Mat 512 128) (A : Fin 2 → Fin 512 → Fin 512 → EReal) (rel : Mat 4 128)
    (Ws Wl Wr : Fin 2 → Mat 128 128) (b lr : Mat 2 128) : Mat 512 128 :=
  layerR (nrmR (edge A)) (edge A)
    (layerR (nrmR (edge A)) (edge A) X (fwd rel) (Ws 0) (Wl 0) (b 0) (lr 0))
    (relNextR (fwd rel) (Wr 0)) (Ws 1) (Wl 1) (b 1) (lr 1)

end Cert.Spec

end
-- ==== Proof.LibFinSplit.lean ====
import Mathlib.Algebra.BigOperators.Group.Finset.Basic
import Mathlib.Algebra.BigOperators.Fin
import Mathlib.Logic.Equiv.Fin.Basic

/-!
# A sum over a joined axis, by the pieces that were joined

Two arrays of 512 rows joined along the row axis have 1024 rows, row `r * 512 + s` being row `s` of piece `r`. Two
512 × 512 arrays flattened row-major and then joined have 524288 entries, entry `r * 262144 + s * 512 + t` being entry
`(s, t)` of piece `r`. A sum over the joined axis is the iterated sum over the piece and the position inside it.
-/

open scoped BigOperators

namespace Cert.Lib

/-- Row `s` of piece `r` in the join of two 512-row arrays. -/
def cat (r : Fin 2) (s : Fin 512) : Fin 1024 := ⟨r.val * 512 + s.val, by have := r.isLt; have := s.isLt; omega⟩

@[simp] theorem cat_val (r : Fin 2) (s : Fin 512) : (cat r s).val = r.val * 512 + s.val := rfl

/-- Every row of the join is a row of one piece. -/
theorem exists_cat (e : Fin 1024) : ∃ (r : Fin 2) (s : Fin 512), e = cat r s :=
  ⟨⟨e.val / 512, by have := e.isLt; omega⟩, ⟨e.val % 512, by omega⟩, Fin.ext (by show e.val = e.val / 512 * 512 + e.val % 512; omega)⟩

theorem cat_injective {r r' : Fin 2} {s s' : Fin 512} (h : cat r s = cat r' s') : r = r' ∧ s = s' := by
  have hv := congrArg Fin.val h
  simp only [cat_val] at hv
  have := s.isLt; have := s'.isLt
  exact ⟨Fin.ext (by omega), Fin.ext (by omega)⟩

/-- The pieces and positions, as the joined axis. -/
def catEquiv : Fin 2 × Fin 512 ≃ Fin 1024 where
  toFun p := cat p.1 p.2
  invFun e := (⟨e.val / 512, by have := e.isLt; omega⟩, ⟨e.val % 512, by omega⟩)
  left_inv p := by
    obtain ⟨r, s⟩ := p
    have := s.isLt
    refine Prod.ext (Fin.ext ?_) (Fin.ext ?_)
    · show (r.val * 512 + s.val) / 512 = r.val; omega
    · show (r.val * 512 + s.val) % 512 = s.val; omega
  right_inv e := Fin.ext (by show e.val / 512 * 512 + e.val % 512 = e.val; omega)

/-- A sum over the 1024 joined rows is the sum over the two pieces of the sums over their 512 rows. -/
theorem sum_cat {M : Type*} [AddCommMonoid M] (f : Fin 1024 → M) :
    ∑ e : Fin 1024, f e = ∑ r : Fin 2, ∑ s : Fin 512, f (cat r s) := by
  rw [← Fintype.sum_prod_type' (fun r s => f (cat r s))]
  exact (Fintype.sum_equiv catEquiv _ _ (fun _ => rfl)).symm

/-- Entry `(s, t)` of piece `r` in the join of two flattened 512 × 512 arrays. -/
def enc (r : Fin 2) (s t : Fin 512) : Fin 524288 :=
  ⟨r.val * 262144 + s.val * 512 + t.val, by have := r.isLt; have := s.isLt; have := t.isLt; omega⟩

@[simp] theorem enc_val (r : Fin 2) (s t : Fin 512) : (enc r s t).val = r.val * 262144 + s.val * 512 + t.val := rfl

/-- Every entry of the join is an entry of one piece. -/
theorem exists_enc (e : Fin 524288) : ∃ (r : Fin 2) (s t : Fin 512), e = enc r s t :=
  ⟨⟨e.val / 262144, by have := e.isLt; omega⟩, ⟨e.val % 262144 / 512, by omega⟩, ⟨e.val % 512, by omega⟩,
    Fin.ext (by show e.val = e.val / 262144 * 262144 + e.val % 262144 / 512 * 512 + e.val % 512; omega)⟩

theorem enc_injective {r r' : Fin 2} {s s' t t' : Fin 512} (h : enc r s t = enc r' s' t') : r = r' ∧ s = s' ∧ t = t' := by
  have hv := congrArg Fin.val h
  simp only [enc_val] at hv
  have := s.isLt; have := s'.isLt; have := t.isLt; have := t'.isLt
  exact ⟨Fin.ext (by omega), Fin.ext (by omega), Fin.ext (by omega)⟩

/-- The pieces and positions, as the joined flat axis. -/
def encEquiv : Fin 2 × Fin 512 × Fin 512 ≃ Fin 524288 where
  toFun p := enc p.1 p.2.1 p.2.2
  invFun e := (⟨e.val / 262144, by have := e.isLt; omega⟩, ⟨e.val % 262144 / 512, by omega⟩, ⟨e.val % 512, by omega⟩)
  left_inv p := by
    obtain ⟨r, s, t⟩ := p
    have := s.isLt; have := t.isLt
    refine Prod.ext (Fin.ext ?_) (Prod.ext (Fin.ext ?_) (Fin.ext ?_))
    · show (r.val * 262144 + s.val * 512 + t.val) / 262144 = r.val; omega
    · show (r.val * 262144 + s.val * 512 + t.val) % 262144 / 512 = s.val; omega
    · show (r.val * 262144 + s.val * 512 + t.val) % 512 = t.val; omega
  right_inv e := Fin.ext (by show e.val / 262144 * 262144 + e.val % 262144 / 512 * 512 + e.val % 512 = e.val; omega)

/-- A sum over the 524288 joined entries is the iterated sum over piece, row and column. -/
theorem sum_enc {M : Type*} [AddCommMonoid M] (f : Fin 524288 → M) :
    ∑ e : Fin 524288, f e = ∑ r : Fin 2, ∑ s : Fin 512, ∑ t : Fin 512, f (enc r s t) := by
  rw [← Fintype.sum_equiv encEquiv (fun p => f (enc p.1 p.2.1 p.2.2)) f (fun _ => rfl)]
  rw [Fintype.sum_prod_type]
  refine Finset.sum_congr rfl fun r _ => ?_
  rw [Fintype.sum_prod_type]

end Cert.Lib
-- ==== Proof.KNorm.lean ====
import proofs.«146448_g81114752352452_cont_sun_c4_492_11_alg».proof.Proof.Gen.KernelIdeal.Frame
import proofs.«146448_g81114752352452_cont_sun_c4_492_11_alg».proof.Proof.Spec
import proofs.«146448_g81114752352452_cont_sun_c4_492_11_alg».proof.Proof.LibFinSplit
import Idealize.ShloMosaic.Lib.ValueIdx
import Idealize.ShloMosaic.Lib.ValueLayout
import Idealize.ShloMosaic.Lib.Pipeline.Value
import Idealize.ShloMosaic.PureOps.Ideal.Laws

/-!
# The kernel's small pieces, read at an index

The kernel stacks the two edge masks into one 1024 × 512 array of zeros and ones (row `r * 512 + s` is source `s`
under edge type `r`), obtains the in-degrees as a row of ones times that array, the normalizer from them, and keeps
every operand transposed (features as columns). Each piece is read here at an index, as the specification's term.
-/

noncomputable section

open scoped BigOperators

namespace Cert.KernelIdeal.Hand

open Cert.KernelIdeal Cert.KernelIdeal.Gen Idealize.ShloMosaic Idealize.ShloMosaic.ValueIdx Cert.Spec Cert.Lib

/-- The dense adjacency as a function of (type, source, target). -/
abbrev adjOf (x0 : Vec Ideal S2x512x512 .f32) : Fin 2 → Fin 512 → Fin 512 → EReal := fun r s t => x0 (ix3 r s t)

/-- A bit widened to a word and read as a signed integer is the number 0 or 1. -/
theorem sitofp_extui_bit (b : BitVec 1) :
    FloatOps.sitofp (F := Ideal) .f32 (b.setWidth 32) = ind b := by
  by_cases h : b = 1#1
  · subst h
    show (((((1#1 : BitVec 1).setWidth 32).toInt : ℝ)) : EReal) = ind 1#1
    rw [show ((1#1 : BitVec 1).setWidth 32).toInt = 1 by decide]
    simp [ind]
  · have h0 := eq_zero_of_ne_one h
    subst h0
    show (((((0#1 : BitVec 1).setWidth 32).toInt : ℝ)) : EReal) = ind 0#1
    rw [show ((0#1 : BitVec 1).setWidth 32).toInt = 0 by decide]
    simp [ind]

/-- One edge type's mask: the comparison with one half, as the number 0 or 1. -/
theorem mask_piece_apply (v : Vec Ideal S1x512x512 .f32) (s t : Fin 512) :
    (truncf .bf16 (sitofp .f32 (extui 32 (cmpf .ogt (shapeCast S512x512 v shapeCasts_S1x512x512_S512x512)
        (broadcast S512x512 (Scalar.ofBits (F := Ideal) .f32 0x3F000000#32))) natLt_1_32)) bitsLt_bf16_f32
      : FVec Ideal S512x512 .bf16) (ix2 s t)
      = ind (Ideal.cmp .ogt (v (ix3 (0 : Fin 1) s t)) (Ideal.ofBits .f32 0x3F000000#32)) := by
  show FloatOps.sitofp (F := Ideal) .f32
      ((FloatOps.cmpf .ogt (shapeCast S512x512 v shapeCasts_S1x512x512_S512x512 (ix2 s t))
        (Scalar.ofBits (F := Ideal) .f32 0x3F000000#32)).setWidth 32) = _
  rw [shapeCast_1ab_ab_apply, sitofp_extui_bit]
  rfl

/-- The first slab of the adjacency is edge type 0. -/
theorem a0_apply (x0 : Vec Ideal S2x512x512 .f32) (s t : Fin 512) :
    View.ld x0 r0_0 (ix3 (0 : Fin 1) s t) = x0 (ix3 (0 : Fin 2) s t) := by
  show x0 (r0_0.idx (ix3 (0 : Fin 1) s t)) = _
  congr 1
  funext a
  apply Fin.ext
  match a with
  | ⟨0, _⟩ => rfl
  | ⟨1, _⟩ => show 0 + 1 * s.val = s.val; omega
  | ⟨2, _⟩ => show 0 + 1 * t.val = t.val; omega

/-- The second slab of the adjacency is edge type 1. -/
theorem a1_apply (x0 : Vec Ideal S2x512x512 .f32) (s t : Fin 512) :
    View.ld x0 r0_1 (ix3 (0 : Fin 1) s t) = x0 (ix3 (1 : Fin 2) s t) := by
  show x0 (r0_1.idx (ix3 (0 : Fin 1) s t)) = _
  congr 1
  funext a
  apply Fin.ext
  match a with
  | ⟨0, _⟩ => rfl
  | ⟨1, _⟩ => show 0 + 1 * s.val = s.val; omega
  | ⟨2, _⟩ => show 0 + 1 * t.val = t.val; omega

/-- The stacked mask: row `r * 512 + s`, column `t`, is 1 when the edge `s → t` of type `r` is present, else 0. -/
theorem mcat_apply (x0 : Vec Ideal S2x512x512 .f32) (r : Fin 2) (s t : Fin 512) :
    k0_pay2 (F := Ideal) (View.ld x0 r0_0) (View.ld x0 r0_1) (ix2 (cat r s) t) = ind (edge (adjOf x0) r s t) := by
  unfold k0_pay2
  obtain ⟨rv, hr⟩ := r
  match rv, hr with
  | 0, _ =>
    -- rows below 512 lie in the first piece, at the same position
    refine (concatenate_pair_apply_left (t := S1024x512) (0 : Fin 2) _ _ concatenates_S512x512_S512x512_S1024x512_d0
      (ix2 (cat (0 : Fin 2) s) t) rfl (ix2 s t)
      (fun b => match b with
        | ⟨0, _⟩ => by show s.val = 0 * 512 + s.val; omega
        | ⟨1, _⟩ => rfl)).trans ?_
    rw [mask_piece_apply, a0_apply]
    rfl
  | 1, _ =>
    -- rows from 512 on lie in the second piece, 512 rows further up
    refine (concatenate_pair_apply_right (t := S1024x512) (0 : Fin 2) _ _ concatenates_S512x512_S512x512_S1024x512_d0
      (ix2 (cat (1 : Fin 2) s) t) rfl rfl (ix2 s t)
      (fun b => match b with | ⟨0, _⟩ => fun h => absurd rfl h | ⟨1, _⟩ => fun _ => rfl)
      (by show s.val + 512 = 1 * 512 + s.val; omega)).trans ?_
    rw [mask_piece_apply, a1_apply]
    rfl

/-- The bf16 word of one denotes the number one. -/
theorem ofBits_bf16_one : Ideal.ofBits .bf16 0x3F80#16 = 1 := by
  simp [Ideal.ofBits, Ideal.ieee, -EReal.coe_mul]; norm_num

/-- In the product of the row of ones with the stacked mask, the right operand's index on the contracted axis is the
contraction index. -/
theorem rhs_deg_0 (i : S1x512.Idx) (q : dot_S1x1024_S1024x512_S1x512_1_0_0_1_n_n.contr.Idx) :
    (dot_S1x1024_S1024x512_S1x512_1_0_0_1_n_n.rhsIdx i q 0).val = (q ⟨0, by decide⟩).val :=
  dot_S1x1024_S1024x512_S1x512_1_0_0_1_n_n.rhsIdx_val_of_single rfl i q

/-- In the same product, the right operand's index on the kept axis is the output's column. -/
theorem rhs_deg_1 (i : S1x512.Idx) (q : dot_S1x1024_S1024x512_S1x512_1_0_0_1_n_n.contr.Idx) :
    (dot_S1x1024_S1024x512_S1x512_1_0_0_1_n_n.rhsIdx i q 1).val = (i 1).val := by
  unfold DotDims.rhsIdx
  rw [dif_neg (show ¬(1 : Fin S1024x512.rank) ∈ dot_S1x1024_S1024x512_S1x512_1_0_0_1_n_n.rhsBatch by decide), dif_pos (show (1 : Fin S1024x512.rank) ∈ dot_S1x1024_S1024x512_S1x512_1_0_0_1_n_n.rhsNonContracting by decide)]
  rfl

/-- The row of ones times the stacked mask is the in-degree: column `t` of the product sums the mask's column `t`
over the 1024 stacked rows, that is over both edge types and all sources. -/
theorem deg_apply (x0 : Vec Ideal S2x512x512 .f32) (t : Fin 512) :
    FloatOps.matmul (F := Ideal) dot_S1x1024_S1024x512_S1x512_1_0_0_1_n_n none
        (broadcast S1x1024 (Scalar.ofBits (F := Ideal) .bf16 0x3F80#16))
        (k0_pay2 (F := Ideal) (View.ld x0 r0_0) (View.ld x0 r0_1))
        (constant (F := Ideal) S1x512 .f32 0x00000000#32) (ix2 (0 : Fin 1) t)
      = deg (edge (adjOf x0)) t := by
  rw [Ideal.matmul_constant_zero_apply,
    ← Equiv.sum_comp (ValueIdx.contrEquiv1 dot_S1x1024_S1024x512_S1x512_1_0_0_1_n_n 1024 rfl rfl).symm]
  -- each term is one times the mask at (row e, column t)
  have step : ∀ e : Fin 1024,
      (broadcast S1x1024 (Scalar.ofBits (F := Ideal) .bf16 0x3F80#16)
          (dot_S1x1024_S1024x512_S1x512_1_0_0_1_n_n.lhsIdx (ix2 (0 : Fin 1) t)
            ((ValueIdx.contrEquiv1 dot_S1x1024_S1024x512_S1x512_1_0_0_1_n_n 1024 rfl rfl).symm e)))
        * k0_pay2 (F := Ideal) (View.ld x0 r0_0) (View.ld x0 r0_1)
          (dot_S1x1024_S1024x512_S1x512_1_0_0_1_n_n.rhsIdx (ix2 (0 : Fin 1) t)
            ((ValueIdx.contrEquiv1 dot_S1x1024_S1024x512_S1x512_1_0_0_1_n_n 1024 rfl rfl).symm e))
        = k0_pay2 (F := Ideal) (View.ld x0 r0_0) (View.ld x0 r0_1) (ix2 e t) := by
    intro e
    have hk := ValueIdx.contrEquiv1_symm_val dot_S1x1024_S1024x512_S1x512_1_0_0_1_n_n 1024 rfl rfl e
    have er : dot_S1x1024_S1024x512_S1x512_1_0_0_1_n_n.rhsIdx (ix2 (0 : Fin 1) t)
        ((ValueIdx.contrEquiv1 dot_S1x1024_S1024x512_S1x512_1_0_0_1_n_n 1024 rfl rfl).symm e) = ix2 e t :=
      funext fun a => Fin.ext (by
        match a with
        | ⟨0, _⟩ => exact (rhs_deg_0 _ _).trans hk
        | ⟨1, _⟩ => exact rhs_deg_1 _ _)
    rw [er]
    show Ideal.ofBits .bf16 0x3F80#16 * _ = _
    rw [ofBits_bf16_one, one_mul]
  rw [Finset.sum_congr rfl (fun e _ => step e), sum_cat]
  unfold deg
  refine Finset.sum_congr rfl fun r _ => Finset.sum_congr rfl fun s _ => ?_
  exact mcat_apply x0 r s t

/-- Choosing by the bit of "greater than zero" is choosing by the inequality. -/
theorem select_pos (D a : EReal) :
    Scalar.select (Ideal.cmp .ogt D 0) a 0 = if 0 < D then a else 0 := by
  unfold Ideal.cmp Scalar.select
  by_cases h : 0 < D
  · simp [h]
  · simp [h]

/-- The normalizer row: the reciprocal square root of the in-degree, zero for an isolated node. -/
theorem norm_apply (x0 : Vec Ideal S2x512x512 .f32) (t : Fin 512) :
    k0_pay3 (F := Ideal) (View.ld x0 r0_0) (View.ld x0 r0_1) (ix2 (0 : Fin 1) t) = nrmK (edge (adjOf x0)) t := by
  unfold k0_pay3
  show Scalar.select
      (FloatOps.cmpf .ogt
        (FloatOps.matmul (F := Ideal) dot_S1x1024_S1024x512_S1x512_1_0_0_1_n_n none
          (broadcast S1x1024 (Scalar.ofBits (F := Ideal) .bf16 0x3F80#16))
          (k0_pay2 (F := Ideal) (View.ld x0 r0_0) (View.ld x0 r0_1))
          (constant (F := Ideal) S1x512 .f32 0x00000000#32) (ix2 (0 : Fin 1) t))
        (Scalar.ofBits (F := Ideal) .f32 0x00000000#32))
      (FloatOps.rsqrt
        (FloatOps.matmul (F := Ideal) dot_S1x1024_S1024x512_S1x512_1_0_0_1_n_n none
          (broadcast S1x1024 (Scalar.ofBits (F := Ideal) .bf16 0x3F80#16))
          (k0_pay2 (F := Ideal) (View.ld x0 r0_0) (View.ld x0 r0_1))
          (constant (F := Ideal) S1x512 .f32 0x00000000#32) (ix2 (0 : Fin 1) t)))
      (Scalar.ofBits (F := Ideal) .f32 0x00000000#32) = _
  rw [deg_apply]
  show Scalar.select (Ideal.cmp .ogt (deg (edge (adjOf x0)) t) (Ideal.ofBits .f32 0x00000000#32))
      (Ideal.rsqrt (deg (edge (adjOf x0)) t)) (Ideal.ofBits .f32 0x00000000#32) = _
  rw [Ideal.ofBits_zero_f32, select_pos]
  rfl

/-- The node features, transposed. -/
theorem hT_apply (x1 : Vec Ideal S512x128 .f32) (k : Fin 128) (t : Fin 512) :
    k0_pay4 (F := Ideal) (View.ld x1 r0_2) (ix2 k t) = x1 (ix2 t k) := by
  have hz : (![0, 0] : Fin 2 → Nat) = fun _ => 0 := by funext a; match a with | ⟨0, _⟩ => rfl | ⟨1, _⟩ => rfl
  have hl : View.ld x1 r0_2 = x1 := View.ld_unit_zero (S := S512x128) hz _ x1
  unfold k0_pay4
  rw [hl]
  exact transpose_ix2_apply x1 _ k t

/-- The forward relation features (the first two of four rows), transposed. -/
theorem relT_apply (x2 : Vec Ideal S4x128 .f32) (k : Fin 128) (r : Fin 2) :
    k0_pay5 (F := Ideal) (View.ld x2 r0_3) (ix2 k r) = x2 (ix2 (Fin.castLE (by decide) r : Fin 4) k) := by
  unfold k0_pay5
  rw [transpose_ix2_apply]
  show x2 (r0_3.idx (ix2 r k)) = _
  congr 1
  funext a
  apply Fin.ext
  match a with
  | ⟨0, _⟩ => show 0 + 1 * r.val = r.val; omega
  | ⟨1, _⟩ => show 0 + 1 * k.val = k.val; omega

/-- The biases, transposed. -/
theorem bT_apply (x6 : Vec Ideal S2x128 .f32) (j : Fin 128) (l : Fin 2) :
    k0_pay6 (F := Ideal) (View.ld x6 r0_4) (ix2 j l) = x6 (ix2 l j) := by
  have hz : (![0, 0] : Fin 2 → Nat) = fun _ => 0 := by funext a; match a with | ⟨0, _⟩ => rfl | ⟨1, _⟩ => rfl
  have hl : View.ld x6 r0_4 = x6 := View.ld_unit_zero (S := S2x128) hz _ x6
  unfold k0_pay6
  rw [hl]
  exact transpose_ix2_apply x6 _ j l

/-- The first slab of the self-loop relation features is layer 0's row. -/
theorem lr0_apply (x7 : Vec Ideal S2x1x128 .f32) (k : Fin 128) :
    View.ld x7 r0_5 (ix3 (0 : Fin 1) (0 : Fin 1) k) = x7 (ix3 (0 : Fin 2) (0 : Fin 1) k) := by
  show x7 (r0_5.idx (ix3 (0 : Fin 1) (0 : Fin 1) k)) = _
  congr 1
  funext a
  apply Fin.ext
  match a with
  | ⟨0, _⟩ => rfl
  | ⟨1, _⟩ => rfl
  | ⟨2, _⟩ => show 0 + 1 * k.val = k.val; omega

/-- The second slab of the self-loop relation features is layer 1's row. -/
theorem lr1_apply (x7 : Vec Ideal S2x1x128 .f32) (k : Fin 128) :
    View.ld x7 r0_6 (ix3 (0 : Fin 1) (0 : Fin 1) k) = x7 (ix3 (1 : Fin 2) (0 : Fin 1) k) := by
  show x7 (r0_6.idx (ix3 (0 : Fin 1) (0 : Fin 1) k)) = _
  congr 1
  funext a
  apply Fin.ext
  match a with
  | ⟨0, _⟩ => rfl
  | ⟨1, _⟩ => rfl
  | ⟨2, _⟩ => show 0 + 1 * k.val = k.val; omega

/-- The self-loop relation features of both layers, stacked and transposed. -/
theorem lrT_apply (x7 : Vec Ideal S2x1x128 .f32) (k : Fin 128) (l : Fin 2) :
    k0_pay7 (F := Ideal) (View.ld x7 r0_5) (View.ld x7 r0_6) (ix2 k l) = x7 (ix3 l (0 : Fin 1) k) := by
  unfold k0_pay7
  rw [transpose_ix2_apply]
  obtain ⟨lv, hl⟩ := l
  match lv, hl with
  | 0, _ =>
    refine (concatenate_pair_apply_left (t := S2x128) (0 : Fin 2) _ _ concatenates_S1x128_S1x128_S2x128_d0
      (ix2 (0 : Fin 2) k) rfl (ix2 (0 : Fin 1) k) (fun b => match b with | ⟨0, _⟩ => rfl | ⟨1, _⟩ => rfl)).trans ?_
    rw [shapeCast_1ab_ab_apply]
    exact lr0_apply x7 k
  | 1, _ =>
    refine (concatenate_pair_apply_right (t := S2x128) (0 : Fin 2) _ _ concatenates_S1x128_S1x128_S2x128_d0
      (ix2 (1 : Fin 2) k) rfl rfl (ix2 (0 : Fin 1) k)
      (fun b => match b with | ⟨0, _⟩ => fun h => absurd rfl h | ⟨1, _⟩ => fun _ => rfl) rfl).trans ?_
    rw [shapeCast_1ab_ab_apply]
    exact lr1_apply x7 k

/-- The node features weighted by their own normalizer, transposed. -/
theorem hnT_apply (x0 : Vec Ideal S2x512x512 .f32) (x1 : Vec Ideal S512x128 .f32) (k : Fin 128) (t : Fin 512) :
    k0_pay8 (F := Ideal) (View.ld x0 r0_0) (View.ld x0 r0_1) (View.ld x1 r0_2) (ix2 k t)
      = x1 (ix2 t k) * nrmK (edge (adjOf x0)) t := by
  unfold k0_pay8
  show k0_pay4 (F := Ideal) (View.ld x1 r0_2) (ix2 k t)
      * broadcastTo S128x512 (k0_pay3 (F := Ideal) (View.ld x0 r0_0) (View.ld x0 r0_1)) broadcasts_S1x512_S128x512 (ix2 k t) = _
  rw [hT_apply, broadcastTo_1b_ab_apply, norm_apply]

/-- Layer 0's slice of a stacked weight. -/
theorem w0_apply (x3 : Vec Ideal S2x128x128 .f32) (k j : Fin 128) :
    View.ld x3 r0_7 (ix3 (0 : Fin 1) k j) = x3 (ix3 (0 : Fin 2) k j) := by
  show x3 (r0_7.idx (ix3 (0 : Fin 1) k j)) = x3 (ix3 (0 : Fin 2) k j)
  congr 1
  funext a
  apply Fin.ext
  match a with
  | ⟨0, _⟩ => rfl
  | ⟨1, _⟩ => show 0 + 1 * k.val = k.val; omega
  | ⟨2, _⟩ => show 0 + 1 * j.val = j.val; omega

/-- Layer 1's slice of a stacked weight. -/
theorem w1_apply (x3 : Vec Ideal S2x128x128 .f32) (k j : Fin 128) :
    View.ld x3 r0_8 (ix3 (0 : Fin 1) k j) = x3 (ix3 (1 : Fin 2) k j) := by
  show x3 (r0_8.idx (ix3 (0 : Fin 1) k j)) = x3 (ix3 (1 : Fin 2) k j)
  congr 1
  funext a
  apply Fin.ext
  match a with
  | ⟨0, _⟩ => rfl
  | ⟨1, _⟩ => show 0 + 1 * k.val = k.val; omega
  | ⟨2, _⟩ => show 0 + 1 * j.val = j.val; omega

/-- Layer 1's slice of the message weight, as a matrix. -/
theorem w1m_apply (x3 : Vec Ideal S2x128x128 .f32) (k j : Fin 128) :
    k0_pay11 (F := Ideal) (View.ld x3 r0_8) (ix2 k j) = x3 (ix3 (1 : Fin 2) k j) := by
  unfold k0_pay11
  rw [shapeCast_1ab_ab_apply]
  exact w1_apply x3 k j

end Cert.KernelIdeal.Hand

end
-- ==== Proof.KLayer.lean ====
import proofs.«146448_g81114752352452_cont_sun_c4_492_11_alg».proof.Proof.Gen.KernelIdeal.Frame
import proofs.«146448_g81114752352452_cont_sun_c4_492_11_alg».proof.Proof.Spec
import proofs.«146448_g81114752352452_cont_sun_c4_492_11_alg».proof.Proof.LibFinSplit
import Idealize.ShloMosaic.Lib.ValueIdx
import Idealize.ShloMosaic.Lib.ValueLayout
import Idealize.ShloMosaic.Lib.Pipeline.Value
import Idealize.ShloMosaic.PureOps.Ideal.Laws
import proofs.«146448_g81114752352452_cont_sun_c4_492_11_alg».proof.Proof.KNorm

/-!
# The kernel's two layers, read at an index

With the pieces of the previous module in hand, the body's stored value is the two-layer function in its first
arrangement: the edge sum is a product with the stacked mask over 1024 = 2 × 512 rows, taken before the contraction
with the message weight, and the target's normalizer multiplies last.
-/

noncomputable section

open scoped BigOperators

namespace Cert.KernelIdeal.Hand

open Cert.KernelIdeal Cert.KernelIdeal.Gen Idealize.ShloMosaic Idealize.ShloMosaic.ValueIdx Cert.Spec Cert.Lib

/-! ## The contractions, read at an index -/

theorem lhs_w_0 (i : S128x512.Idx) (q : dot_S128x128_S128x512_S128x512_0_0_1_1_n_n.contr.Idx) :
    (dot_S128x128_S128x512_S128x512_0_0_1_1_n_n.lhsIdx i q 0).val = (q ⟨0, by decide⟩).val :=
  dot_S128x128_S128x512_S128x512_0_0_1_1_n_n.lhsIdx_val_of_single rfl i q
theorem lhs_w_1 (i : S128x512.Idx) (q : dot_S128x128_S128x512_S128x512_0_0_1_1_n_n.contr.Idx) :
    (dot_S128x128_S128x512_S128x512_0_0_1_1_n_n.lhsIdx i q 1).val = (i 0).val := by
  unfold DotDims.lhsIdx
  rw [dif_neg (show ¬(1 : Fin S128x128.rank) ∈ dot_S128x128_S128x512_S128x512_0_0_1_1_n_n.lhsBatch by decide), dif_pos (show (1 : Fin S128x128.rank) ∈ dot_S128x128_S128x512_S128x512_0_0_1_1_n_n.lhsNonContracting by decide)]
  rfl
theorem rhs_w_0 (i : S128x512.Idx) (q : dot_S128x128_S128x512_S128x512_0_0_1_1_n_n.contr.Idx) :
    (dot_S128x128_S128x512_S128x512_0_0_1_1_n_n.rhsIdx i q 0).val = (q ⟨0, by decide⟩).val :=
  dot_S128x128_S128x512_S128x512_0_0_1_1_n_n.rhsIdx_val_of_single rfl i q
theorem rhs_w_1 (i : S128x512.Idx) (q : dot_S128x128_S128x512_S128x512_0_0_1_1_n_n.contr.Idx) :
    (dot_S128x128_S128x512_S128x512_0_0_1_1_n_n.rhsIdx i q 1).val = (i 1).val := by
  unfold DotDims.rhsIdx
  rw [dif_neg (show ¬(1 : Fin S128x512.rank) ∈ dot_S128x128_S128x512_S128x512_0_0_1_1_n_n.rhsBatch by decide), dif_pos (show (1 : Fin S128x512.rank) ∈ dot_S128x128_S128x512_S128x512_0_0_1_1_n_n.rhsNonContracting by decide)]
  rfl

/-- A weight applied on the left: entry `(j, t)` of the product contracts the first axis of both factors. -/
theorem mmW_apply (L : FVec Ideal S128x128 .f32) (R : FVec Ideal S128x512 .f32) (j : Fin 128) (t : Fin 512) :
    matmul dot_S128x128_S128x512_S128x512_0_0_1_1_n_n none L R (constant (F := Ideal) S128x512 .f32 0x00000000#32) (ix2 j t)
      = ∑ k : Fin 128, L (ix2 k j) * R (ix2 k t) := by
  simp only [matmul]
  rw [Ideal.matmul_constant_zero_apply, ← Equiv.sum_comp (contrEquiv1 dot_S128x128_S128x512_S128x512_0_0_1_1_n_n 128 rfl rfl).symm]
  refine Finset.sum_congr rfl fun k _ => ?_
  have hk := contrEquiv1_symm_val dot_S128x128_S128x512_S128x512_0_0_1_1_n_n 128 rfl rfl k
  have el : dot_S128x128_S128x512_S128x512_0_0_1_1_n_n.lhsIdx (ix2 j t) ((contrEquiv1 dot_S128x128_S128x512_S128x512_0_0_1_1_n_n 128 rfl rfl).symm k) = ix2 k j := funext fun a => Fin.ext (by
    match a with
    | ⟨0, _⟩ => exact (lhs_w_0 _ _).trans hk
    | ⟨1, _⟩ => exact lhs_w_1 _ _)
  have er : dot_S128x128_S128x512_S128x512_0_0_1_1_n_n.rhsIdx (ix2 j t) ((contrEquiv1 dot_S128x128_S128x512_S128x512_0_0_1_1_n_n 128 rfl rfl).symm k) = ix2 k t := funext fun a => Fin.ext (by
    match a with
    | ⟨0, _⟩ => exact (rhs_w_0 _ _).trans hk
    | ⟨1, _⟩ => exact rhs_w_1 _ _)
  rw [el, er]

theorem lhs_m_0 (i : S128x512.Idx) (q : dot_S128x1024_S1024x512_S128x512_1_0_0_1_n_n.contr.Idx) :
    (dot_S128x1024_S1024x512_S128x512_1_0_0_1_n_n.lhsIdx i q 0).val = (i 0).val := by
  unfold DotDims.lhsIdx
  rw [dif_neg (show ¬(0 : Fin S128x1024.rank) ∈ dot_S128x1024_S1024x512_S128x512_1_0_0_1_n_n.lhsBatch by decide), dif_pos (show (0 : Fin S128x1024.rank) ∈ dot_S128x1024_S1024x512_S128x512_1_0_0_1_n_n.lhsNonContracting by decide)]
  rfl
theorem lhs_m_1 (i : S128x512.Idx) (q : dot_S128x1024_S1024x512_S128x512_1_0_0_1_n_n.contr.Idx) :
    (dot_S128x1024_S1024x512_S128x512_1_0_0_1_n_n.lhsIdx i q 1).val = (q ⟨0, by decide⟩).val :=
  dot_S128x1024_S1024x512_S128x512_1_0_0_1_n_n.lhsIdx_val_of_single rfl i q
theorem rhs_m_0 (i : S128x512.Idx) (q : dot_S128x1024_S1024x512_S128x512_1_0_0_1_n_n.contr.Idx) :
    (dot_S128x1024_S1024x512_S128x512_1_0_0_1_n_n.rhsIdx i q 0).val = (q ⟨0, by decide⟩).val :=
  dot_S128x1024_S1024x512_S128x512_1_0_0_1_n_n.rhsIdx_val_of_single rfl i q
theorem rhs_m_1 (i : S128x512.Idx) (q : dot_S128x1024_S1024x512_S128x512_1_0_0_1_n_n.contr.Idx) :
    (dot_S128x1024_S1024x512_S128x512_1_0_0_1_n_n.rhsIdx i q 1).val = (i 1).val := by
  unfold DotDims.rhsIdx
  rw [dif_neg (show ¬(1 : Fin S1024x512.rank) ∈ dot_S128x1024_S1024x512_S128x512_1_0_0_1_n_n.rhsBatch by decide), dif_pos (show (1 : Fin S1024x512.rank) ∈ dot_S128x1024_S1024x512_S128x512_1_0_0_1_n_n.rhsNonContracting by decide)]
  rfl

/-- The product with the stacked mask: entry `(k, t)` contracts the 1024 stacked rows. -/
theorem mmM_apply (L : FVec Ideal S128x1024 .bf16) (R : FVec Ideal S1024x512 .bf16) (k : Fin 128) (t : Fin 512) :
    matmul dot_S128x1024_S1024x512_S128x512_1_0_0_1_n_n none L R (constant (F := Ideal) S128x512 .f32 0x00000000#32) (ix2 k t)
      = ∑ e : Fin 1024, L (ix2 k e) * R (ix2 e t) := by
  simp only [matmul]
  rw [Ideal.matmul_constant_zero_apply, ← Equiv.sum_comp (contrEquiv1 dot_S128x1024_S1024x512_S128x512_1_0_0_1_n_n 1024 rfl rfl).symm]
  refine Finset.sum_congr rfl fun e _ => ?_
  have he := contrEquiv1_symm_val dot_S128x1024_S1024x512_S128x512_1_0_0_1_n_n 1024 rfl rfl e
  have el : dot_S128x1024_S1024x512_S128x512_1_0_0_1_n_n.lhsIdx (ix2 k t) ((contrEquiv1 dot_S128x1024_S1024x512_S128x512_1_0_0_1_n_n 1024 rfl rfl).symm e) = ix2 k e := funext fun a => Fin.ext (by
    match a with
    | ⟨0, _⟩ => exact lhs_m_0 _ _
    | ⟨1, _⟩ => exact (lhs_m_1 _ _).trans he)
  have er : dot_S128x1024_S1024x512_S128x512_1_0_0_1_n_n.rhsIdx (ix2 k t) ((contrEquiv1 dot_S128x1024_S1024x512_S128x512_1_0_0_1_n_n 1024 rfl rfl).symm e) = ix2 e t := funext fun a => Fin.ext (by
    match a with
    | ⟨0, _⟩ => exact (rhs_m_0 _ _).trans he
    | ⟨1, _⟩ => exact rhs_m_1 _ _)
  rw [el, er]

theorem lhs_r_0 (i : S128x2.Idx) (q : dot_S128x128_S128x2_S128x2_0_0_1_1_n_n.contr.Idx) :
    (dot_S128x128_S128x2_S128x2_0_0_1_1_n_n.lhsIdx i q 0).val = (q ⟨0, by decide⟩).val :=
  dot_S128x128_S128x2_S128x2_0_0_1_1_n_n.lhsIdx_val_of_single rfl i q
theorem lhs_r_1 (i : S128x2.Idx) (q : dot_S128x128_S128x2_S128x2_0_0_1_1_n_n.contr.Idx) :
    (dot_S128x128_S128x2_S128x2_0_0_1_1_n_n.lhsIdx i q 1).val = (i 0).val := by
  unfold DotDims.lhsIdx
  rw [dif_neg (show ¬(1 : Fin S128x128.rank) ∈ dot_S128x128_S128x2_S128x2_0_0_1_1_n_n.lhsBatch by decide), dif_pos (show (1 : Fin S128x128.rank) ∈ dot_S128x128_S128x2_S128x2_0_0_1_1_n_n.lhsNonContracting by decide)]
  rfl
theorem rhs_r_0 (i : S128x2.Idx) (q : dot_S128x128_S128x2_S128x2_0_0_1_1_n_n.contr.Idx) :
    (dot_S128x128_S128x2_S128x2_0_0_1_1_n_n.rhsIdx i q 0).val = (q ⟨0, by decide⟩).val :=
  dot_S128x128_S128x2_S128x2_0_0_1_1_n_n.rhsIdx_val_of_single rfl i q
theorem rhs_r_1 (i : S128x2.Idx) (q : dot_S128x128_S128x2_S128x2_0_0_1_1_n_n.contr.Idx) :
    (dot_S128x128_S128x2_S128x2_0_0_1_1_n_n.rhsIdx i q 1).val = (i 1).val := by
  unfold DotDims.rhsIdx
  rw [dif_neg (show ¬(1 : Fin S128x2.rank) ∈ dot_S128x128_S128x2_S128x2_0_0_1_1_n_n.rhsBatch by decide), dif_pos (show (1 : Fin S128x2.rank) ∈ dot_S128x128_S128x2_S128x2_0_0_1_1_n_n.rhsNonContracting by decide)]
  rfl

/-- The relation weight applied on the left of the two relation columns. -/
theorem mmR_apply (L : FVec Ideal S128x128 .f32) (R : FVec Ideal S128x2 .f32) (j : Fin 128) (r : Fin 2) :
    matmul dot_S128x128_S128x2_S128x2_0_0_1_1_n_n none L R (constant (F := Ideal) S128x2 .f32 0x00000000#32) (ix2 j r)
      = ∑ k : Fin 128, L (ix2 k j) * R (ix2 k r) := by
  simp only [matmul]
  rw [Ideal.matmul_constant_zero_apply, ← Equiv.sum_comp (contrEquiv1 dot_S128x128_S128x2_S128x2_0_0_1_1_n_n 128 rfl rfl).symm]
  refine Finset.sum_congr rfl fun k _ => ?_
  have hk := contrEquiv1_symm_val dot_S128x128_S128x2_S128x2_0_0_1_1_n_n 128 rfl rfl k
  have el : dot_S128x128_S128x2_S128x2_0_0_1_1_n_n.lhsIdx (ix2 j r) ((contrEquiv1 dot_S128x128_S128x2_S128x2_0_0_1_1_n_n 128 rfl rfl).symm k) = ix2 k j := funext fun a => Fin.ext (by
    match a with
    | ⟨0, _⟩ => exact (lhs_r_0 _ _).trans hk
    | ⟨1, _⟩ => exact lhs_r_1 _ _)
  have er : dot_S128x128_S128x2_S128x2_0_0_1_1_n_n.rhsIdx (ix2 j r) ((contrEquiv1 dot_S128x128_S128x2_S128x2_0_0_1_1_n_n 128 rfl rfl).symm k) = ix2 k r := funext fun a => Fin.ext (by
    match a with
    | ⟨0, _⟩ => exact (rhs_r_0 _ _).trans hk
    | ⟨1, _⟩ => exact rhs_r_1 _ _)
  rw [el, er]

/-! ## The layout operations, read at an index -/

/-- The hyperbolic tangent of a vector, read at an index. -/
theorem tanh_apply {s : Shape} {φ : FTy} (a : FVec Ideal s φ) (i : s.Idx) : tanh a i = Ideal.tanh (a i) := rfl

/-- Column 0 of a 128 × 2 array, kept as a 128 × 1 array. -/
theorem col0_apply (v : FVec Ideal S128x2 .f32) (h : S128x2.Slices ![0, 0] S128x1) (k : Fin 128) :
    extractStridedSlice S128x1 ![0, 0] v h (ix2 k (0 : Fin 1)) = v (ix2 k (0 : Fin 2)) :=
  slice2_axis1_apply 0 v h k 0 0 rfl

/-- Column 1 of a 128 × 2 array, kept as a 128 × 1 array. -/
theorem col1_apply (v : FVec Ideal S128x2 .f32) (h : S128x2.Slices ![0, 1] S128x1) (k : Fin 128) :
    extractStridedSlice S128x1 ![0, 1] v h (ix2 k (0 : Fin 1)) = v (ix2 k (1 : Fin 2)) :=
  slice2_axis1_apply 1 v h k 0 1 rfl

/-- A 128 × 1 column repeated along 512 columns reads, at `(k, t)`, the column at `k`. -/
theorem bcol_apply (v : FVec Ideal S128x1 .f32) (h : S128x1.Broadcasts S128x512) (k : Fin 128) (t : Fin 512) :
    broadcastTo S128x512 v h (ix2 k t) = v (ix2 k (0 : Fin 1)) := by
  refine broadcastTo_apply v h (ix2 k t) (ix2 k (0 : Fin 1)) fun ax => ?_
  match ax with
  | ⟨0, _⟩ => rfl
  | ⟨1, _⟩ => rfl

/-- Two 128 × 512 halves joined along the columns: column `r * 512 + s` is column `s` of half `r`. -/
theorem hcat_apply (A B : FVec Ideal S128x512 .bf16) (h : Shape.Concatenates [S128x512, S128x512] S128x1024 1)
    (P : Fin 2 → Fin 128 → Fin 512 → EReal) (hA : ∀ k s, A (ix2 k s) = P 0 k s) (hB : ∀ k s, B (ix2 k s) = P 1 k s)
    (k : Fin 128) (r : Fin 2) (s : Fin 512) :
    concatenate S128x1024 1 [⟨S128x512, A⟩, ⟨S128x512, B⟩] h (ix2 k (cat r s)) = P r k s := by
  match r with
  | ⟨0, _⟩ =>
    refine (concatenate_pair_apply_left 1 A B h (ix2 k (cat 0 s)) rfl (ix2 k s) (fun b => ?_)).trans (hA k s)
    match b with
    | ⟨0, _⟩ => rfl
    | ⟨1, _⟩ => show s.val = 0 * 512 + s.val; omega
  | ⟨1, _⟩ =>
    refine (concatenate_pair_apply_right 1 A B h (ix2 k (cat 1 s)) rfl rfl (ix2 k s) (fun b hb => ?_) ?_).trans (hB k s)
    · match b, hb with
      | ⟨0, _⟩, _ => rfl
      | ⟨1, _⟩, hb => exact absurd rfl hb
    · show s.val + 512 = 1 * 512 + s.val; omega

/-! ## The edge sum as a product with the stacked mask -/

/-- Features `u` (as columns), each weighted by one of the two relation columns of `c`, the two weighted copies
joined, times the stacked mask: entry `(k, t)` is the sum over the present edges `s → t` of type `r` of
`u (k, s) * c (k, r)`. -/
theorem msg_apply (v14 : FVec Ideal S1024x512 .bf16) (u : FVec Ideal S128x512 .f32) (c : FVec Ideal S128x2 .f32)
    (μ : Adj) (g : Fin 512 → Fin 128 → EReal) (q : Fin 2 → Fin 128 → EReal)
    (h14 : ∀ r s t, v14 (ix2 (cat r s) t) = ind (μ r s t)) (hu : ∀ k s, u (ix2 k s) = g s k)
    (hc : ∀ k r, c (ix2 k r) = q r k) (k : Fin 128) (t : Fin 512) :
    matmul dot_S128x1024_S1024x512_S128x512_1_0_0_1_n_n none
      (concatenate S128x1024 1
        [⟨S128x512, truncf .bf16 (mulf u (broadcastTo S128x512 (extractStridedSlice S128x1 ![0, 0] c slices_S128x2_o0_0_S128x1) broadcasts_S128x1_S128x512)) bitsLt_bf16_f32⟩,
         ⟨S128x512, truncf .bf16 (mulf u (broadcastTo S128x512 (extractStridedSlice S128x1 ![0, 1] c slices_S128x2_o0_1_S128x1) broadcasts_S128x1_S128x512)) bitsLt_bf16_f32⟩]
        concatenates_S128x512_S128x512_S128x1024_d1)
      v14 (constant (F := Ideal) S128x512 .f32 0x00000000#32) (ix2 k t)
    = ∑ r : Fin 2, ∑ s : Fin 512, (g s k * q r k) * ind (μ r s t) := by
  refine (mmM_apply _ _ k t).trans ?_
  rw [sum_cat]
  refine Finset.sum_congr rfl fun r _ => Finset.sum_congr rfl fun s _ => ?_
  rw [h14]
  refine congrArg (· * ind (μ r s t)) ?_
  refine hcat_apply _ _ _ (fun r k s => g s k * q r k) (fun k s => ?_) (fun k s => ?_) k r s
  · show u (ix2 k s) * broadcastTo S128x512 (extractStridedSlice S128x1 ![0, 0] c slices_S128x2_o0_0_S128x1) broadcasts_S128x1_S128x512 (ix2 k s) = _
    rw [bcol_apply, col0_apply, hu, hc]
  · show u (ix2 k s) * broadcastTo S128x512 (extractStridedSlice S128x1 ![0, 1] c slices_S128x2_o0_1_S128x1) broadcasts_S128x1_S128x512 (ix2 k s) = _
    rw [bcol_apply, col1_apply, hu, hc]

/-! ## The three payloads -/

/-- The first layer's value, features as columns: entry `(j, t)` is the layer at node `t`, feature `j`. -/
theorem pay9_apply (v14 : FVec Ideal S1024x512 .bf16) (v21 : FVec Ideal S1x512 .f32) (v23 : FVec Ideal S128x512 .f32)
    (v25 v27 v33 : FVec Ideal S128x2 .f32) (v35 : FVec Ideal S128x512 .f32) (v46 v51 : Vec Ideal S1x128x128 .f32)
    (nrm : Fin 512 → EReal) (μ : Adj) (h : Mat 512 128) (rl : Mat 2 128) (W WL : Mat 128 128) (bb lrr : Fin 128 → EReal)
    (h14 : ∀ r s t, v14 (ix2 (cat r s) t) = ind (μ r s t)) (h21 : ∀ t, v21 (ix2 (0 : Fin 1) t) = nrm t)
    (h23 : ∀ k t, v23 (ix2 k t) = h t k) (h25 : ∀ k r, v25 (ix2 k r) = rl r k)
    (h27 : ∀ j, v27 (ix2 j (0 : Fin 2)) = bb j) (h33 : ∀ k, v33 (ix2 k (0 : Fin 2)) = lrr k)
    (h35 : ∀ k t, v35 (ix2 k t) = h t k * nrm t)
    (h46 : ∀ k j, v46 (ix3 (0 : Fin 1) k j) = W k j) (h51 : ∀ k j, v51 (ix3 (0 : Fin 1) k j) = WL k j)
    (j : Fin 128) (t : Fin 512) :
    k0_pay9 (F := Ideal) v14 v21 v23 v25 v27 v33 v35 v46 v51 (ix2 j t) = layerK nrm μ h rl W WL bb lrr t j := by
  have hm := msg_apply v14 v35 v25 μ (fun s k => h s k * nrm s) rl h14 h35 h25
  unfold k0_pay9 layerK
  simp only [tanh_apply, addf_apply, mulf_apply, mmW_apply, hm, bcol_apply, col0_apply, broadcastTo_1b_ab_apply,
    shapeCast_1ab_ab_apply, h21, h23, h27, h33, h46, h51]

/-- The second layer's edge sum, features as columns: the first layer's value weighted by the source's normalizer and
by the next relation features, summed over the present edges into `t`. -/
theorem pay10_apply (v14 : FVec Ideal S1024x512 .bf16) (v21 : FVec Ideal S1x512 .f32) (v23 : FVec Ideal S128x512 .f32)
    (v25 v27 v33 : FVec Ideal S128x2 .f32) (v35 : FVec Ideal S128x512 .f32) (v46 v51 v62 : Vec Ideal S1x128x128 .f32)
    (nrm : Fin 512 → EReal) (μ : Adj) (h : Mat 512 128) (rl : Mat 2 128) (W WL WR : Mat 128 128) (bb lrr : Fin 128 → EReal)
    (h14 : ∀ r s t, v14 (ix2 (cat r s) t) = ind (μ r s t)) (h21 : ∀ t, v21 (ix2 (0 : Fin 1) t) = nrm t)
    (h23 : ∀ k t, v23 (ix2 k t) = h t k) (h25 : ∀ k r, v25 (ix2 k r) = rl r k)
    (h27 : ∀ j, v27 (ix2 j (0 : Fin 2)) = bb j) (h33 : ∀ k, v33 (ix2 k (0 : Fin 2)) = lrr k)
    (h35 : ∀ k t, v35 (ix2 k t) = h t k * nrm t)
    (h46 : ∀ k j, v46 (ix3 (0 : Fin 1) k j) = W k j) (h51 : ∀ k j, v51 (ix3 (0 : Fin 1) k j) = WL k j)
    (h62 : ∀ k j, v62 (ix3 (0 : Fin 1) k j) = WR k j) (k : Fin 128) (t : Fin 512) :
    k0_pay10 (F := Ideal) v14 v21 v23 v25 v27 v33 v35 v46 v51 v62 (ix2 k t)
      = ∑ r : Fin 2, ∑ s : Fin 512,
          ((layerK nrm μ h rl W WL bb lrr s k * nrm s) * relNextK rl WR r k) * ind (μ r s t) := by
  unfold k0_pay10
  refine msg_apply v14 _ _ μ (fun s k => layerK nrm μ h rl W WL bb lrr s k * nrm s) (relNextK rl WR) h14
    (fun k s => ?_) (fun k r => ?_) k t
  · show k0_pay9 (F := Ideal) v14 v21 v23 v25 v27 v33 v35 v46 v51 (ix2 k s)
        * broadcastTo S128x512 v21 broadcasts_S1x512_S128x512 (ix2 k s) = _
    rw [pay9_apply v14 v21 v23 v25 v27 v33 v35 v46 v51 nrm μ h rl W WL bb lrr h14 h21 h23 h25 h27 h33 h35 h46 h51,
      broadcastTo_1b_ab_apply, h21]
  · refine (mmR_apply _ _ k r).trans ?_
    unfold relNextK
    refine Finset.sum_congr rfl fun k' _ => ?_
    rw [shapeCast_1ab_ab_apply, h62, h25]

/-- The stored value: the second layer at node `t`, feature `j`, from the first layer's value `v61` and the second
layer's edge sum `v76` (both with features as columns). -/
theorem pay1_apply (v21 : FVec Ideal S1x512 .f32) (v27 v33 : FVec Ideal S128x2 .f32) (v61 v76 : FVec Ideal S128x512 .f32)
    (v78 : FVec Ideal S128x128 .f32) (v82 : Vec Ideal S1x128x128 .f32)
    (nrm : Fin 512 → EReal) (μ : Adj) (H : Mat 512 128) (rl : Mat 2 128) (W WL : Mat 128 128) (bb lrr : Fin 128 → EReal)
    (h21 : ∀ t, v21 (ix2 (0 : Fin 1) t) = nrm t)
    (h27 : ∀ j, v27 (ix2 j (1 : Fin 2)) = bb j) (h33 : ∀ k, v33 (ix2 k (1 : Fin 2)) = lrr k)
    (h61 : ∀ k t, v61 (ix2 k t) = H t k)
    (h76 : ∀ k t, v76 (ix2 k t) = ∑ r : Fin 2, ∑ s : Fin 512, ((H s k * nrm s) * rl r k) * ind (μ r s t))
    (h78 : ∀ k j, v78 (ix2 k j) = W k j) (h82 : ∀ k j, v82 (ix3 (0 : Fin 1) k j) = WL k j)
    (t : Fin 512) (j : Fin 128) :
    k0_pay1 (F := Ideal) v21 v27 v33 v61 v76 v78 v82 (ix2 t j) = layerK nrm μ H rl W WL bb lrr t j := by
  unfold k0_pay1 layerK
  refine (transpose_ix2_apply _ _ t j).trans ?_
  simp only [tanh_apply, addf_apply, mulf_apply, mmW_apply, bcol_apply, col1_apply,
    broadcastTo_1b_ab_apply, shapeCast_1ab_ab_apply, h21, h27, h33, h61, h76, h78, h82]

/-- What the body leaves in the output buffer, entry `(t, j)`: two layers, in the first arrangement, of the operands. -/
theorem out_apply (x0 : Vec Ideal S2x512x512 .f32) (x1 : Vec Ideal S512x128 .f32) (x2 : Vec Ideal S4x128 .f32)
    (x3 x4 x5 : Vec Ideal S2x128x128 .f32) (x6 : Vec Ideal S2x128 .f32) (x7 : Vec Ideal S2x1x128 .f32)
    (t : Fin 512) (j : Fin 128) :
    out0_8 (F := Ideal) x0 x1 x2 x3 x4 x5 x6 x7 (ix2 t j)
      = GK (fun t k => x1 (ix2 t k)) (adjOf x0) (fun r k => x2 (ix2 r k))
          (fun l k j => x3 (ix3 l k j)) (fun l k j => x4 (ix3 l k j)) (fun l k j => x5 (ix3 l k j))
          (fun l j => x6 (ix2 l j)) (fun l k => x7 (ix3 l (0 : Fin 1) k)) t j := by
  have hz : (![0, 0] : Fin 2 → Nat) = fun _ => 0 := by
    funext a
    match a with
    | ⟨0, _⟩ => rfl
    | ⟨1, _⟩ => rfl
  unfold out0_8
  rw [View.canon_unit_zero hz]
  unfold GK
  refine pay1_apply _ _ _ _ _ _ _ _ _ _ _ _ _ _ _ (norm_apply x0) (fun j => bT_apply x6 j 1) (fun k => lrT_apply x7 k 1)
    (fun k t => ?_) (fun k t => ?_) (w1m_apply x3) (w1_apply x4) t j
  · exact pay9_apply _ _ _ _ _ _ _ _ _ _ _ _ _ _ _ _ _ (mcat_apply x0) (norm_apply x0) (hT_apply x1) (relT_apply x2)
      (fun j => bT_apply x6 j 0) (fun k => lrT_apply x7 k 0) (hnT_apply x0 x1) (w0_apply x3) (w0_apply x4) k t
  · exact pay10_apply _ _ _ _ _ _ _ _ _ _ _ _ _ _ _ _ _ _ _ (mcat_apply x0) (norm_apply x0) (hT_apply x1) (relT_apply x2)
      (fun j => bT_apply x6 j 0) (fun k => lrT_apply x7 k 0) (hnT_apply x0 x1) (w0_apply x3) (w0_apply x4) (w0_apply x5) k t

end Cert.KernelIdeal.Hand

end
-- ==== Proof.KRun.lean ====
import proofs.«146448_g81114752352452_cont_sun_c4_492_11_alg».proof.Proof.Gen.KernelIdeal.Value
import proofs.«146448_g81114752352452_cont_sun_c4_492_11_alg».proof.Proof.KLayer

/-!
# The kernel's run, read

The kernel has no grid: its one point fetches every operand whole and writes the output whole. So the block each
window shows the body is the array itself, what the point writes back is the body's stored value over the arrays, and
the output array after the run is the two-layer function (first arrangement) of the argument arrays.
-/

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

/-- The output array as a function of the eight argument arrays (in the order of the entry point's parameters). -/
def outOf (a0 : Vec Ideal S512x128 .f32) (a1 : Vec Ideal S2x512x512 .f32) (a2 : Vec Ideal S4x128 .f32)
    (a3 a4 a5 : Vec Ideal S2x128x128 .f32) (a6 : Vec Ideal S2x128 .f32) (a7 : Vec Ideal S2x1x128 .f32) :
    S512x128.Idx → EReal :=
  fun i => GK (fun t k => a0 (ix2 t k)) (adjOf a1) (fun r k => a2 (ix2 r k))
    (fun l k j => a3 (ix3 l k j)) (fun l k j => a4 (ix3 l k j)) (fun l k j => a5 (ix3 l k j))
    (fun l j => a6 (ix2 l j)) (fun l k => a7 (ix3 l (0 : Fin 1) k)) (i 0) (i 1)

/-- Every window's block index at the one point is zero on every axis. -/
theorem idx_zero : ∀ t : Fin cfg0.N,
    (∀ a : Fin 3, win0_0.index t a = 0) ∧ (∀ a : Fin 2, win0_1.index t a = 0) ∧ (∀ a : Fin 2, win0_2.index t a = 0)
    ∧ (∀ a : Fin 3, win0_3.index t a = 0) ∧ (∀ a : Fin 3, win0_4.index t a = 0) ∧ (∀ a : Fin 3, win0_5.index t a = 0)
    ∧ (∀ a : Fin 2, win0_6.index t a = 0) ∧ (∀ a : Fin 3, win0_7.index t a = 0) ∧ (∀ a : Fin 2, win0_8.index t a = 0) :=
  (by decide +kernel : ∀ t : Fin grid0.N, _)

/-- Window 0 (the adjacency) shows the body the whole array at the one point. -/
theorem iblk0 (c : Dev nD) (t : Fin cfg0.N) : (iblk m c 0 t : Vec Ideal S2x512x512 .f32) = V m c main_arg1 := by
  funext y
  show V m c main_arg1 (((cfg0.win 0).blk t).view.emb y) = V m c main_arg1 y
  congr 1
  funext a; apply Fin.ext
  obtain ⟨h0, -, -, -, -, -, -, -, -⟩ := idx_zero t
  match a with
  | ⟨0, _⟩ => show win0_0.index t (0 : Fin 3) * 2 + 1 * (y 0).val = (y 0).val; rw [h0 0]; omega
  | ⟨1, _⟩ => show win0_0.index t (1 : Fin 3) * 512 + 1 * (y 1).val = (y 1).val; rw [h0 1]; omega
  | ⟨2, _⟩ => show win0_0.index t (2 : Fin 3) * 512 + 1 * (y 2).val = (y 2).val; rw [h0 2]; omega

/-- Window 1 (the node features) shows the body the whole array at the one point. -/
theorem iblk1 (c : Dev nD) (t : Fin cfg0.N) : (iblk m c 1 t : Vec Ideal S512x128 .f32) = V m c main_arg0 := by
  funext y
  show V m c main_arg0 (((cfg0.win 1).blk t).view.emb y) = V m c main_arg0 y
  congr 1
  funext a; apply Fin.ext
  obtain ⟨-, h0, -, -, -, -, -, -, -⟩ := idx_zero t
  match a with
  | ⟨0, _⟩ => show win0_1.index t (0 : Fin 2) * 512 + 1 * (y 0).val = (y 0).val; rw [h0 0]; omega
  | ⟨1, _⟩ => show win0_1.index t (1 : Fin 2) * 128 + 1 * (y 1).val = (y 1).val; rw [h0 1]; omega

/-- Window 2 (the relation features) shows the body the whole array at the one point. -/
theorem iblk2 (c : Dev nD) (t : Fin cfg0.N) : (iblk m c 2 t : Vec Ideal S4x128 .f32) = V m c main_arg2 := by
  funext y
  show V m c main_arg2 (((cfg0.win 2).blk t).view.emb y) = V m c main_arg2 y
  congr 1
  funext a; apply Fin.ext
  obtain ⟨-, -, h0, -, -, -, -, -, -⟩ := idx_zero t
  match a with
  | ⟨0, _⟩ => show win0_2.index t (0 : Fin 2) * 4 + 1 * (y 0).val = (y 0).val; rw [h0 0]; omega
  | ⟨1, _⟩ => show win0_2.index t (1 : Fin 2) * 128 + 1 * (y 1).val = (y 1).val; rw [h0 1]; omega

/-- Window 3 (the message weights) shows the body the whole array at the one point. -/
theorem iblk3 (c : Dev nD) (t : Fin cfg0.N) : (iblk m c 3 t : Vec Ideal S2x128x128 .f32) = V m c main_arg3 := by
  funext y
  show V m c main_arg3 (((cfg0.win 3).blk t).view.emb y) = V m c main_arg3 y
  congr 1
  funext a; apply Fin.ext
  obtain ⟨-, -, -, h0, -, -, -, -, -⟩ := idx_zero t
  match a with
  | ⟨0, _⟩ => show win0_3.index t (0 : Fin 3) * 2 + 1 * (y 0).val = (y 0).val; rw [h0 0]; omega
  | ⟨1, _⟩ => show win0_3.index t (1 : Fin 3) * 128 + 1 * (y 1).val = (y 1).val; rw [h0 1]; omega
  | ⟨2, _⟩ => show win0_3.index t (2 : Fin 3) * 128 + 1 * (y 2).val = (y 2).val; rw [h0 2]; omega

/-- Window 4 (the self-loop weights) shows the body the whole array at the one point. -/
theorem iblk4 (c : Dev nD) (t : Fin cfg0.N) : (iblk m c 4 t : Vec Ideal S2x128x128 .f32) = V m c main_arg4 := by
  funext y
  show V m c main_arg4 (((cfg0.win 4).blk t).view.emb y) = V m c main_arg4 y
  congr 1
  funext a; apply Fin.ext
  obtain ⟨-, -, -, -, h0, -, -, -, -⟩ := idx_zero t
  match a with
  | ⟨0, _⟩ => show win0_4.index t (0 : Fin 3) * 2 + 1 * (y 0).val = (y 0).val; rw [h0 0]; omega
  | ⟨1, _⟩ => show win0_4.index t (1 : Fin 3) * 128 + 1 * (y 1).val = (y 1).val; rw [h0 1]; omega
  | ⟨2, _⟩ => show win0_4.index t (2 : Fin 3) * 128 + 1 * (y 2).val = (y 2).val; rw [h0 2]; omega

/-- Window 5 (the relation weights) shows the body the whole array at the one point. -/
theorem iblk5 (c : Dev nD) (t : Fin cfg0.N) : (iblk m c 5 t : Vec Ideal S2x128x128 .f32) = V m c main_arg5 := by
  funext y
  show V m c main_arg5 (((cfg0.win 5).blk t).view.emb y) = V m c main_arg5 y
  congr 1
  funext a; apply Fin.ext
  obtain ⟨-, -, -, -, -, h0, -, -, -⟩ := idx_zero t
  match a with
  | ⟨0, _⟩ => show win0_5.index t (0 : Fin 3) * 2 + 1 * (y 0).val = (y 0).val; rw [h0 0]; omega
  | ⟨1, _⟩ => show win0_5.index t (1 : Fin 3) * 128 + 1 * (y 1).val = (y 1).val; rw [h0 1]; omega
  | ⟨2, _⟩ => show win0_5.index t (2 : Fin 3) * 128 + 1 * (y 2).val = (y 2).val; rw [h0 2]; omega

/-- Window 6 (the biases) shows the body the whole array at the one point. -/
theorem iblk6 (c : Dev nD) (t : Fin cfg0.N) : (iblk m c 6 t : Vec Ideal S2x128 .f32) = V m c main_arg6 := by
  funext y
  show V m c main_arg6 (((cfg0.win 6).blk t).view.emb y) = V m c main_arg6 y
  congr 1
  funext a; apply Fin.ext
  obtain ⟨-, -, -, -, -, -, h0, -, -⟩ := idx_zero t
  match a with
  | ⟨0, _⟩ => show win0_6.index t (0 : Fin 2) * 2 + 1 * (y 0).val = (y 0).val; rw [h0 0]; omega
  | ⟨1, _⟩ => show win0_6.index t (1 : Fin 2) * 128 + 1 * (y 1).val = (y 1).val; rw [h0 1]; omega

/-- Window 7 (the self-loop relation features) shows the body the whole array at the one point. -/
theorem iblk7 (c : Dev nD) (t : Fin cfg0.N) : (iblk m c 7 t : Vec Ideal S2x1x128 .f32) = V m c main_arg7 := by
  funext y
  show V m c main_arg7 (((cfg0.win 7).blk t).view.emb y) = V m c main_arg7 y
  congr 1
  funext a; apply Fin.ext
  obtain ⟨-, -, -, -, -, -, -, h0, -⟩ := idx_zero t
  match a with
  | ⟨0, _⟩ => show win0_7.index t (0 : Fin 3) * 2 + 1 * (y 0).val = (y 0).val; rw [h0 0]; omega
  | ⟨1, _⟩ => show win0_7.index t (1 : Fin 3) * 1 + 1 * (y 1).val = (y 1).val; rw [h0 1]; omega
  | ⟨2, _⟩ => show win0_7.index t (2 : Fin 3) * 128 + 1 * (y 2).val = (y 2).val; rw [h0 2]; omega

/-- The output window's block at the one point sits at the array's own indices. -/
theorem emb8 (t : Fin cfg0.N) (y : S512x128.Idx) : ((cfg0.win 8).blk t).view.emb y = y := by
  funext a; apply Fin.ext
  obtain ⟨-, -, -, -, -, -, -, -, h0⟩ := idx_zero t
  match a with
  | ⟨0, _⟩ => show win0_8.index t (0 : Fin 2) * 512 + 1 * (y 0).val = (y 0).val; rw [h0 0]; omega
  | ⟨1, _⟩ => show win0_8.index t (1 : Fin 2) * 128 + 1 * (y 1).val = (y 1).val; rw [h0 1]; omega

/-- What the one point writes back is the two-layer function of the arrays as the region finds them, read through the
    output window's block. -/
theorem flushed_eq (c : Dev nD) (t : Fin cfg0.N) :
    (dats m 0 c).flushed 8 t = ((cfg0.win 8).blk t).view.read (Elt Ideal)
      (outOf (V m c main_arg0) (V m c main_arg1) (V m c main_arg2) (V m c main_arg3) (V m c main_arg4) (V m c main_arg5)
        (V m c main_arg6) (V m c main_arg7)) := by
  rw [flushed8]
  funext y
  show out0_8 (iblk m c 0 t) (iblk m c 1 t) (iblk m c 2 t) (iblk m c 3 t) (iblk m c 4 t) (iblk m c 5 t) (iblk m c 6 t)
      (iblk m c 7 t) y
    = outOf (V m c main_arg0) (V m c main_arg1) (V m c main_arg2) (V m c main_arg3) (V m c main_arg4) (V m c main_arg5)
        (V m c main_arg6) (V m c main_arg7) (((cfg0.win 8).blk t).view.emb y)
  rw [emb8, iblk0 m c t, iblk1 m c t, iblk2 m c t, iblk3 m c t, iblk4 m c t, iblk5 m c t, iblk6 m c t, iblk7 m c t]
  obtain ⟨p, q, rfl⟩ : ∃ (p : Fin 512) (q : Fin 128), y = ix2 p q := ⟨y 0, y 1, eq_ix2 y⟩
  exact out_apply _ _ _ _ _ _ _ _ p q

/-- An index of the output array is in the one point's block: the block is the whole array. -/
theorem mem_blk8 (t : Fin cfg0.N) (i : S512x128.Idx) : i ∈ ((cfg0.win 8).blk t).view.set := by
  show i ∈ ((View.whole main_v0).slice (win0_8.rect t)).set
  rw [View.set_slice_whole, Rect.mem_set_unit]
  obtain ⟨-, -, -, -, -, -, -, -, h0⟩ := idx_zero t
  intro a
  match a with
  | ⟨0, _⟩ =>
    show win0_8.index t (0 : Fin 2) * 512 ≤ (i 0).val ∧ (i 0).val < win0_8.index t (0 : Fin 2) * 512 + 512
    have hi : (i 0).val < 512 := (i 0).isLt; rw [h0 0]; omega
  | ⟨1, _⟩ =>
    show win0_8.index t (1 : Fin 2) * 128 ≤ (i 1).val ∧ (i 1).val < win0_8.index t (1 : Fin 2) * 128 + 128
    have hi : (i 1).val < 128 := (i 1).isLt; rw [h0 1]; omega

/-- The output array after the run is the two-layer function of the argument arrays. -/
theorem final8 (c : Dev nD) : (dats m 0 c).arrAt 8 cfg0.N
    = outOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (dats m 0 c).arrAt_eq_of_cover 8 _ (fun t _ => flushed_eq m c t)
    (fun i => ⟨⟨0, by decide⟩, flush0_8 _, mem_blk8 _ i⟩)

/-- The kernel's run: the output array at the two-layer function of the arguments, the arguments unchanged. -/
theorem run : θ_run defs (onTc (τ := τ) (main (F := Ideal))) ⟨m, fun _ => 0, ρ⟩ fun r => ∀ c : Dev nD,
      r.2.mem ((c : Thread nD τ).loc main_v0)
        = outOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2⟩) (run_blocks m ρ)

end Cert.KernelIdeal.Hand

end
-- ==== Proof.LibGatherScatter.lean ====
import Idealize.ShloMosaic.PureOps.Ideal
import Idealize.ShloMosaic.Lib.ValueIdx
import Idealize.ShloMosaic.Lib.ValueIdxRank1
import Mathlib.Algebra.BigOperators.Group.Finset.Basic

/-!
# Row gathers and segment scatters, read at an index

`table[ids]` for a table of `N` rows of length `C` and `n` ids lowers to a gather whose start indices are the
ids as an `[n, 1]` array: result row `t` is the table's row at the id, read as a signed integer and clamped into
`[0, N - 1]`. A segment sum (`segment_sum(v, ids, K)`) lowers to a scatter-add of the `n` updates into `K`
zeros at the ids as an `[n, 1]` array: update `t` lands on element `s` exactly when the id, read signed and NOT
clamped, is `s`; an id outside `[0, K)` lands nowhere.
-/

noncomputable section

open scoped BigOperators
open Idealize.ShloMosaic Idealize.ShloMosaic.ValueIdx

namespace Cert.Lib

/-- The row a start word selects among `N` rows: the word read as a signed integer, clamped into `[0, N - 1]`. -/
def clampRow (N : Nat) (hN : 0 < N) (w : BitVec 32) : Fin N := ⟨min w.toInt.toNat (N - 1), by omega⟩

/-- A negative index counted from the end: `w + n` when `w < 0` (signed), else `w`. -/
def normIdx (n w : BitVec 32) : BitVec 32 := Scalar.select (IntOp.cmpi .slt w 0#32) (IntOp.addi w n) w

/-- The dimension numbers of a row gather: operand `[N, C]`, start indices `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, k)`: the operand's row at the clamped start word, place `k`. -/
theorem gather_rows_apply {α : Type} {N C n : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ 32) (t : Fin n) (k : Fin C) :
    Host.gather (rowGatherDims N C n wf) x idx (ix2 t k) = x (ix2 (clampRow N hN (idx (ix2 t 0))) k) := by
  unfold Host.gather
  congr 1
  -- axis 0 is collapsed and start-indexed: the clamped start word, no batching and no offset coordinate
  have h0 : (rowGatherDims N C n wf).start (ix2 t k) idx (0 : Fin 2) + (rowGatherDims N C n wf).batchCoord (ix2 t k) (0 : Fin 2)
      + (rowGatherDims N C n wf).offCoord (ix2 t k) (0 : Fin 2) = (clampRow N hN (idx (ix2 t 0))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 t k) ⟨List.idxOf (0 : Fin 2) (rowGatherDims N C n wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  -- axis 1 is kept and not start-indexed: start 0, and the offset coordinate is the result's second coordinate
  have h1 : (rowGatherDims N C n wf).start (ix2 t k) idx (1 : Fin 2) + (rowGatherDims N C n wf).batchCoord (ix2 t k) (1 : Fin 2)
      + (rowGatherDims N C n wf).offCoord (ix2 t k) (1 : Fin 2) = k.val := by
    rw [GatherDims.batchCoord_eq_zero _ _ _ List.not_mem_nil]
    have hnot : (1 : Fin 2) ∉ (rowGatherDims N C n wf).startIndexMap := by
      show (1 : Fin 2) ∉ ([0] : List (Fin 2))
      decide
    have hk : (1 : Fin 2) ∈ (rowGatherDims N C n wf).sKept := by
      rw [GatherDims.mem_sKept]
      refine ⟨?_, List.not_mem_nil⟩
      show (1 : Fin 2) ∉ ([0] : List (Fin 2))
      decide
    unfold GatherDims.start
    rw [dif_neg hnot]
    simp only [Nat.zero_add, Nat.add_zero]
    unfold GatherDims.offCoord
    rw [dif_pos hk]
    rfl
  funext a
  refine Fin.ext ?_
  match a with
  | ⟨0, _⟩ => exact h0
  | ⟨1, _⟩ => exact h1

/-- The dimension numbers of an element gather from a flat table: operand `[N]`, start indices `[n, 1]`, result `[n]`. -/
abbrev eltGatherDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- THE ELEMENT GATHER READ AT `t`: the table at the clamped start word. -/
theorem gather_elts_apply {α : Type} {N n : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ 32) (t : Fin n) :
    Host.gather (eltGatherDims N n wf) x idx (ix1 t) = x (ix1 (clampRow N hN (idx (ix2 t 0)))) := by
  unfold Host.gather
  congr 1
  funext a
  obtain rfl : a = 0 := Subsingleton.elim _ _
  refine Fin.ext ?_
  show (eltGatherDims N n wf).start (ix1 t) idx 0 + (eltGatherDims N n wf).batchCoord (ix1 t) 0
    + (eltGatherDims N n wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N n wf).startIndexMap from List.mem_singleton.mpr rfl)]
  have hsi : (eltGatherDims N n wf).siIdx (ix1 t) ⟨List.idxOf (0 : Fin 1) (eltGatherDims N n wf).startIndexMap,
      List.idxOf_lt_length_iff.2 (List.mem_singleton.mpr rfl)⟩ = ix2 t 0 := by
    funext b; refine Fin.ext ?_
    match b with
    | ⟨0, _⟩ => rfl
    | ⟨1, _⟩ => rfl
  rw [hsi]
  rfl

/-- The dimension numbers of a segment scatter: operand `[K]`, scatter indices `[n, 1]`, updates `[n]`. -/
abbrev segScatterDims (K n : Nat) (wf : ScatterDims.WF ⟨1, ![K]⟩ ⟨2, ![n, 1]⟩ ⟨1, ![n]⟩ [] [0] [0] 1) :
    ScatterDims ⟨1, ![K]⟩ ⟨2, ![n, 1]⟩ ⟨1, ![n]⟩ where
  updateWindowDims := []
  insertedWindowDims := [0]
  scatterDimsToOperandDims := [0]
  indexVectorDim := 1
  wf := wf

/-- Update `t` of a segment scatter lands on element `s` exactly when its index word, read signed, is `s`. -/
theorem segScatter_resultIdx_iff {K n : Nat} (wf : ScatterDims.WF ⟨1, ![K]⟩ ⟨2, ![n, 1]⟩ ⟨1, ![n]⟩ [] [0] [0] 1)
    (idx : IVec ⟨2, ![n, 1]⟩ 32) (t : Fin n) (s : Fin K) :
    (segScatterDims K n wf).resultIdx? (ix1 t) idx = some (ix1 s) ↔ (idx (ix2 t 0)).toInt = (s.val : Int) := by
  -- on the operand's one axis the start is the index word read signed, and the window coordinate is 0 (the axis is inserted)
  have hstart : (segScatterDims K n wf).start (ix1 t) idx (0 : Fin 1) = (idx (ix2 t 0)).toInt := by
    unfold ScatterDims.start
    rw [dif_pos (show (0 : Fin 1) ∈ (segScatterDims K n wf).scatterDimsToOperandDims from List.mem_singleton.mpr rfl)]
    have hsi : (segScatterDims K n wf).siIdx (ix1 t) ⟨List.idxOf (0 : Fin 1) (segScatterDims K n wf).scatterDimsToOperandDims,
        List.idxOf_lt_length_iff.2 (List.mem_singleton.mpr rfl)⟩ = ix2 t 0 := by
      funext b; refine Fin.ext ?_
      match b with
      | ⟨0, _⟩ => rfl
      | ⟨1, _⟩ => rfl
    rw [hsi]
  have hwin : (segScatterDims K n wf).window (ix1 t) (0 : Fin 1) = 0 := by
    unfold ScatterDims.window
    rw [dif_neg]
    show (0 : Fin 1) ∉ (⟨1, ![K]⟩ : Shape).kept [0]
    simp [Shape.kept]
  have hsz : (⟨1, ![K]⟩ : Shape).size (0 : Fin 1) = K := rfl
  have hs := s.isLt
  unfold ScatterDims.resultIdx?
  constructor
  · intro h
    split at h
    · rename_i hin
      have h2 := congrArg Fin.val (congrFun (Option.some.inj h) (0 : Fin 1))
      have h3 := (hin 0).1
      rw [hstart, hwin] at h3
      change ((segScatterDims K n wf).start (ix1 t) idx 0 + ((segScatterDims K n wf).window (ix1 t) 0 : Nat)).toNat = s.val at h2
      rw [hstart, hwin] at h2
      omega
    · exact absurd h (by simp)
  · intro hv
    have hin : ∀ a, 0 ≤ (segScatterDims K n wf).start (ix1 t) idx a + ((segScatterDims K n wf).window (ix1 t) a : Nat)
        ∧ (segScatterDims K n wf).start (ix1 t) idx a + ((segScatterDims K n wf).window (ix1 t) a : Nat)
          < ((⟨1, ![K]⟩ : Shape).size a : Nat) := by
      intro a
      obtain rfl : a = 0 := Subsingleton.elim _ _
      rw [hstart, hwin, hv, hsz]
      omega
    rw [dif_pos hin]
    congr 1
    funext a
    obtain rfl : a = 0 := Subsingleton.elim _ _
    refine Fin.ext ?_
    show ((segScatterDims K n wf).start (ix1 t) idx 0 + ((segScatterDims K n wf).window (ix1 t) 0 : Nat)).toNat = s.val
    rw [hstart, hwin, hv]
    simp

/-- A signed 32-bit word is the small natural `s` exactly when it is the word of `s`. -/
theorem toInt_eq_iff_eq_ofNat (w : BitVec 32) (s : Nat) (hs : s < 2 ^ 31) :
    w.toInt = (s : Int) ↔ w = BitVec.ofNat 32 s := by
  constructor
  · intro h
    have h2 := congrArg (BitVec.ofInt 32) h
    rwa [BitVec.ofInt_toInt, BitVec.ofInt_natCast] at h2
  · rintro rfl
    rw [BitVec.toInt_eq_toNat_cond, BitVec.toNat_ofNat]
    have hmod : s % 2 ^ 32 = s := Nat.mod_eq_of_lt (by omega)
    rw [hmod, if_pos (by omega)]

/-- THE SEGMENT SCATTER-ADD READ AT `s` (at the ideal instance): the operand's element plus the sum of the updates
    whose index word is the word of `s`. -/
theorem hostScatterAdd_seg_apply {K n : Nat} (hK : K ≤ 2 ^ 31)
    (wf : ScatterDims.WF ⟨1, ![K]⟩ ⟨2, ![n, 1]⟩ ⟨1, ![n]⟩ [] [0] [0] 1)
    (x : (⟨1, ![K]⟩ : Shape).Idx → EReal) (idx : IVec ⟨2, ![n, 1]⟩ 32) (upd : (⟨1, ![n]⟩ : Shape).Idx → EReal)
    (s : Fin K) :
    Ideal.hostScatterAdd (segScatterDims K n wf) x idx upd (ix1 s)
      = x (ix1 s) + ∑ t ∈ Finset.univ.filter (fun t : Fin n => idx (ix2 t 0) = BitVec.ofNat 32 s.val), upd (ix1 t) := by
  unfold Ideal.hostScatterAdd
  congr 1
  -- re-index the updates' rank-1 indices by their coordinate; an update lands on `s` iff its word is the word of `s`
  refine Finset.sum_equiv idxEquiv1 ?_ ?_
  · intro j
    obtain ⟨t, rfl⟩ : ∃ t : Fin n, j = ix1 t := ⟨j 0, eq_ix1 j⟩
    simp only [Finset.mem_filter, Finset.mem_univ, true_and]
    show _ ↔ idx (ix2 t 0) = BitVec.ofNat 32 s.val
    rw [segScatter_resultIdx_iff, toInt_eq_iff_eq_ofNat _ _ (by have := s.isLt; omega)]
  · intro j _
    obtain ⟨t, rfl⟩ : ∃ t : Fin n, j = ix1 t := ⟨j 0, eq_ix1 j⟩
    rfl

end Cert.Lib

end
-- ==== Proof.LibRowScatter.lean ====
import Idealize.ShloMosaic.PureOps.Ideal
import Idealize.ShloMosaic.Lib.ValueIdx
import Mathlib.Algebra.BigOperators.Group.Finset.Basic
import proofs.«146448_g81114752352452_cont_sun_c4_492_11_alg».proof.Proof.LibGatherScatter

/-!
# Row segment scatters, read at an index

A segment sum of the rows of an `[n, C]` array (`segment_sum(x, ids, K)`) lowers to a scatter-add of the `n` rows
into `K` rows of zeros at the ids as an `[n, 1]` array: the updates' axis 1 is the window axis (it goes to the
operand's axis 1), the operand's axis 0 is inserted and is the one the index word names. Update `(t, k')` lands on
element `(s, k)` exactly when the id of row `t`, read signed and NOT clamped, is `s`, and `k' = k`; a row whose id is
outside `[0, K)` lands nowhere.
-/

noncomputable section

open scoped BigOperators
open Idealize.ShloMosaic Idealize.ShloMosaic.ValueIdx

namespace Cert.Lib

/-- The dimension numbers of a row segment scatter: operand `[K, C]`, scatter indices `[n, 1]`, updates `[n, C]`. -/
abbrev rowScatterDims (K C n : Nat)
    (wf : ScatterDims.WF ⟨2, ![K, C]⟩ ⟨2, ![n, 1]⟩ ⟨2, ![n, C]⟩ [1] [0] [0] 1) :
    ScatterDims ⟨2, ![K, C]⟩ ⟨2, ![n, 1]⟩ ⟨2, ![n, C]⟩ where
  updateWindowDims := [1]
  insertedWindowDims := [0]
  scatterDimsToOperandDims := [0]
  indexVectorDim := 1
  wf := wf

/-- Update `(t, k')` of a row segment scatter lands on element `(s, k)` exactly when the index word of row `t`, read
    signed, is `s`, and the columns agree. -/
theorem rowScatter_resultIdx_iff {K C n : Nat}
    (wf : ScatterDims.WF ⟨2, ![K, C]⟩ ⟨2, ![n, 1]⟩ ⟨2, ![n, C]⟩ [1] [0] [0] 1)
    (idx : IVec ⟨2, ![n, 1]⟩ 32) (t : Fin n) (k k' : Fin C) (s : Fin K) :
    (rowScatterDims K C n wf).resultIdx? (ix2 t k') idx = some (ix2 s k)
      ↔ (idx (ix2 t 0)).toInt = (s.val : Int) ∧ k' = k := by
  -- axis 0 is inserted and named by the map: the start is the index word read signed, the window coordinate is 0
  have hstart0 : (rowScatterDims K C n wf).start (ix2 t k') idx (0 : Fin 2) = (idx (ix2 t 0)).toInt := by
    unfold ScatterDims.start
    rw [dif_pos (show (0 : Fin 2) ∈ (rowScatterDims K C n wf).scatterDimsToOperandDims from List.mem_singleton.mpr rfl)]
    have hsi : (rowScatterDims K C n wf).siIdx (ix2 t k') ⟨List.idxOf (0 : Fin 2) (rowScatterDims K C n wf).scatterDimsToOperandDims,
        List.idxOf_lt_length_iff.2 (List.mem_singleton.mpr rfl)⟩ = ix2 t 0 := by
      funext b; refine Fin.ext ?_
      match b with
      | ⟨0, _⟩ => rfl
      | ⟨1, _⟩ => rfl
    rw [hsi]
  have hwin0 : (rowScatterDims K C n wf).window (ix2 t k') (0 : Fin 2) = 0 := by
    unfold ScatterDims.window
    rw [dif_neg]
    show (0 : Fin 2) ∉ (⟨2, ![K, C]⟩ : Shape).kept [0]
    simp [Shape.kept]
  -- axis 1 is kept and not named by the map: the start is 0, the window coordinate is the update's column
  have hstart1 : (rowScatterDims K C n wf).start (ix2 t k') idx (1 : Fin 2) = 0 := by
    unfold ScatterDims.start
    rw [dif_neg]
    show (1 : Fin 2) ∉ ([0] : List (Fin 2))
    decide
  have hwin1 : (rowScatterDims K C n wf).window (ix2 t k') (1 : Fin 2) = k'.val := by
    have hk : (1 : Fin 2) ∈ (rowScatterDims K C n wf).sKept := by
      show (1 : Fin 2) ∈ (⟨2, ![K, C]⟩ : Shape).kept [0]
      simp [Shape.kept]
    unfold ScatterDims.window
    rw [dif_pos hk]
    rfl
  have hsz0 : (⟨2, ![K, C]⟩ : Shape).size (0 : Fin 2) = K := rfl
  have hsz1 : (⟨2, ![K, C]⟩ : Shape).size (1 : Fin 2) = C := rfl
  have hs := s.isLt
  have hk' := k'.isLt
  unfold ScatterDims.resultIdx?
  constructor
  · intro h
    split at h
    · rename_i hin
      have h0 := congrArg Fin.val (congrFun (Option.some.inj h) (0 : Fin 2))
      have h1 := congrArg Fin.val (congrFun (Option.some.inj h) (1 : Fin 2))
      have h3 := (hin 0).1
      rw [hstart0, hwin0] at h3
      change ((rowScatterDims K C n wf).start (ix2 t k') idx 0 + ((rowScatterDims K C n wf).window (ix2 t k') 0 : Nat)).toNat = s.val at h0
      change ((rowScatterDims K C n wf).start (ix2 t k') idx 1 + ((rowScatterDims K C n wf).window (ix2 t k') 1 : Nat)).toNat = k.val at h1
      rw [hstart0, hwin0] at h0
      rw [hstart1, hwin1] at h1
      refine ⟨by omega, Fin.ext (by omega)⟩
    · exact absurd h (by simp)
  · rintro ⟨hv, rfl⟩
    have hin0 : 0 ≤ (rowScatterDims K C n wf).start (ix2 t k') idx 0 + ((rowScatterDims K C n wf).window (ix2 t k') 0 : Nat)
        ∧ (rowScatterDims K C n wf).start (ix2 t k') idx 0 + ((rowScatterDims K C n wf).window (ix2 t k') 0 : Nat)
          < ((⟨2, ![K, C]⟩ : Shape).size 0 : Nat) := by
      rw [hstart0, hwin0, hv, hsz0]
      omega
    have hin1 : 0 ≤ (rowScatterDims K C n wf).start (ix2 t k') idx 1 + ((rowScatterDims K C n wf).window (ix2 t k') 1 : Nat)
        ∧ (rowScatterDims K C n wf).start (ix2 t k') idx 1 + ((rowScatterDims K C n wf).window (ix2 t k') 1 : Nat)
          < ((⟨2, ![K, C]⟩ : Shape).size 1 : Nat) := by
      rw [hstart1, hwin1, hsz1]
      omega
    have hin : ∀ a, 0 ≤ (rowScatterDims K C n wf).start (ix2 t k') idx a + ((rowScatterDims K C n wf).window (ix2 t k') a : Nat)
        ∧ (rowScatterDims K C n wf).start (ix2 t k') idx a + ((rowScatterDims K C n wf).window (ix2 t k') a : Nat)
          < ((⟨2, ![K, C]⟩ : Shape).size a : Nat) := by
      intro a
      match a with
      | ⟨0, _⟩ => exact hin0
      | ⟨1, _⟩ => exact hin1
    rw [dif_pos hin]
    congr 1
    have e0 : ((rowScatterDims K C n wf).start (ix2 t k') idx 0 + ((rowScatterDims K C n wf).window (ix2 t k') 0 : Nat)).toNat = s.val := by
      rw [hstart0, hwin0, hv]
      simp
    have e1 : ((rowScatterDims K C n wf).start (ix2 t k') idx 1 + ((rowScatterDims K C n wf).window (ix2 t k') 1 : Nat)).toNat = k'.val := by
      rw [hstart1, hwin1]
      simp
    funext a
    refine Fin.ext ?_
    match a with
    | ⟨0, _⟩ => exact e0
    | ⟨1, _⟩ => exact e1

/-- THE ROW SEGMENT SCATTER-ADD READ AT `(s, k)` (at the ideal instance): the operand's element plus the sum, over the
    rows whose index word is the word of `s`, of the updates' column `k`. -/
theorem hostScatterAdd_rows_apply {K C n : Nat} (hK : K ≤ 2 ^ 31)
    (wf : ScatterDims.WF ⟨2, ![K, C]⟩ ⟨2, ![n, 1]⟩ ⟨2, ![n, C]⟩ [1] [0] [0] 1)
    (x : (⟨2, ![K, C]⟩ : Shape).Idx → EReal) (idx : IVec ⟨2, ![n, 1]⟩ 32) (upd : (⟨2, ![n, C]⟩ : Shape).Idx → EReal)
    (s : Fin K) (k : Fin C) :
    Ideal.hostScatterAdd (rowScatterDims K C n wf) x idx upd (ix2 s k)
      = x (ix2 s k) + ∑ t ∈ Finset.univ.filter (fun t : Fin n => idx (ix2 t 0) = BitVec.ofNat 32 s.val), upd (ix2 t k) := by
  unfold Ideal.hostScatterAdd
  congr 1
  -- the updates that land on `(s, k)` are the column-`k` entries of the rows whose word is the word of `s`
  have hs : s.val < 2 ^ 31 := by have := s.isLt; omega
  refine Finset.sum_nbij' (fun j : (⟨2, ![n, C]⟩ : Shape).Idx => (idxEquiv2 j).1) (fun t => ix2 t k) ?_ ?_ ?_ ?_ ?_
  · intro j hj
    obtain ⟨t, k', rfl⟩ : ∃ (t : Fin n) (k' : Fin C), j = ix2 t k' := ⟨j 0, j 1, eq_ix2 j⟩
    have hj' := (Finset.mem_filter.1 hj).2
    refine Finset.mem_filter.2 ⟨Finset.mem_univ _, ?_⟩
    show idx (ix2 t 0) = BitVec.ofNat 32 s.val
    exact (toInt_eq_iff_eq_ofNat _ _ hs).1 ((rowScatter_resultIdx_iff wf idx t k k' s).1 hj').1
  · intro t ht
    have ht' := (Finset.mem_filter.1 ht).2
    exact Finset.mem_filter.2 ⟨Finset.mem_univ _,
      (rowScatter_resultIdx_iff wf idx t k k s).2 ⟨(toInt_eq_iff_eq_ofNat _ _ hs).2 ht', rfl⟩⟩
  · intro j hj
    obtain ⟨t, k', rfl⟩ : ∃ (t : Fin n) (k' : Fin C), j = ix2 t k' := ⟨j 0, j 1, eq_ix2 j⟩
    have hj' := (Finset.mem_filter.1 hj).2
    obtain rfl := ((rowScatter_resultIdx_iff wf idx t k k' s).1 hj').2
    rfl
  · intro t _
    rfl
  · intro j hj
    obtain ⟨t, k', rfl⟩ : ∃ (t : Fin n) (k' : Fin C), j = ix2 t k' := ⟨j 0, j 1, eq_ix2 j⟩
    have hj' := (Finset.mem_filter.1 hj).2
    obtain rfl := ((rowScatter_resultIdx_iff wf idx t k k' s).1 hj').2
    rfl

end Cert.Lib

end
-- ==== Proof.RIdx.lean ====
import proofs.«146448_g81114752352452_cont_sun_c4_492_11_alg».proof.Proof.RefRead
import proofs.«146448_g81114752352452_cont_sun_c4_492_11_alg».proof.Proof.Spec
import proofs.«146448_g81114752352452_cont_sun_c4_492_11_alg».proof.Proof.LibFinSplit
import proofs.«146448_g81114752352452_cont_sun_c4_492_11_alg».proof.Proof.LibGatherScatter
import proofs.«146448_g81114752352452_cont_sun_c4_492_11_alg».proof.Proof.LibRowScatter
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

/-!
# The reference's edge list, read at an index

The reference lists all 2 × 512 × 512 candidate edges: candidate `r * 262144 + s * 512 + t` is the edge `s → t` of type
`r`. A candidate is valid when the dense adjacency exceeds one half; an invalid candidate is redirected to source 0
and target 0 (and later weighted by zero). The index words the gathers and scatters read (after the wrap of negative
indices, which never applies) are read here at a candidate, and a sum over the candidates landing on a target is
re-indexed by (type, source).
-/

noncomputable section

open scoped BigOperators

namespace Cert.ReferenceIdeal.Hand

open Cert.ReferenceIdeal Cert.ReferenceIdeal.Read Idealize.ShloMosaic Idealize.ShloMosaic.ValueIdx Cert.Spec Cert.Lib

/-- The dense adjacency as a function of (type, source, target). -/
abbrev adjOf (x1 : (⟨S2x512x512, .f32⟩ : BufTy).Contents (Elt Ideal)) : Fin 2 → Fin 512 → Fin 512 → EReal :=
  fun r s t => x1 (ix3 r s t)

/-- The target word of a candidate: its target if valid, else 0. -/
def tgtw (μ : Adj) (r : Fin 2) (s t : Fin 512) : BitVec 32 := if μ r s t = 1#1 then BitVec.ofNat 32 t.val else 0#32

/-- The source word of a candidate: its source if valid, else 0. -/
def srcw (μ : Adj) (r : Fin 2) (s t : Fin 512) : BitVec 32 := if μ r s t = 1#1 then BitVec.ofNat 32 s.val else 0#32

/-! ## Generalities: the two types, small words, the join of two flat pieces -/

/-- An edge type is 0 or 1. -/
theorem type_cases (r : Fin 2) : r = 0 ∨ r = 1 := by
  match r with
  | ⟨0, _⟩ => exact Or.inl rfl
  | ⟨1, _⟩ => exact Or.inr rfl

/-- The word of a natural below 512 is below 2³¹. -/
theorem toNat_ofNat_small (n : Nat) (hn : n < 512) : (BitVec.ofNat 32 n).toNat < 2 ^ 31 := by
  rw [BitVec.toNat_ofNat, Nat.mod_eq_of_lt (by omega)]; omega

/-- Two naturals below 512 have the same word only when equal. -/
theorem ofNat_inj_small {a b : Nat} (ha : a < 512) (hb : b < 512) (h : BitVec.ofNat 32 a = BitVec.ofNat 32 b) : a = b := by
  have h2 := congrArg BitVec.toNat h
  rw [BitVec.toNat_ofNat, BitVec.toNat_ofNat, Nat.mod_eq_of_lt (by omega), Nat.mod_eq_of_lt (by omega)] at h2
  exact h2

theorem tgtw_small (μ : Adj) (r : Fin 2) (s t : Fin 512) : (tgtw μ r s t).toNat < 2 ^ 31 := by
  unfold tgtw; split
  · exact toNat_ofNat_small _ t.isLt
  · decide

theorem srcw_small (μ : Adj) (r : Fin 2) (s t : Fin 512) : (srcw μ r s t).toNat < 2 ^ 31 := by
  unfold srcw; split
  · exact toNat_ofNat_small _ s.isLt
  · decide

/-- A word below 2³¹ is not negative, so the wrap of negative indices (add the extent where the word is below zero)
    leaves it alone. -/
theorem wrap_word (w z c : BitVec 32) (hz : z = 0#32) (hw : w.toNat < 2 ^ 31) :
    Scalar.select (IntOp.cmpi .slt w z) (IntOp.addi w c) w = w := by
  subst hz
  have hne : ¬ IntOp.cmpi .slt w 0#32 = 1#1 := by
    rw [StableHlo.Predicate.slt_iff_toNat hw (by decide)]
    simp
  exact if_neg hne

/-- The position of (source, target) inside one flattened 512 × 512 piece. -/
def flat (s t : Fin 512) : Fin 262144 := ⟨s.val * 512 + t.val, by have := s.isLt; have := t.isLt; omega⟩

@[simp] theorem flat_val (s t : Fin 512) : (flat s t).val = s.val * 512 + t.val := rfl

/-- The join of two flat pieces, read at a candidate of type 0, is the first piece at (source, target). -/
theorem cat_flat_zero {α : Type} (x₁ x₂ : (⟨1, ![262144]⟩ : Shape).Idx → α)
    (h : Shape.Concatenates [(⟨1, ![262144]⟩ : Shape), ⟨1, ![262144]⟩] ⟨1, ![524288]⟩ 0) (s t : Fin 512) :
    concatenate ⟨1, ![524288]⟩ 0 [⟨⟨1, ![262144]⟩, x₁⟩, ⟨⟨1, ![262144]⟩, x₂⟩] h (ix1 (enc 0 s t)) = x₁ (ix1 (flat s t)) := by
  refine concatenate_pair_apply_left 0 x₁ x₂ h (ix1 (enc 0 s t)) rfl (ix1 (flat s t)) ?_
  intro b
  match b with
  | ⟨0, _⟩ => show s.val * 512 + t.val = 0 * 262144 + s.val * 512 + t.val; omega

/-- The join of two flat pieces, read at a candidate of type 1, is the second piece at (source, target). -/
theorem cat_flat_one {α : Type} (x₁ x₂ : (⟨1, ![262144]⟩ : Shape).Idx → α)
    (h : Shape.Concatenates [(⟨1, ![262144]⟩ : Shape), ⟨1, ![262144]⟩] ⟨1, ![524288]⟩ 0) (s t : Fin 512) :
    concatenate ⟨1, ![524288]⟩ 0 [⟨⟨1, ![262144]⟩, x₁⟩, ⟨⟨1, ![262144]⟩, x₂⟩] h (ix1 (enc 1 s t)) = x₂ (ix1 (flat s t)) := by
  refine concatenate_pair_apply_right 0 x₁ x₂ h (ix1 (enc 1 s t)) rfl rfl (ix1 (flat s t)) ?_ ?_
  · intro b hb
    match b with
    | ⟨0, _⟩ => exact absurd rfl hb
  · show s.val * 512 + t.val + 262144 = 1 * 262144 + s.val * 512 + t.val; omega

/-! ## The pieces, read at (source, target) of one type -/

/-- Slice of type 0, drop the unit axis, flatten: position (s, t) of the flat piece is entry (0, s, t). -/
theorem adj_idx0 (s t : Fin 512) :
    idx_main_v7 (idx_main_v8 (idx_main_v11 (ix1 (flat s t)))) = ix3 (0 : Fin 2) s t := by
  funext a
  match a with
  | ⟨0, _⟩ => rfl
  | ⟨1, _⟩ =>
    apply Fin.ext
    show ((s.val * 512 + t.val) / 512 * 512 + (s.val * 512 + t.val) % 512) / 512 % 512 = s.val
    have := s.isLt; have := t.isLt; omega
  | ⟨2, _⟩ =>
    apply Fin.ext
    show ((s.val * 512 + t.val) / 512 * 512 + (s.val * 512 + t.val) % 512) % 512 = t.val
    have := s.isLt; have := t.isLt; omega

/-- The same for the slice of type 1. -/
theorem adj_idx1 (s t : Fin 512) :
    idx_main_v15 (idx_main_v16 (idx_main_v19 (ix1 (flat s t)))) = ix3 (1 : Fin 2) s t := by
  funext a
  match a with
  | ⟨0, _⟩ => rfl
  | ⟨1, _⟩ =>
    apply Fin.ext
    show ((s.val * 512 + t.val) / 512 * 512 + (s.val * 512 + t.val) % 512) / 512 % 512 = s.val
    have := s.isLt; have := t.isLt; omega
  | ⟨2, _⟩ =>
    apply Fin.ext
    show ((s.val * 512 + t.val) / 512 * 512 + (s.val * 512 + t.val) % 512) % 512 = t.val
    have := s.isLt; have := t.isLt; omega

/-- The valid bit of type 0 at (s, t): the adjacency entry (0, s, t) against one half. -/
theorem bit0_flat (x1 : (⟨S2x512x512, .f32⟩ : BufTy).Contents (Elt Ideal)) (s t : Fin 512) :
    val_main_v11 (F := Ideal) x1 (ix1 (flat s t)) = edge (adjOf x1) 0 s t := by
  rw [val_main_v11_apply, val_main_v10_apply, val_main_v8_apply, val_main_v7_apply, val_main_v9_apply,
    val_main_cst_apply, adj_idx0]
  rfl

/-- The valid bit of type 1 at (s, t). -/
theorem bit1_flat (x1 : (⟨S2x512x512, .f32⟩ : BufTy).Contents (Elt Ideal)) (s t : Fin 512) :
    val_main_v19 (F := Ideal) x1 (ix1 (flat s t)) = edge (adjOf x1) 1 s t := by
  rw [val_main_v19_apply, val_main_v18_apply, val_main_v16_apply, val_main_v15_apply, val_main_v17_apply,
    val_main_cst_2_apply, adj_idx1]
  rfl

/-- The row counter spread along the columns and flattened: position (s, t) holds s. -/
theorem srcIota_flat (s t : Fin 512) : val_main_v2 (F := Ideal) (ix1 (flat s t)) = BitVec.ofNat 32 s.val := by
  rw [val_main_v2_apply, val_main_v1_apply, val_main_v0_apply]
  refine congrArg (BitVec.ofNat 32) ?_
  show (s.val * 512 + t.val) / 512 = s.val
  have := t.isLt; omega

/-- The column counter spread along the rows and flattened: position (s, t) holds t. -/
theorem tgtIota_flat (s t : Fin 512) : val_main_v6 (F := Ideal) (ix1 (flat s t)) = BitVec.ofNat 32 t.val := by
  rw [val_main_v6_apply, val_main_v5_apply, val_main_v4_apply, val_main_v3_apply]
  refine congrArg (BitVec.ofNat 32) ?_
  show 0 * 512 + (s.val * 512 + t.val) % 512 = t.val
  have := t.isLt; omega

/-- Sources of type 0: the source where valid, else 0. -/
theorem src0_flat (x1 : (⟨S2x512x512, .f32⟩ : BufTy).Contents (Elt Ideal)) (s t : Fin 512) :
    val_main_v12 (F := Ideal) x1 (ix1 (flat s t)) = srcw (edge (adjOf x1)) 0 s t := by
  rw [val_main_v12_apply, bit0_flat, srcIota_flat, val_main_call0_v1_apply, val_main_call0_v0_apply, val_main_c_apply]
  rfl

/-- Targets of type 0. -/
theorem tgt0_flat (x1 : (⟨S2x512x512, .f32⟩ : BufTy).Contents (Elt Ideal)) (s t : Fin 512) :
    val_main_v13 (F := Ideal) x1 (ix1 (flat s t)) = tgtw (edge (adjOf x1)) 0 s t := by
  rw [val_main_v13_apply, bit0_flat, tgtIota_flat, val_main_call1_v1_apply, val_main_call1_v0_apply, val_main_c_0_apply]
  rfl

/-- Sources of type 1. -/
theorem src1_flat (x1 : (⟨S2x512x512, .f32⟩ : BufTy).Contents (Elt Ideal)) (s t : Fin 512) :
    val_main_v20 (F := Ideal) x1 (ix1 (flat s t)) = srcw (edge (adjOf x1)) 1 s t := by
  rw [val_main_v20_apply, bit1_flat, srcIota_flat, val_main_call2_v1_apply, val_main_call2_v0_apply, val_main_c_3_apply]
  rfl

/-- Targets of type 1. -/
theorem tgt1_flat (x1 : (⟨S2x512x512, .f32⟩ : BufTy).Contents (Elt Ideal)) (s t : Fin 512) :
    val_main_v21 (F := Ideal) x1 (ix1 (flat s t)) = tgtw (edge (adjOf x1)) 1 s t := by
  rw [val_main_v21_apply, bit1_flat, tgtIota_flat, val_main_call3_v1_apply, val_main_call3_v0_apply, val_main_c_4_apply]
  rfl

/-! ## The joined lists, read at a candidate -/

/-- Whether a candidate is valid. -/
theorem valid_apply (x1 : (⟨S2x512x512, .f32⟩ : BufTy).Contents (Elt Ideal)) (r : Fin 2) (s t : Fin 512) :
    val_main_v26 (F := Ideal) x1 (ix1 (enc r s t)) = edge (adjOf x1) r s t := by
  unfold val_main_v26
  obtain rfl | rfl := type_cases r
  · exact (cat_flat_zero _ _ _ s t).trans (bit0_flat x1 s t)
  · exact (cat_flat_one _ _ _ s t).trans (bit1_flat x1 s t)

/-- The source list at a candidate. -/
theorem src_apply (x1 : (⟨S2x512x512, .f32⟩ : BufTy).Contents (Elt Ideal)) (r : Fin 2) (s t : Fin 512) :
    val_main_v23 (F := Ideal) x1 (ix1 (enc r s t)) = srcw (edge (adjOf x1)) r s t := by
  unfold val_main_v23
  obtain rfl | rfl := type_cases r
  · exact (cat_flat_zero _ _ _ s t).trans (src0_flat x1 s t)
  · exact (cat_flat_one _ _ _ s t).trans (src1_flat x1 s t)

/-- The target list at a candidate. -/
theorem tgt_apply (x1 : (⟨S2x512x512, .f32⟩ : BufTy).Contents (Elt Ideal)) (r : Fin 2) (s t : Fin 512) :
    val_main_v24 (F := Ideal) x1 (ix1 (enc r s t)) = tgtw (edge (adjOf x1)) r s t := by
  unfold val_main_v24
  obtain rfl | rfl := type_cases r
  · exact (cat_flat_zero _ _ _ s t).trans (tgt0_flat x1 s t)
  · exact (cat_flat_one _ _ _ s t).trans (tgt1_flat x1 s t)

/-- The type list at a candidate: zeros then ones. -/
theorem et_apply (r : Fin 2) (s t : Fin 512) :
    val_main_v25 (F := Ideal) (ix1 (enc r s t)) = BitVec.ofNat 32 r.val := by
  unfold val_main_v25
  obtain rfl | rfl := type_cases r
  · refine (cat_flat_zero _ _ _ s t).trans ?_
    rw [val_main_v14_apply, val_main_c_1_apply]; rfl
  · refine (cat_flat_one _ _ _ s t).trans ?_
    rw [val_main_v22_apply, val_main_c_5_apply]; rfl

/-! ## The index words as each gather and scatter reads them

Before every gather and scatter a negative word has the extent added (512 for nodes, 4 for relation rows). Every word
here is the word of a natural below 512, so the test is false and the word passes through; the [n, 1] array's one
column is the word list itself. -/

/-- The target index words, as each scatter and gather reads them. -/
theorem tgt_apply_v34 (x1 : (⟨S2x512x512, .f32⟩ : BufTy).Contents (Elt Ideal)) (r : Fin 2) (s t : Fin 512) :
    val_main_v34 (F := Ideal) x1 (ix2 (enc r s t) (0 : Fin 1)) = tgtw (edge (adjOf x1)) r s t := by
  have hidx : idx_main_v34 (ix2 (enc r s t) (0 : Fin 1)) = ix1 (enc r s t) := by
    funext a; match a with | ⟨0, _⟩ => rfl
  rw [val_main_v34_apply, hidx, val_main_v33_apply, val_main_v30_apply, val_main_v32_apply,
    val_main_v29_apply, val_main_c_7_apply, tgt_apply]
  exact wrap_word _ _ _ rfl (tgtw_small _ r s t)
theorem tgt_apply_v47 (x1 : (⟨S2x512x512, .f32⟩ : BufTy).Contents (Elt Ideal)) (r : Fin 2) (s t : Fin 512) :
    val_main_v47 (F := Ideal) x1 (ix2 (enc r s t) (0 : Fin 1)) = tgtw (edge (adjOf x1)) r s t := by
  have hidx : idx_main_v47 (ix2 (enc r s t) (0 : Fin 1)) = ix1 (enc r s t) := by
    funext a; match a with | ⟨0, _⟩ => rfl
  rw [val_main_v47_apply, hidx, val_main_v46_apply, val_main_v43_apply, val_main_v45_apply,
    val_main_v42_apply, val_main_c_12_apply, tgt_apply]
  exact wrap_word _ _ _ rfl (tgtw_small _ r s t)
theorem tgt_apply_v86 (x1 : (⟨S2x512x512, .f32⟩ : BufTy).Contents (Elt Ideal)) (r : Fin 2) (s t : Fin 512) :
    val_main_v86 (F := Ideal) x1 (ix2 (enc r s t) (0 : Fin 1)) = tgtw (edge (adjOf x1)) r s t := by
  have hidx : idx_main_v86 (ix2 (enc r s t) (0 : Fin 1)) = ix1 (enc r s t) := by
    funext a; match a with | ⟨0, _⟩ => rfl
  rw [val_main_v86_apply, hidx, val_main_v85_apply, val_main_v82_apply, val_main_v84_apply,
    val_main_v81_apply, val_main_c_21_apply, tgt_apply]
  exact wrap_word _ _ _ rfl (tgtw_small _ r s t)
theorem tgt_apply_v132 (x1 : (⟨S2x512x512, .f32⟩ : BufTy).Contents (Elt Ideal)) (r : Fin 2) (s t : Fin 512) :
    val_main_v132 (F := Ideal) x1 (ix2 (enc r s t) (0 : Fin 1)) = tgtw (edge (adjOf x1)) r s t := by
  have hidx : idx_main_v132 (ix2 (enc r s t) (0 : Fin 1)) = ix1 (enc r s t) := by
    funext a; match a with | ⟨0, _⟩ => rfl
  rw [val_main_v132_apply, hidx, val_main_v131_apply, val_main_v128_apply, val_main_v130_apply,
    val_main_v127_apply, val_main_c_28_apply, tgt_apply]
  exact wrap_word _ _ _ rfl (tgtw_small _ r s t)

/-- The source index words, as each gather reads them. -/
theorem src_apply_v54 (x1 : (⟨S2x512x512, .f32⟩ : BufTy).Contents (Elt Ideal)) (r : Fin 2) (s t : Fin 512) :
    val_main_v54 (F := Ideal) x1 (ix2 (enc r s t) (0 : Fin 1)) = srcw (edge (adjOf x1)) r s t := by
  have hidx : idx_main_v54 (ix2 (enc r s t) (0 : Fin 1)) = ix1 (enc r s t) := by
    funext a; match a with | ⟨0, _⟩ => rfl
  rw [val_main_v54_apply, hidx, val_main_v53_apply, val_main_v50_apply, val_main_v52_apply,
    val_main_v49_apply, val_main_c_14_apply, src_apply]
  exact wrap_word _ _ _ rfl (srcw_small _ r s t)
theorem src_apply_v64 (x1 : (⟨S2x512x512, .f32⟩ : BufTy).Contents (Elt Ideal)) (r : Fin 2) (s t : Fin 512) :
    val_main_v64 (F := Ideal) x1 (ix2 (enc r s t) (0 : Fin 1)) = srcw (edge (adjOf x1)) r s t := by
  have hidx : idx_main_v64 (ix2 (enc r s t) (0 : Fin 1)) = ix1 (enc r s t) := by
    funext a; match a with | ⟨0, _⟩ => rfl
  rw [val_main_v64_apply, hidx, val_main_v63_apply, val_main_v60_apply, val_main_v62_apply,
    val_main_v59_apply, val_main_c_16_apply, src_apply]
  exact wrap_word _ _ _ rfl (srcw_small _ r s t)
theorem src_apply_v110 (x1 : (⟨S2x512x512, .f32⟩ : BufTy).Contents (Elt Ideal)) (r : Fin 2) (s t : Fin 512) :
    val_main_v110 (F := Ideal) x1 (ix2 (enc r s t) (0 : Fin 1)) = srcw (edge (adjOf x1)) r s t := by
  have hidx : idx_main_v110 (ix2 (enc r s t) (0 : Fin 1)) = ix1 (enc r s t) := by
    funext a; match a with | ⟨0, _⟩ => rfl
  rw [val_main_v110_apply, hidx, val_main_v109_apply, val_main_v106_apply, val_main_v108_apply,
    val_main_v105_apply, val_main_c_23_apply, src_apply]
  exact wrap_word _ _ _ rfl (srcw_small _ r s t)

/-- The edge-type index words: the type of the candidate, valid or not. -/
theorem et_apply_v71 (r : Fin 2) (s t : Fin 512) :
    val_main_v71 (F := Ideal) (ix2 (enc r s t) (0 : Fin 1)) = BitVec.ofNat 32 r.val := by
  have hidx : idx_main_v71 (ix2 (enc r s t) (0 : Fin 1)) = ix1 (enc r s t) := by
    funext a; match a with | ⟨0, _⟩ => rfl
  rw [val_main_v71_apply, hidx, val_main_v70_apply, val_main_v67_apply, val_main_v69_apply,
    val_main_v66_apply, val_main_c_18_apply, et_apply]
  exact wrap_word _ _ _ rfl (toNat_ofNat_small _ (by have := r.isLt; omega))
theorem et_apply_v117 (r : Fin 2) (s t : Fin 512) :
    val_main_v117 (F := Ideal) (ix2 (enc r s t) (0 : Fin 1)) = BitVec.ofNat 32 r.val := by
  have hidx : idx_main_v117 (ix2 (enc r s t) (0 : Fin 1)) = ix1 (enc r s t) := by
    funext a; match a with | ⟨0, _⟩ => rfl
  rw [val_main_v117_apply, hidx, val_main_v116_apply, val_main_v113_apply, val_main_v115_apply,
    val_main_v112_apply, val_main_c_25_apply, et_apply]
  exact wrap_word _ _ _ rfl (toNat_ofNat_small _ (by have := r.isLt; omega))

/-! ## Re-indexing a sum over the candidates that land on a target -/

/-- A sum over the candidates whose target word is the word of `t0`, of a quantity that vanishes on invalid candidates,
    is the sum over (type, source) of the quantity at the valid edges into `t0`. -/
theorem sum_landing {M : Type*} [AddCommMonoid M] (μ : Adj) (w : Fin 524288 → BitVec 32)
    (hw : ∀ r s t, w (enc r s t) = tgtw μ r s t) (f : Fin 524288 → M)
    (hf : ∀ r s t, μ r s t ≠ 1#1 → f (enc r s t) = 0) (t0 : Fin 512) :
    ∑ e ∈ Finset.univ.filter (fun e : Fin 524288 => w e = BitVec.ofNat 32 t0.val), f e
      = ∑ r : Fin 2, ∑ s : Fin 512, if μ r s t0 = 1#1 then f (enc r s t0) else 0 := by
  rw [Finset.sum_filter, sum_enc]
  refine Finset.sum_congr rfl fun r _ => Finset.sum_congr rfl fun s _ => ?_
  -- for a fixed type and source, only the target t0 can contribute: a valid candidate's word is its own target,
  -- and an invalid candidate contributes zero whatever its word
  have hterm : ∀ t : Fin 512,
      (if w (enc r s t) = BitVec.ofNat 32 t0.val then f (enc r s t) else 0)
        = if t = t0 then (if μ r s t0 = 1#1 then f (enc r s t0) else 0) else 0 := by
    intro t
    by_cases hv : μ r s t = 1#1
    · rw [hw, tgtw, if_pos hv]
      by_cases ht : t = t0
      · subst ht; rw [if_pos rfl, if_pos rfl, if_pos hv]
      · rw [if_neg ht, if_neg]
        intro hEq
        exact ht (Fin.ext (ofNat_inj_small t.isLt t0.isLt hEq))
    · rw [hf r s t hv, ite_self]
      by_cases ht : t = t0
      · subst ht; rw [if_pos rfl, if_neg hv]
      · rw [if_neg ht]
  rw [Finset.sum_congr rfl fun t _ => hterm t, Finset.sum_ite_eq' Finset.univ t0, if_pos (Finset.mem_univ _)]

end Cert.ReferenceIdeal.Hand

end
-- ==== Proof.LibScatterFold.lean ====
import Idealize.ShloMosaic.PureOps.ShapeOps
import Mathlib.Algebra.BigOperators.Group.Finset.Basic
import Mathlib.Algebra.BigOperators.Fin
import Mathlib.Data.BitVec

/-!
# A scatter read at one element

A scatter applies its updates one after the other, in row-major order of the update indices: an update whose result
index is inside the operand replaces the element there by the body applied to that element and the update. Read at ONE
element `i`, only the updates landing on `i` matter: the value there is the fold, over the update indices in that
order, of "apply the body when the update lands on `i`", started at the operand's element (`hostScatter_apply`).
When the body is the addition of a commutative monoid the fold is the operand's element plus the sum of the updates
landing on `i` (`hostScatter_add_apply`), whatever the order. Words of a fixed width under wrapping addition are such
a monoid (`hostScatter_addi_apply`).
-/

open scoped BigOperators
open Idealize.ShloMosaic

namespace Cert.Lib

section Fold
variable {s si u : Shape} {α : Type} {w : Nat}

/-- The fold of scatter steps over any list of update positions, read at one element: only that element's history. -/
theorem foldl_scatterStep_apply (d : ScatterDims s si u) (f : α → α → α) (idx : IVec si w) (upd : u.Idx → α) (i : s.Idx)
    (l : List (Fin u.numel)) (x : s.Idx → α) :
    (l.foldl (fun r n =>
        match d.resultIdx? (u.rowMajor.symm n) idx with
        | some i₀ => fun i' => if i' = i₀ then f (r i₀) (upd (u.rowMajor.symm n)) else r i'
        | none => r) x) i
      = l.foldl (fun acc n =>
          if d.resultIdx? (u.rowMajor.symm n) idx = some i then f acc (upd (u.rowMajor.symm n)) else acc) (x i) := by
  induction l generalizing x with
  | nil => rfl
  | cons n l ih =>
    rw [List.foldl_cons, List.foldl_cons, ih]
    congr 1
    -- one step, read at `i`: the element changes exactly when the update lands on `i`
    cases hres : d.resultIdx? (u.rowMajor.symm n) idx with
    | none => simp
    | some i₀ =>
      by_cases hi : i = i₀
      · subst hi; simp
      · have hne : ¬ (some i₀ = some i) := fun h => hi (Option.some.inj h).symm
        simp [hi, hne]

/-- A SCATTER READ AT ONE ELEMENT: the fold, in row-major order of the updates, of the body applied at the updates
    that land on that element, from the operand's element. -/
theorem hostScatter_apply (d : ScatterDims s si u) (f : α → α → α) (x : s.Idx → α) (idx : IVec si w) (upd : u.Idx → α)
    (i : s.Idx) :
    Host.scatter d f x idx upd i
      = (List.finRange u.numel).foldl (fun acc n =>
          if d.resultIdx? (u.rowMajor.symm n) idx = some i then f acc (upd (u.rowMajor.symm n)) else acc) (x i) :=
  foldl_scatterStep_apply d f idx upd i _ x

end Fold

/-- A left fold that adds the selected terms is the start plus the sum of the selected terms. -/
theorem foldl_ite_add_eq_add_sum {ι M : Type*} [AddCommMonoid M] (p : ι → Prop) [DecidablePred p] (g : ι → M)
    (l : List ι) (a : M) :
    l.foldl (fun acc k => if p k then acc + g k else acc) a = a + (l.map fun k => if p k then g k else 0).sum := by
  induction l generalizing a with
  | nil => simp
  | cons k l ih =>
    rw [List.foldl_cons, ih, List.map_cons, List.sum_cons]
    by_cases hk : p k
    · rw [if_pos hk, if_pos hk, add_assoc]
    · rw [if_neg hk, if_neg hk, zero_add]

/-- Over all of `Fin n` in order: the start plus the sum over the selected positions. -/
theorem foldl_finRange_ite_add {n : Nat} {M : Type*} [AddCommMonoid M] (p : Fin n → Prop) [DecidablePred p]
    (g : Fin n → M) (a : M) :
    (List.finRange n).foldl (fun acc k => if p k then acc + g k else acc) a
      = a + ∑ k ∈ Finset.univ.filter p, g k := by
  rw [foldl_ite_add_eq_add_sum, Finset.sum_filter, Fin.sum_univ_def]

/-- A SCATTER BY ADDITION READ AT ONE ELEMENT, in a commutative monoid: the operand's element plus the sum of the
    updates whose result index is that element. -/
theorem hostScatter_add_apply {s si u : Shape} {M : Type} [AddCommMonoid M] {w : Nat} (d : ScatterDims s si u)
    (f : M → M → M) (hf : ∀ a b, f a b = a + b) (x : s.Idx → M) (idx : IVec si w) (upd : u.Idx → M) (i : s.Idx) :
    Host.scatter d f x idx upd i
      = x i + ∑ j ∈ Finset.univ.filter (fun j : u.Idx => d.resultIdx? j idx = some i), upd j := by
  rw [hostScatter_apply]
  have hfun : (fun (acc : M) (n : Fin u.numel) =>
        if d.resultIdx? (u.rowMajor.symm n) idx = some i then f acc (upd (u.rowMajor.symm n)) else acc)
      = fun acc n => if d.resultIdx? (u.rowMajor.symm n) idx = some i then acc + upd (u.rowMajor.symm n) else acc := by
    funext acc n; rw [hf]
  rw [hfun, foldl_finRange_ite_add (fun n => d.resultIdx? (u.rowMajor.symm n) idx = some i)
    (fun n => upd (u.rowMajor.symm n))]
  congr 1
  -- the row-major positions are the update indices
  refine Finset.sum_equiv u.rowMajor.symm ?_ ?_
  · intro n; simp only [Finset.mem_filter, Finset.mem_univ, true_and]
  · intro n _; rfl

/-- A SCATTER BY WRAPPING INTEGER ADDITION READ AT ONE ELEMENT: the operand's word plus the sum of the update words
    whose result index is that element. -/
theorem hostScatter_addi_apply {s si u : Shape} {v w : Nat} (d : ScatterDims s si u) (x : s.Idx → BitVec v)
    (idx : IVec si w) (upd : u.Idx → BitVec v) (i : s.Idx) :
    Host.scatter d IntOp.addi x idx upd i
      = x i + ∑ j ∈ Finset.univ.filter (fun j : u.Idx => d.resultIdx? j idx = some i), upd j :=
  hostScatter_add_apply d IntOp.addi (fun _ _ => rfl) x idx upd i

end Cert.Lib
-- ==== Proof.RDeg.lean ====
import proofs.«146448_g81114752352452_cont_sun_c4_492_11_alg».proof.Proof.RefRead
import proofs.«146448_g81114752352452_cont_sun_c4_492_11_alg».proof.Proof.Spec
import proofs.«146448_g81114752352452_cont_sun_c4_492_11_alg».proof.Proof.LibFinSplit
import proofs.«146448_g81114752352452_cont_sun_c4_492_11_alg».proof.Proof.LibGatherScatter
import proofs.«146448_g81114752352452_cont_sun_c4_492_11_alg».proof.Proof.LibRowScatter
import proofs.«146448_g81114752352452_cont_sun_c4_492_11_alg».proof.Proof.LibScatterFold
import Idealize.ShloMosaic.Lib.ValueIdx
import Idealize.ShloMosaic.Lib.ValueLayout
import Idealize.ShloMosaic.Lib.Pipeline.Value
import Idealize.ShloMosaic.PureOps.Ideal.Laws
import proofs.«146448_g81114752352452_cont_sun_c4_492_11_alg».proof.Proof.RIdx
import Idealize.ShloMosaic.Lib.IndicatorCount
import Idealize.ShloMosaic.Lib.WordSum

/-!
# The reference's normalizer, read at a node

The in-degree is an integer scatter-add of the valid bits at the target words; converted to a float it is the number of
valid edges into the node, and the normalizer is that number to the power `-1/2`, zero where there is no edge.

The scatter-add of words, read at node `t`, is the sum of the update words of the candidates whose target word is the
word of `t`. An invalid candidate contributes the word 0, so the sum runs over (type, source) and counts the valid
edges into `t`: at most 1024 ones, which neither wrap a 32-bit word nor reach its sign bit. Hence the signed reading
of the sum is the count, and the count as an extended real is the sum of the 0/1 indicators, the in-degree.
-/

noncomputable section

open scoped BigOperators

namespace Cert.ReferenceIdeal.Hand

open Cert.ReferenceIdeal Cert.ReferenceIdeal.Read Idealize.ShloMosaic Idealize.ShloMosaic.ValueIdx Cert.Spec Cert.Lib

/-- THE INTEGER SEGMENT SCATTER-ADD READ AT `s`: the operand's word plus the sum of the update words whose index word
    is the word of `s`. -/
theorem hostScatterAddi_seg_apply {K n v : Nat} (hK : K ≤ 2 ^ 31)
    (wf : ScatterDims.WF ⟨1, ![K]⟩ ⟨2, ![n, 1]⟩ ⟨1, ![n]⟩ [] [0] [0] 1)
    (x : (⟨1, ![K]⟩ : Shape).Idx → BitVec v) (idx : IVec ⟨2, ![n, 1]⟩ 32) (upd : (⟨1, ![n]⟩ : Shape).Idx → BitVec v)
    (s : Fin K) :
    Host.scatter (segScatterDims K n wf) IntOp.addi x idx upd (ix1 s)
      = x (ix1 s) + ∑ t ∈ Finset.univ.filter (fun t : Fin n => idx (ix2 t 0) = BitVec.ofNat 32 s.val), upd (ix1 t) := by
  rw [hostScatter_addi_apply]
  congr 1
  refine Finset.sum_equiv idxEquiv1 ?_ ?_
  · intro j
    obtain ⟨t, rfl⟩ : ∃ t : Fin n, j = ix1 t := ⟨j 0, eq_ix1 j⟩
    simp only [Finset.mem_filter, Finset.mem_univ, true_and]
    show _ ↔ idx (ix2 t 0) = BitVec.ofNat 32 s.val
    rw [segScatter_resultIdx_iff, toInt_eq_iff_eq_ofNat _ _ (by have := s.isLt; omega)]
  · intro j _
    obtain ⟨t, rfl⟩ : ∃ t : Fin n, j = ix1 t := ⟨j 0, eq_ix1 j⟩
    rfl

/-- A one-bit word other than one is zero. -/
theorem bit_eq_zero_of_ne_one (b : BitVec 1) (h : b ≠ 1#1) : b = 0#1 := by
  have hl := b.isLt
  apply BitVec.eq_of_toNat_eq
  have h1 : b.toNat ≠ 1 := fun e => h (BitVec.eq_of_toNat_eq (by simpa using e))
  show b.toNat = 0
  omega

/-- A natural-number count of the indices with a property, as an extended real, is the sum of the 0/1 indicators. -/
theorem coe_count_eq_sum {ι : Type*} (S : Finset ι) (p : ι → Prop) [DecidablePred p] :
    (((∑ i ∈ S, (if p i then 1 else 0 : ℕ) : ℕ) : ℝ) : EReal) = ∑ i ∈ S, (if p i then (1 : EReal) else 0) := by
  induction S using Finset.cons_induction with
  | empty => simp
  | cons a S ha ih =>
    rw [Finset.sum_cons, Finset.sum_cons, Nat.cast_add, EReal.coe_add, ih]
    congr 1
    by_cases h : p a
    · simp [h]
    · simp [h]

/-- The word sum of the valid bits into `t`, read signed and as a float, is the in-degree of `t`. -/
theorem toInt_count (μ : Adj) (t : Fin 512) :
    ((((∑ r : Fin 2, ∑ s : Fin 512, if μ r s t = 1#1 then (μ r s t).setWidth 32 else 0 : BitVec 32).toInt : ℤ) : ℝ) : EReal)
      = deg μ t := by
  -- one sum over the 1024 pairs (type, source)
  rw [← Fintype.sum_prod_type' (fun r s => if μ r s t = 1#1 then (μ r s t).setWidth 32 else (0 : BitVec 32))]
  unfold deg ind
  rw [← Fintype.sum_prod_type' (fun (r : Fin 2) (s : Fin 512) => if μ r s t = 1#1 then (1 : EReal) else 0)]
  -- each term is the word 1 or the word 0
  have hterm : ∀ p : Fin 2 × Fin 512,
      (if μ p.1 p.2 t = 1#1 then (μ p.1 p.2 t).setWidth 32 else (0 : BitVec 32)).toNat
        = if μ p.1 p.2 t = 1#1 then 1 else 0 := by
    intro p
    by_cases h : μ p.1 p.2 t = 1#1
    · rw [if_pos h, if_pos h, h]; rfl
    · rw [if_neg h, if_neg h]; rfl
  -- at most 1024 ones: the word sum does not wrap, and its sign bit is clear
  have hle : ∑ p : Fin 2 × Fin 512, (if μ p.1 p.2 t = 1#1 then 1 else 0 : ℕ) ≤ 1024 := by
    calc ∑ p : Fin 2 × Fin 512, (if μ p.1 p.2 t = 1#1 then 1 else 0 : ℕ)
        ≤ ∑ _p : Fin 2 × Fin 512, 1 := Finset.sum_le_sum fun p _ => by split_ifs <;> omega
      _ = 1024 := by simp
  have hnat : (∑ p : Fin 2 × Fin 512, if μ p.1 p.2 t = 1#1 then (μ p.1 p.2 t).setWidth 32 else (0 : BitVec 32)).toNat
      = ∑ p : Fin 2 × Fin 512, (if μ p.1 p.2 t = 1#1 then 1 else 0 : ℕ) := by
    rw [WordSum.toNat_sum]
    · exact Finset.sum_congr rfl fun p _ => hterm p
    · rw [Finset.sum_congr rfl fun p _ => hterm p]; omega
  rw [BitVec.toInt_eq_toNat_cond, hnat, if_pos (by omega), Int.cast_natCast]
  exact coe_count_eq_sum _ _

/-- Selecting the power where the base is positive, zero elsewhere. -/
theorem select_ogt_pow (d c : EReal) :
    Scalar.select (Ideal.cmp .ogt d 0) (Ideal.pow d c) (0 : EReal) = if 0 < d then Ideal.pow d c else 0 := by
  unfold Scalar.select Ideal.cmp
  by_cases h : 0 < d
  · simp [h]
  · simp [h]

/-- The in-degree as a word: the sum over (type, source) of the valid bits into `t`, each widened to 32 bits. -/
theorem degw_apply (x1 : (⟨S2x512x512, .f32⟩ : BufTy).Contents (Elt Ideal)) (t : Fin 512) :
    val_main_v35 (F := Ideal) x1 (ix1 t)
      = ∑ r : Fin 2, ∑ s : Fin 512,
          if edge (adjOf x1) r s t = 1#1 then (edge (adjOf x1) r s t).setWidth 32 else (0 : BitVec 32) := by
  -- the scatter-add read at `t`: zero plus the update words of the candidates whose target word is `t`'s
  have h := hostScatterAddi_seg_apply (K := 512) (n := 524288) (by norm_num)
    Facts₀.scatter_S512_S524288x1_S524288_n_0_0_1_wf
    (val_main_v27 (F := Ideal)) (val_main_v34 (F := Ideal) x1) (val_main_v28 (F := Ideal) x1) t
  have h27 : val_main_v27 (F := Ideal) (ix1 t) = (0 : BitVec 32) := by rw [val_main_v27_apply]; rfl
  rw [h27, zero_add] at h
  refine (show val_main_v35 (F := Ideal) x1 (ix1 t) = _ from h).trans ?_
  -- re-indexed by (type, source); an invalid candidate's update is the word 0
  refine (sum_landing (edge (adjOf x1)) (fun e => val_main_v34 (F := Ideal) x1 (ix2 e (0 : Fin 1)))
    (fun r s t' => tgt_apply_v34 x1 r s t') (fun e => val_main_v28 (F := Ideal) x1 (ix1 e)) ?_ t).trans ?_
  · intro r s t' hne
    show val_main_v28 (F := Ideal) x1 (ix1 (enc r s t')) = 0
    rw [val_main_v28_apply, valid_apply, bit_eq_zero_of_ne_one _ hne]
    rfl
  · refine Finset.sum_congr rfl fun r _ => Finset.sum_congr rfl fun s _ => ?_
    show (if _ then val_main_v28 (F := Ideal) x1 (ix1 (enc r s t)) else _) = _
    rw [val_main_v28_apply, valid_apply]

/-- The in-degree as a float: the number of valid edges into `t`. -/
theorem deg_apply (x1 : (⟨S2x512x512, .f32⟩ : BufTy).Contents (Elt Ideal)) (t : Fin 512) :
    val_main_v36 (F := Ideal) x1 (ix1 t) = deg (edge (adjOf x1)) t := by
  rw [val_main_v36_apply, degw_apply]
  exact toInt_count (edge (adjOf x1)) t

/-- The normalizer of node `t`. -/
theorem nrm_apply (x1 : (⟨S2x512x512, .f32⟩ : BufTy).Contents (Elt Ideal)) (t : Fin 512) :
    val_main_v41 (F := Ideal) x1 (ix1 t) = nrmR (edge (adjOf x1)) t := by
  rw [val_main_v41_apply, val_main_v38_apply, val_main_v40_apply, val_main_v37_apply, val_main_v39_apply,
    val_main_call4_v1_apply, val_main_call4_v0_apply, val_main_cst_9_apply, val_main_cst_10_apply,
    val_main_cst_11_apply, deg_apply, Ideal.cmpf_def, Ideal.hostPowf_def, Ideal.ofBits_def, Ideal.ofBits_def,
    Ideal.ofBits_zero_f32]
  unfold nrmR
  exact select_ogt_pow _ _

end Cert.ReferenceIdeal.Hand

end
-- ==== Proof.RLayer.lean ====
import proofs.«146448_g81114752352452_cont_sun_c4_492_11_alg».proof.Proof.RefRead
import proofs.«146448_g81114752352452_cont_sun_c4_492_11_alg».proof.Proof.Spec
import proofs.«146448_g81114752352452_cont_sun_c4_492_11_alg».proof.Proof.LibFinSplit
import proofs.«146448_g81114752352452_cont_sun_c4_492_11_alg».proof.Proof.LibGatherScatter
import proofs.«146448_g81114752352452_cont_sun_c4_492_11_alg».proof.Proof.LibRowScatter
import Idealize.ShloMosaic.Lib.ValueIdx
import Idealize.ShloMosaic.Lib.ValueLayout
import Idealize.ShloMosaic.Lib.Pipeline.Value
import Idealize.ShloMosaic.PureOps.Ideal.Laws
import proofs.«146448_g81114752352452_cont_sun_c4_492_11_alg».proof.Proof.RIdx
import proofs.«146448_g81114752352452_cont_sun_c4_492_11_alg».proof.Proof.RDeg

/-!
# The reference's two layers, read at an index

Each candidate edge carries the message `(Σ_k h[src] k · rl[type] k · W k j) · (nrm[tgt] · nrm[src] · valid)`; the
messages are scatter-added at the target words. An invalid candidate's message is zero, so the sum into `t` is the
sum over the valid edges into `t`: the two-layer function in its second arrangement.
-/

noncomputable section

open scoped BigOperators

namespace Cert.ReferenceIdeal.Hand

open Cert.ReferenceIdeal Cert.ReferenceIdeal.Read Idealize.ShloMosaic Idealize.ShloMosaic.ValueIdx Cert.Spec Cert.Lib

namespace Layer

/-! ## Words and bits -/

/-- A start word that is the word of a row number selects that row. -/
theorem clampRow_ofNat {N : Nat} (hN : 0 < N) (hN31 : N ≤ 2 ^ 31) (n : Fin N) :
    clampRow N hN (BitVec.ofNat 32 n.val) = n := by
  have hlt := n.isLt
  have h : (BitVec.ofNat 32 n.val).toInt = (n.val : Int) :=
    (toInt_eq_iff_eq_ofNat _ n.val (by omega)).2 rfl
  refine Fin.ext ?_
  show min (BitVec.ofNat 32 n.val).toInt.toNat (N - 1) = n.val
  rw [h, Int.toNat_natCast]
  omega

/-- The zero word selects row 0. -/
theorem clampRow_zero {N : Nat} (hN : 0 < N) (hN31 : N ≤ 2 ^ 31) :
    clampRow N hN 0#32 = ⟨0, hN⟩ := clampRow_ofNat hN hN31 ⟨0, hN⟩

/-- A validity bit converted to a float is the number 0 or 1. -/
theorem uitofp_bit (b : BitVec 1) : FloatOps.uitofp (F := Ideal) .f32 b = ind b := by
  unfold ind
  by_cases hb : b = 1#1
  · subst hb
    rw [if_pos rfl]
    show (((1#1 : BitVec 1).toNat : ℝ) : EReal) = 1
    simp
  · have h0 := eq_zero_of_ne_one hb
    subst h0
    rw [if_neg hb]
    show (((0#1 : BitVec 1).toNat : ℝ) : EReal) = 0
    simp

/-- The edge weight of a candidate: the product of the two end normalizers on a valid candidate, zero on an
    invalid one (whose words both name node 0, and whose validity factor is 0). -/
theorem weight_generic (μ : Adj) (nrm : Fin 512 → EReal)
    (NR : (⟨S512, .f32⟩ : BufTy).Contents (Elt Ideal)) (TG SR : (⟨S524288x1, .i32⟩ : BufTy).Contents (Elt Ideal))
    (V : (⟨S524288, .i1⟩ : BufTy).Contents (Elt Ideal))
    (hNR : ∀ t : Fin 512, NR (ix1 t) = nrm t)
    (hTG : ∀ r s t, TG (ix2 (enc r s t) (0 : Fin 1)) = tgtw μ r s t)
    (hSR : ∀ r s t, SR (ix2 (enc r s t) (0 : Fin 1)) = srcw μ r s t)
    (hV : ∀ r s t, V (ix1 (enc r s t)) = μ r s t) (r : Fin 2) (s t : Fin 512) :
    mulf (mulf (Host.gather gather_S512_S524288x1_S524288_n_0_n_n_0_1_1 NR TG)
        (Host.gather gather_S512_S524288x1_S524288_n_0_n_n_0_1_1 NR SR)) (uitofp (F := Ideal) .f32 V) (ix1 (enc r s t))
      = if μ r s t = 1#1 then nrm t * nrm s else 0 := by
  have hg1 : Host.gather gather_S512_S524288x1_S524288_n_0_n_n_0_1_1 NR TG (ix1 (enc r s t))
      = NR (ix1 (clampRow 512 (by decide) (TG (ix2 (enc r s t) (0 : Fin 1))))) :=
    gather_elts_apply (by decide) Facts₀.gather_S512_S524288x1_S524288_n_0_n_n_0_1_1_wf NR TG (enc r s t)
  have hg2 : Host.gather gather_S512_S524288x1_S524288_n_0_n_n_0_1_1 NR SR (ix1 (enc r s t))
      = NR (ix1 (clampRow 512 (by decide) (SR (ix2 (enc r s t) (0 : Fin 1))))) :=
    gather_elts_apply (by decide) Facts₀.gather_S512_S524288x1_S524288_n_0_n_n_0_1_1_wf NR SR (enc r s t)
  show (Host.gather gather_S512_S524288x1_S524288_n_0_n_n_0_1_1 NR TG (ix1 (enc r s t))
      * Host.gather gather_S512_S524288x1_S524288_n_0_n_n_0_1_1 NR SR (ix1 (enc r s t)))
      * FloatOps.uitofp (F := Ideal) .f32 (V (ix1 (enc r s t))) = _
  rw [hg1, hg2, hTG, hSR, hV, uitofp_bit, hNR, hNR]
  unfold tgtw srcw ind
  by_cases hμ : μ r s t = 1#1
  · rw [if_pos hμ, if_pos hμ, if_pos hμ, if_pos hμ, clampRow_ofNat _ (by norm_num), clampRow_ofNat _ (by norm_num), mul_one]
  · rw [if_neg hμ, if_neg hμ, if_neg hμ, if_neg hμ, mul_zero]

/-- The scatter-add of the per-candidate messages into zeros, read at (t, j): the sum over the valid edges into t.
    An invalid candidate lands on node 0 but carries a zero message. -/
theorem agg_generic (μ : Adj) (Z : (⟨S512x128, .f32⟩ : BufTy).Contents (Elt Ideal))
    (TG : (⟨S524288x1, .i32⟩ : BufTy).Contents (Elt Ideal)) (Uv : (⟨S524288x128, .f32⟩ : BufTy).Contents (Elt Ideal))
    (hZ : ∀ i, Z i = 0)
    (hTG : ∀ r s t, TG (ix2 (enc r s t) (0 : Fin 1)) = tgtw μ r s t)
    (hU0 : ∀ r s t (j : Fin 128), μ r s t ≠ 1#1 → Uv (ix2 (enc r s t) j) = 0)
    (t : Fin 512) (j : Fin 128) :
    Host.scatterAdd (F := Ideal) (φ := .f32) scatter_S512x128_S524288x1_S524288x128_1_0_0_1 Z TG Uv (ix2 t j)
      = ∑ r : Fin 2, ∑ s : Fin 512, if μ r s t = 1#1 then Uv (ix2 (enc r s t) j) else 0 := by
  have h := hostScatterAdd_rows_apply (K := 512) (C := 128) (n := 524288) (by norm_num)
    Facts₀.scatter_S512x128_S524288x1_S524288x128_1_0_0_1_wf Z TG Uv t j
  have h' : Host.scatterAdd (F := Ideal) (φ := .f32) scatter_S512x128_S524288x1_S524288x128_1_0_0_1 Z TG Uv (ix2 t j)
      = Z (ix2 t j) + ∑ e ∈ Finset.univ.filter (fun e : Fin 524288 => TG (ix2 e (0 : Fin 1)) = BitVec.ofNat 32 t.val),
          Uv (ix2 e j) := h
  rw [h', hZ, zero_add]
  exact sum_landing μ (fun e => TG (ix2 e (0 : Fin 1))) hTG (fun e => Uv (ix2 e j)) (fun r s t' hμ => hU0 r s t' j hμ) t

/-- One layer of the reference read at (t, j), from the pointwise readings of its operands: the gathered source
    row times the gathered relation row contracted with the weight is the edge's message; weighted, it is zero on an
    invalid candidate; the scatter-add collects the valid edges into t; the self-loop term and the bias are added. -/
theorem layer_generic (μ : Adj) (nrm : Fin 512 → EReal)
    (H : (⟨S512x128, .f32⟩ : BufTy).Contents (Elt Ideal)) (RL : (⟨S4x128, .f32⟩ : BufTy).Contents (Elt Ideal))
    (SR TG ET : (⟨S524288x1, .i32⟩ : BufTy).Contents (Elt Ideal))
    (Mv WT : (⟨S524288x128, .f32⟩ : BufTy).Contents (Elt Ideal))
    (Z Lp Bv : (⟨S512x128, .f32⟩ : BufTy).Contents (Elt Ideal))
    (W WL : Mat 128 128) (bb lrr : Fin 128 → EReal)
    (hSR : ∀ r s t, SR (ix2 (enc r s t) (0 : Fin 1)) = srcw μ r s t)
    (hTG : ∀ r s t, TG (ix2 (enc r s t) (0 : Fin 1)) = tgtw μ r s t)
    (hET : ∀ (r : Fin 2) (s t : Fin 512), ET (ix2 (enc r s t) (0 : Fin 1)) = BitVec.ofNat 32 r.val)
    (hM : ∀ (e : Fin 524288) (j : Fin 128), Mv (ix2 e j)
        = ∑ k : Fin 128, (Host.gather gather_S512x128_S524288x1_S524288x128_1_0_n_n_0_1_1128 H SR (ix2 e k)
            * Host.gather gather_S4x128_S524288x1_S524288x128_1_0_n_n_0_1_1128 RL ET (ix2 e k)) * W k j)
    (hWT : ∀ r s t (j : Fin 128), WT (ix2 (enc r s t) j) = if μ r s t = 1#1 then nrm t * nrm s else 0)
    (hZ : ∀ i, Z i = 0)
    (hLp : ∀ (t : Fin 512) (j : Fin 128), Lp (ix2 t j) = ∑ k : Fin 128, (H (ix2 t k) * lrr k) * WL k j)
    (hBv : ∀ (t : Fin 512) (j : Fin 128), Bv (ix2 t j) = bb j)
    (t : Fin 512) (j : Fin 128) :
    Host.tanh (F := Ideal) (φ := .f32) (addf (addf (Host.scatterAdd (F := Ideal) (φ := .f32) scatter_S512x128_S524288x1_S524288x128_1_0_0_1 Z TG (mulf (F := Ideal) (φ := .f32) Mv WT)) Lp) Bv) (ix2 t j)
      = layerR nrm μ (fun t k => H (ix2 t k)) (fun r k => RL (ix2 (Fin.castLE (by decide) r) k)) W WL bb lrr t j := by
  -- the message of a valid candidate
  have hmsg : ∀ r s t' (j' : Fin 128), μ r s t' = 1#1 →
      mulf (F := Ideal) (φ := .f32) Mv WT (ix2 (enc r s t') j')
        = (∑ k : Fin 128, (H (ix2 s k) * RL (ix2 (Fin.castLE (by decide) r) k)) * W k j') * (nrm t' * nrm s) := by
    intro r s t' j' hμ
    show Mv (ix2 (enc r s t') j') * WT (ix2 (enc r s t') j') = _
    rw [hM, hWT, if_pos hμ]
    congr 1
    refine Finset.sum_congr rfl fun k _ => ?_
    have hg1 : Host.gather gather_S512x128_S524288x1_S524288x128_1_0_n_n_0_1_1128 H SR (ix2 (enc r s t') k)
        = H (ix2 (clampRow 512 (by decide) (SR (ix2 (enc r s t') (0 : Fin 1)))) k) :=
      gather_rows_apply (by decide) Facts₀.gather_S512x128_S524288x1_S524288x128_1_0_n_n_0_1_1128_wf H SR (enc r s t') k
    have hg2 : Host.gather gather_S4x128_S524288x1_S524288x128_1_0_n_n_0_1_1128 RL ET (ix2 (enc r s t') k)
        = RL (ix2 (clampRow 4 (by decide) (ET (ix2 (enc r s t') (0 : Fin 1)))) k) :=
      gather_rows_apply (by decide) Facts₀.gather_S4x128_S524288x1_S524288x128_1_0_n_n_0_1_1128_wf RL ET (enc r s t') k
    have hc4 : clampRow 4 (by decide) (BitVec.ofNat 32 r.val) = Fin.castLE (by decide) r :=
      clampRow_ofNat (N := 4) (by decide) (by norm_num) (Fin.castLE (by decide) r)
    rw [hg1, hg2, hSR, hET, hc4]
    unfold srcw
    rw [if_pos hμ, clampRow_ofNat _ (by norm_num)]
  -- the message of an invalid candidate is zero
  have hmsg0 : ∀ r s t' (j' : Fin 128), μ r s t' ≠ 1#1 → mulf (F := Ideal) (φ := .f32) Mv WT (ix2 (enc r s t') j') = 0 := by
    intro r s t' j' hμ
    show Mv (ix2 (enc r s t') j') * WT (ix2 (enc r s t') j') = _
    rw [hWT, if_neg hμ, mul_zero]
  show Ideal.tanh ((Host.scatterAdd (F := Ideal) (φ := .f32) scatter_S512x128_S524288x1_S524288x128_1_0_0_1 Z TG (mulf (F := Ideal) (φ := .f32) Mv WT) (ix2 t j)
      + Lp (ix2 t j)) + Bv (ix2 t j)) = _
  rw [agg_generic μ Z TG (mulf (F := Ideal) (φ := .f32) Mv WT) hZ hTG hmsg0 t j, hLp, hBv]
  unfold layerR
  congr 3
  refine Finset.sum_congr rfl fun r _ => Finset.sum_congr rfl fun s _ => ?_
  by_cases hμ : μ r s t = 1#1
  · rw [if_pos hμ, if_pos hμ, hmsg r s t j hμ]
  · rw [if_neg hμ, if_neg hμ]

/-! ## The layout chains: weights, self-loop relation rows, biases, the zero operand -/

/-- Layer 0's slice of a stacked weight, entry (k, j). -/
theorem w0_apply (x : (⟨S2x128x128, .f32⟩ : BufTy).Contents (Elt Ideal)) (k j : Fin 128) :
    val_main_v75 (F := Ideal) x (ix2 k j) = x (ix3 (0 : Fin 2) k j) := by
  rw [val_main_v75_apply, val_main_v74_apply]
  congr 1
  have hk := k.isLt
  have hj := j.isLt
  funext a
  refine Fin.ext ?_
  match a with
  | ⟨0, _⟩ => rfl
  | ⟨1, _⟩ => show (k.val * 128 + j.val) / 128 % 128 = k.val; omega
  | ⟨2, _⟩ => show (k.val * 128 + j.val) % 128 = j.val; omega

/-- Layer 1's slice of a stacked weight, entry (k, j). -/
theorem w1_apply (x : (⟨S2x128x128, .f32⟩ : BufTy).Contents (Elt Ideal)) (k j : Fin 128) :
    val_main_v121 (F := Ideal) x (ix2 k j) = x (ix3 (1 : Fin 2) k j) := by
  rw [val_main_v121_apply, val_main_v120_apply]
  congr 1
  have hk := k.isLt
  have hj := j.isLt
  funext a
  refine Fin.ext ?_
  match a with
  | ⟨0, _⟩ => rfl
  | ⟨1, _⟩ => show (k.val * 128 + j.val) / 128 % 128 = k.val; omega
  | ⟨2, _⟩ => show (k.val * 128 + j.val) % 128 = j.val; omega

/-- Layer 0's self-loop relation row, broadcast over the nodes. -/
theorem lr0_apply (x7 : (⟨S2x1x128, .f32⟩ : BufTy).Contents (Elt Ideal)) (t : Fin 512) (k : Fin 128) :
    val_main_v90 (F := Ideal) x7 (ix2 t k) = x7 (ix3 (0 : Fin 2) (0 : Fin 1) k) := by
  rw [val_main_v90_apply, val_main_v89_apply, val_main_v88_apply]
  congr 1
  have hk := k.isLt
  funext a
  refine Fin.ext ?_
  match a with
  | ⟨0, _⟩ => rfl
  | ⟨1, _⟩ => rfl
  | ⟨2, _⟩ => show (0 * 128 + k.val) % 128 = k.val; omega

/-- Layer 1's self-loop relation row, broadcast over the nodes. -/
theorem lr1_apply (x7 : (⟨S2x1x128, .f32⟩ : BufTy).Contents (Elt Ideal)) (t : Fin 512) (k : Fin 128) :
    val_main_v136 (F := Ideal) x7 (ix2 t k) = x7 (ix3 (1 : Fin 2) (0 : Fin 1) k) := by
  rw [val_main_v136_apply, val_main_v135_apply, val_main_v134_apply]
  congr 1
  have hk := k.isLt
  funext a
  refine Fin.ext ?_
  match a with
  | ⟨0, _⟩ => rfl
  | ⟨1, _⟩ => rfl
  | ⟨2, _⟩ => show (0 * 128 + k.val) % 128 = k.val; omega

/-- Layer 0's bias, broadcast over the nodes. -/
theorem b0_apply (x6 : (⟨S2x128, .f32⟩ : BufTy).Contents (Elt Ideal)) (t : Fin 512) (j : Fin 128) :
    val_main_v99 (F := Ideal) x6 (ix2 t j) = x6 (ix2 (0 : Fin 2) j) := by
  rw [val_main_v99_apply, val_main_v98_apply, val_main_v97_apply, val_main_v96_apply]
  congr 1
  have hj := j.isLt
  funext a
  refine Fin.ext ?_
  match a with
  | ⟨0, _⟩ => rfl
  | ⟨1, _⟩ => show j.val % 128 = j.val; omega

/-- Layer 1's bias, broadcast over the nodes. -/
theorem b1_apply (x6 : (⟨S2x128, .f32⟩ : BufTy).Contents (Elt Ideal)) (t : Fin 512) (j : Fin 128) :
    val_main_v145 (F := Ideal) x6 (ix2 t j) = x6 (ix2 (1 : Fin 2) j) := by
  rw [val_main_v145_apply, val_main_v144_apply, val_main_v143_apply, val_main_v142_apply]
  congr 1
  have hj := j.isLt
  funext a
  refine Fin.ext ?_
  match a with
  | ⟨0, _⟩ => rfl
  | ⟨1, _⟩ => show j.val % 128 = j.val; omega

/-- The operand the messages are added into is zero (layer 0). -/
theorem zero0_apply (i : S512x128.Idx) : val_main_v80 (F := Ideal) i = 0 := by
  rw [val_main_v80_apply, val_main_cst_20_apply]
  exact Ideal.ofBits_zero_f32

/-- The operand the messages are added into is zero (layer 1). -/
theorem zero1_apply (i : S512x128.Idx) : val_main_v126 (F := Ideal) i = 0 := by
  rw [val_main_v126_apply, val_main_cst_27_apply]
  exact Ideal.ofBits_zero_f32

/-! ## The edge weight -/

/-- The edge weight of a candidate. -/
theorem weight_apply (x1 : (⟨S2x512x512, .f32⟩ : BufTy).Contents (Elt Ideal)) (r : Fin 2) (s t : Fin 512) :
    val_main_v58 (F := Ideal) x1 (ix1 (enc r s t))
      = if edge (adjOf x1) r s t = 1#1 then nrmR (edge (adjOf x1)) t * nrmR (edge (adjOf x1)) s else 0 :=
  weight_generic (edge (adjOf x1)) (nrmR (edge (adjOf x1))) (val_main_v41 (F := Ideal) x1) (val_main_v47 (F := Ideal) x1)
    (val_main_v54 (F := Ideal) x1) (val_main_v26 (F := Ideal) x1)
    (nrm_apply x1) (tgt_apply_v47 x1) (src_apply_v54 x1) (valid_apply x1) r s t

/-- The edge weight, broadcast along the features (layer 0's copy). -/
theorem wt0_apply (x1 : (⟨S2x512x512, .f32⟩ : BufTy).Contents (Elt Ideal)) (r : Fin 2) (s t : Fin 512) (j : Fin 128) :
    val_main_v78 (F := Ideal) x1 (ix2 (enc r s t) j)
      = if edge (adjOf x1) r s t = 1#1 then nrmR (edge (adjOf x1)) t * nrmR (edge (adjOf x1)) s else 0 := by
  rw [val_main_v78_apply, val_main_v77_apply]
  have hi : idx_main_v77 (idx_main_v78 (ix2 (enc r s t) j)) = ix1 (enc r s t) := eq_ix1 _
  rw [hi]
  exact weight_apply x1 r s t

/-- The edge weight, broadcast along the features (layer 1's copy). -/
theorem wt1_apply (x1 : (⟨S2x512x512, .f32⟩ : BufTy).Contents (Elt Ideal)) (r : Fin 2) (s t : Fin 512) (j : Fin 128) :
    val_main_v124 (F := Ideal) x1 (ix2 (enc r s t) j)
      = if edge (adjOf x1) r s t = 1#1 then nrmR (edge (adjOf x1)) t * nrmR (edge (adjOf x1)) s else 0 := by
  rw [val_main_v124_apply, val_main_v123_apply]
  have hi : idx_main_v123 (idx_main_v124 (ix2 (enc r s t) j)) = ix1 (enc r s t) := eq_ix1 _
  rw [hi]
  exact weight_apply x1 r s t

/-! ## The contractions -/

/-- Layer 0: a candidate's composed row contracted with the weight. -/
theorem msg0_apply (x0 : (⟨S512x128, .f32⟩ : BufTy).Contents (Elt Ideal)) (x1 : (⟨S2x512x512, .f32⟩ : BufTy).Contents (Elt Ideal))
    (x2 : (⟨S4x128, .f32⟩ : BufTy).Contents (Elt Ideal)) (x3 : (⟨S2x128x128, .f32⟩ : BufTy).Contents (Elt Ideal)) (e : Fin 524288) (j : Fin 128) :
    val_main_v76 (F := Ideal) x0 x1 x2 x3 (ix2 e j)
      = ∑ k : Fin 128, (Host.gather gather_S512x128_S524288x1_S524288x128_1_0_n_n_0_1_1128 x0 (val_main_v64 (F := Ideal) x1) (ix2 e k)
          * Host.gather gather_S4x128_S524288x1_S524288x128_1_0_n_n_0_1_1128 x2 (val_main_v71 (F := Ideal)) (ix2 e k))
            * x3 (ix3 (0 : Fin 2) k j) := by
  rw [val_main_v76_apply]
  refine Finset.sum_congr rfl fun k _ => ?_
  have hl : lidx_main_v76 (ix2 e j) k = ix2 e k := eq_ix2 _
  have hr : ridx_main_v76 (ix2 e j) k = ix2 k j := eq_ix2 _
  rw [hl, hr, w0_apply]
  rfl

/-- Layer 0: the self-loop term. -/
theorem loop0_apply (x0 : (⟨S512x128, .f32⟩ : BufTy).Contents (Elt Ideal)) (x4 : (⟨S2x128x128, .f32⟩ : BufTy).Contents (Elt Ideal))
    (x7 : (⟨S2x1x128, .f32⟩ : BufTy).Contents (Elt Ideal)) (t : Fin 512) (j : Fin 128) :
    val_main_v94 (F := Ideal) x0 x4 x7 (ix2 t j)
      = ∑ k : Fin 128, (x0 (ix2 t k) * x7 (ix3 (0 : Fin 2) (0 : Fin 1) k)) * x4 (ix3 (0 : Fin 2) k j) := by
  rw [val_main_v94_apply]
  refine Finset.sum_congr rfl fun k _ => ?_
  have hl : lidx_main_v94 (ix2 t j) k = ix2 t k := eq_ix2 _
  have hr : ridx_main_v94 (ix2 t j) k = ix2 k j := eq_ix2 _
  rw [hl, hr]
  show (x0 (ix2 t k) * val_main_v90 (F := Ideal) x7 (ix2 t k)) * val_main_v75 (F := Ideal) x4 (ix2 k j) = _
  rw [lr0_apply, w0_apply]

/-- The relation features after layer 0. -/
theorem rel1_apply (x2 : (⟨S4x128, .f32⟩ : BufTy).Contents (Elt Ideal)) (x5 : (⟨S2x128x128, .f32⟩ : BufTy).Contents (Elt Ideal)) (r : Fin 4) (j : Fin 128) :
    val_main_v104 (F := Ideal) x2 x5 (ix2 r j) = ∑ k : Fin 128, x2 (ix2 r k) * x5 (ix3 (0 : Fin 2) k j) := by
  rw [val_main_v104_apply]
  refine Finset.sum_congr rfl fun k _ => ?_
  have hl : lidx_main_v104 (ix2 r j) k = ix2 r k := eq_ix2 _
  have hr : ridx_main_v104 (ix2 r j) k = ix2 k j := eq_ix2 _
  rw [hl, hr]
  show x2 (ix2 r k) * val_main_v75 (F := Ideal) x5 (ix2 k j) = _
  rw [w0_apply]

/-- Layer 1: a candidate's composed row contracted with the weight. -/
theorem msg1_apply (x0 : (⟨S512x128, .f32⟩ : BufTy).Contents (Elt Ideal)) (x1 : (⟨S2x512x512, .f32⟩ : BufTy).Contents (Elt Ideal))
    (x2 : (⟨S4x128, .f32⟩ : BufTy).Contents (Elt Ideal)) (x3 x4 x5 : (⟨S2x128x128, .f32⟩ : BufTy).Contents (Elt Ideal))
    (x6 : (⟨S2x128, .f32⟩ : BufTy).Contents (Elt Ideal)) (x7 : (⟨S2x1x128, .f32⟩ : BufTy).Contents (Elt Ideal)) (e : Fin 524288) (j : Fin 128) :
    val_main_v122 (F := Ideal) x0 x1 x2 x3 x4 x5 x6 x7 (ix2 e j)
      = ∑ k : Fin 128, (Host.gather gather_S512x128_S524288x1_S524288x128_1_0_n_n_0_1_1128 (val_main_v101 (F := Ideal) x0 x1 x2 x3 x4 x6 x7)
            (val_main_v110 (F := Ideal) x1) (ix2 e k)
          * Host.gather gather_S4x128_S524288x1_S524288x128_1_0_n_n_0_1_1128 (val_main_v104 (F := Ideal) x2 x5) (val_main_v117 (F := Ideal)) (ix2 e k))
            * x3 (ix3 (1 : Fin 2) k j) := by
  rw [val_main_v122_apply]
  refine Finset.sum_congr rfl fun k _ => ?_
  have hl : lidx_main_v122 (ix2 e j) k = ix2 e k := eq_ix2 _
  have hr : ridx_main_v122 (ix2 e j) k = ix2 k j := eq_ix2 _
  rw [hl, hr, w1_apply]
  rfl

/-- Layer 1: the self-loop term. -/
theorem loop1_apply (x0 : (⟨S512x128, .f32⟩ : BufTy).Contents (Elt Ideal)) (x1 : (⟨S2x512x512, .f32⟩ : BufTy).Contents (Elt Ideal))
    (x2 : (⟨S4x128, .f32⟩ : BufTy).Contents (Elt Ideal)) (x3 x4 : (⟨S2x128x128, .f32⟩ : BufTy).Contents (Elt Ideal))
    (x6 : (⟨S2x128, .f32⟩ : BufTy).Contents (Elt Ideal)) (x7 : (⟨S2x1x128, .f32⟩ : BufTy).Contents (Elt Ideal)) (t : Fin 512) (j : Fin 128) :
    val_main_v140 (F := Ideal) x0 x1 x2 x3 x4 x6 x7 (ix2 t j)
      = ∑ k : Fin 128, (val_main_v101 (F := Ideal) x0 x1 x2 x3 x4 x6 x7 (ix2 t k) * x7 (ix3 (1 : Fin 2) (0 : Fin 1) k))
          * x4 (ix3 (1 : Fin 2) k j) := by
  rw [val_main_v140_apply]
  refine Finset.sum_congr rfl fun k _ => ?_
  have hl : lidx_main_v140 (ix2 t j) k = ix2 t k := eq_ix2 _
  have hr : ridx_main_v140 (ix2 t j) k = ix2 k j := eq_ix2 _
  rw [hl, hr]
  show (val_main_v101 (F := Ideal) x0 x1 x2 x3 x4 x6 x7 (ix2 t k) * val_main_v136 (F := Ideal) x7 (ix2 t k))
      * val_main_v121 (F := Ideal) x4 (ix2 k j) = _
  rw [lr1_apply, w1_apply]

/-! ## The two layers -/

/-- The node features after layer 0. -/
theorem layer0_apply (x0 : (⟨S512x128, .f32⟩ : BufTy).Contents (Elt Ideal)) (x1 : (⟨S2x512x512, .f32⟩ : BufTy).Contents (Elt Ideal))
    (x2 : (⟨S4x128, .f32⟩ : BufTy).Contents (Elt Ideal)) (x3 x4 : (⟨S2x128x128, .f32⟩ : BufTy).Contents (Elt Ideal))
    (x6 : (⟨S2x128, .f32⟩ : BufTy).Contents (Elt Ideal)) (x7 : (⟨S2x1x128, .f32⟩ : BufTy).Contents (Elt Ideal)) (t : Fin 512) (j : Fin 128) :
    val_main_v101 (F := Ideal) x0 x1 x2 x3 x4 x6 x7 (ix2 t j)
      = layerR (nrmR (edge (adjOf x1))) (edge (adjOf x1)) (fun t k => x0 (ix2 t k)) (fwd (fun r k => x2 (ix2 r k)))
          (fun k j => x3 (ix3 (0 : Fin 2) k j)) (fun k j => x4 (ix3 (0 : Fin 2) k j)) (fun j => x6 (ix2 (0 : Fin 2) j))
          (fun k => x7 (ix3 (0 : Fin 2) (0 : Fin 1) k)) t j :=
  layer_generic (edge (adjOf x1)) (nrmR (edge (adjOf x1))) x0 x2
    (val_main_v64 (F := Ideal) x1) (val_main_v86 (F := Ideal) x1) (val_main_v71 (F := Ideal))
    (val_main_v76 (F := Ideal) x0 x1 x2 x3) (val_main_v78 (F := Ideal) x1)
    (val_main_v80 (F := Ideal)) (val_main_v94 (F := Ideal) x0 x4 x7) (val_main_v99 (F := Ideal) x6)
    (fun k j => x3 (ix3 (0 : Fin 2) k j)) (fun k j => x4 (ix3 (0 : Fin 2) k j)) (fun j => x6 (ix2 (0 : Fin 2) j))
    (fun k => x7 (ix3 (0 : Fin 2) (0 : Fin 1) k))
    (src_apply_v64 x1) (tgt_apply_v86 x1) et_apply_v71
    (msg0_apply x0 x1 x2 x3) (wt0_apply x1) zero0_apply (loop0_apply x0 x4 x7) (b0_apply x6) t j

end Layer

open Layer in
/-- The reference's result, entry `(t, j)`: two layers, in the second arrangement, of the arguments. -/
theorem ref_apply (x0 : (⟨S512x128, .f32⟩ : BufTy).Contents (Elt Ideal)) (x1 : (⟨S2x512x512, .f32⟩ : BufTy).Contents (Elt Ideal))
    (x2 : (⟨S4x128, .f32⟩ : BufTy).Contents (Elt Ideal)) (x3 x4 x5 : (⟨S2x128x128, .f32⟩ : BufTy).Contents (Elt Ideal))
    (x6 : (⟨S2x128, .f32⟩ : BufTy).Contents (Elt Ideal)) (x7 : (⟨S2x1x128, .f32⟩ : BufTy).Contents (Elt Ideal))
    (t : Fin 512) (j : Fin 128) :
    val_main_v147 (F := Ideal) x0 x1 x2 x3 x4 x5 x6 x7 (ix2 t j)
      = GR (fun t k => x0 (ix2 t k)) (adjOf x1) (fun r k => x2 (ix2 r k))
          (fun l k j => x3 (ix3 l k j)) (fun l k j => x4 (ix3 l k j)) (fun l k j => x5 (ix3 l k j))
          (fun l j => x6 (ix2 l j)) (fun l k => x7 (ix3 l (0 : Fin 1) k)) t j := by
  -- layer 1 over the node features and relation features that layer 0 produced
  have h1 := layer_generic (edge (adjOf x1)) (nrmR (edge (adjOf x1)))
    (val_main_v101 (F := Ideal) x0 x1 x2 x3 x4 x6 x7) (val_main_v104 (F := Ideal) x2 x5)
    (val_main_v110 (F := Ideal) x1) (val_main_v132 (F := Ideal) x1) (val_main_v117 (F := Ideal))
    (val_main_v122 (F := Ideal) x0 x1 x2 x3 x4 x5 x6 x7) (val_main_v124 (F := Ideal) x1)
    (val_main_v126 (F := Ideal)) (val_main_v140 (F := Ideal) x0 x1 x2 x3 x4 x6 x7) (val_main_v145 (F := Ideal) x6)
    (fun k j => x3 (ix3 (1 : Fin 2) k j)) (fun k j => x4 (ix3 (1 : Fin 2) k j)) (fun j => x6 (ix2 (1 : Fin 2) j))
    (fun k => x7 (ix3 (1 : Fin 2) (0 : Fin 1) k))
    (src_apply_v110 x1) (tgt_apply_v132 x1) et_apply_v117
    (msg1_apply x0 x1 x2 x3 x4 x5 x6 x7) (wt1_apply x1) zero1_apply (loop1_apply x0 x1 x2 x3 x4 x6 x7) (b1_apply x6) t j
  -- its node features are layer 0's result, its relation features the forward rows times the relation weight
  have e1 : (fun (t : Fin 512) (k : Fin 128) => val_main_v101 (F := Ideal) x0 x1 x2 x3 x4 x6 x7 (ix2 t k))
      = layerR (nrmR (edge (adjOf x1))) (edge (adjOf x1)) (fun t k => x0 (ix2 t k)) (fwd (fun r k => x2 (ix2 r k)))
          (fun k j => x3 (ix3 (0 : Fin 2) k j)) (fun k j => x4 (ix3 (0 : Fin 2) k j)) (fun j => x6 (ix2 (0 : Fin 2) j))
          (fun k => x7 (ix3 (0 : Fin 2) (0 : Fin 1) k)) :=
    funext fun t => funext fun k => layer0_apply x0 x1 x2 x3 x4 x6 x7 t k
  have e2 : (fun (r : Fin 2) (k : Fin 128) => val_main_v104 (F := Ideal) x2 x5 (ix2 (Fin.castLE (by decide) r) k))
      = relNextR (fwd (fun r k => x2 (ix2 r k))) (fun k j => x5 (ix3 (0 : Fin 2) k j)) :=
    funext fun r => funext fun k => rel1_apply x2 x5 (Fin.castLE (by decide) r) k
  rw [e1, e2] at h1
  exact h1

end Cert.ReferenceIdeal.Hand

end
-- ==== Proof.Algebra.lean ====
import proofs.«146448_g81114752352452_cont_sun_c4_492_11_alg».proof.Proof.Spec
import Mathlib.Analysis.SpecialFunctions.Pow.Real
import Mathlib.Analysis.SpecialFunctions.Sqrt
import Mathlib.Algebra.BigOperators.Ring.Finset
import Mathlib.Data.EReal.Basic

/-!
# On finite data the two arrangements agree

With every feature, weight and bias a real number, each layer's two arrangements are one real function: the edge sum
commutes with the contraction (distributivity and exchange of finite sums over the reals), the in-degree is a natural
number, and for a positive real `d` the power `d ^ (-1/2)` is `(√d)⁻¹`. A layer of real data is real (`tanh` of a real
is real), so the second layer's data is finite again.
-/

noncomputable section

open scoped BigOperators
open Idealize.ShloMosaic

namespace Cert.Spec

/-! ### Reading real numbers as extended reals commutes with finite sums and with a guarded value -/

/-- A finite sum of reals, read as an extended real, is the sum of the terms read as extended reals. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real value kept under a condition and replaced by zero otherwise, read as an extended real. -/
theorem coe_ite_zero (c : Prop) [Decidable c] (x : ℝ) :
    ((if c then x else 0 : ℝ) : EReal) = if c then (x : EReal) else 0 := by
  split_ifs <;> simp

/-! ### The in-degree and the normalizer are real -/

/-- A bit as the real number 0 or 1. -/
def indR (b : BitVec 1) : ℝ := if b = 1#1 then 1 else 0

theorem ind_eq (b : BitVec 1) : ind b = ((indR b : ℝ) : EReal) := by
  unfold ind indR
  split_ifs <;> simp

theorem indR_nonneg (b : BitVec 1) : 0 ≤ indR b := by
  unfold indR
  split_ifs <;> norm_num

/-- The in-degree as a real number. -/
def degR (μ : Adj) (t : Fin 512) : ℝ := ∑ r : Fin 2, ∑ s : Fin 512, indR (μ r s t)

theorem deg_eq (μ : Adj) (t : Fin 512) : deg μ t = ((degR μ t : ℝ) : EReal) := by
  unfold deg degR
  rw [coe_sum]
  refine Finset.sum_congr rfl fun r _ => ?_
  rw [coe_sum]
  exact Finset.sum_congr rfl fun s _ => ind_eq _

/-- The normalizer as a real number: the reciprocal square root of a positive in-degree, zero otherwise. -/
def nR (μ : Adj) (t : Fin 512) : ℝ := if 0 < degR μ t then (Real.sqrt (degR μ t))⁻¹ else 0

/-- The reciprocal-square-root normalizer is the real normalizer. -/
theorem nrmK_eq (μ : Adj) : nrmK μ = fun t => ((nR μ t : ℝ) : EReal) := by
  funext t
  unfold nrmK nR
  rw [deg_eq]
  by_cases h : 0 < degR μ t
  · rw [if_pos (EReal.coe_pos.mpr h), if_pos h, Ideal.rsqrt_coe, if_neg (not_lt.mpr h.le), if_neg h.ne']
  · rw [if_neg (fun hc => h (EReal.coe_pos.mp hc)), if_neg h, EReal.coe_zero]

/-- The exponent's pattern denotes minus one half. -/
theorem ofBits_neg_half : Ideal.ofBits .f32 0xBF000000#32 = ((-(1 / 2) : ℝ) : EReal) := by
  simp [Ideal.ofBits, Ideal.ieee, -EReal.coe_mul]; norm_num

/-- The power normalizer is the same real normalizer: for a positive `d`, `d ^ (-1/2) = (√d)⁻¹`. -/
theorem nrmR_eq (μ : Adj) : nrmR μ = fun t => ((nR μ t : ℝ) : EReal) := by
  funext t
  unfold nrmR nR
  rw [deg_eq, ofBits_neg_half]
  by_cases h : 0 < degR μ t
  · rw [if_pos (EReal.coe_pos.mpr h), if_pos h, Ideal.pow_coe_coe]
    congr 1
    show (degR μ t) ^ (-(1 / 2) : ℝ) = _
    rw [Real.sqrt_eq_rpow, Real.rpow_neg h.le]
  · rw [if_neg (fun hc => h (EReal.coe_pos.mp hc)), if_neg h, EReal.coe_zero]

/-! ### One layer over real data -/

/-- One layer over the reals, the edge sum inside the contraction. -/
def layerReal (n : Fin 512 → ℝ) (μ : Adj) (h : Fin 512 → Fin 128 → ℝ) (rl : Fin 2 → Fin 128 → ℝ)
    (W WL : Fin 128 → Fin 128 → ℝ) (bb lrr : Fin 128 → ℝ) (t : Fin 512) (j : Fin 128) : ℝ :=
  Real.tanh
    (((∑ k : Fin 128, W k j * (∑ r : Fin 2, ∑ s : Fin 512, ((h s k * n s) * rl r k) * indR (μ r s t))) * n t
        + ∑ k : Fin 128, WL k j * (h t k * lrr k))
      + bb j)

/-- One layer over the reals, a message per edge. -/
def layerRealR (n : Fin 512 → ℝ) (μ : Adj) (h : Fin 512 → Fin 128 → ℝ) (rl : Fin 2 → Fin 128 → ℝ)
    (W WL : Fin 128 → Fin 128 → ℝ) (bb lrr : Fin 128 → ℝ) (t : Fin 512) (j : Fin 128) : ℝ :=
  Real.tanh
    (((∑ r : Fin 2, ∑ s : Fin 512,
          if μ r s t = 1#1 then (∑ k : Fin 128, (h s k * rl r k) * W k j) * (n t * n s) else 0)
        + ∑ k : Fin 128, (h t k * lrr k) * WL k j)
      + bb j)

/-- The first arrangement of a layer, on real data, is the real layer. -/
theorem layerK_coe (n : Fin 512 → ℝ) (μ : Adj) (h : Fin 512 → Fin 128 → ℝ) (rl : Fin 2 → Fin 128 → ℝ)
    (W WL : Fin 128 → Fin 128 → ℝ) (bb lrr : Fin 128 → ℝ) :
    layerK (fun t => (n t : EReal)) μ (fun t k => (h t k : EReal)) (fun r k => (rl r k : EReal))
        (fun k j => (W k j : EReal)) (fun k j => (WL k j : EReal)) (fun j => (bb j : EReal))
        (fun k => (lrr k : EReal))
      = fun t j => ((layerReal n μ h rl W WL bb lrr t j : ℝ) : EReal) := by
  funext t j
  unfold layerK layerReal
  rw [← Ideal.tanh_coe]
  congr 1
  simp only [EReal.coe_add, EReal.coe_mul, coe_sum, ind_eq]

/-- The second arrangement of a layer, on real data, is its real counterpart. -/
theorem layerR_coe' (n : Fin 512 → ℝ) (μ : Adj) (h : Fin 512 → Fin 128 → ℝ) (rl : Fin 2 → Fin 128 → ℝ)
    (W WL : Fin 128 → Fin 128 → ℝ) (bb lrr : Fin 128 → ℝ) :
    layerR (fun t => (n t : EReal)) μ (fun t k => (h t k : EReal)) (fun r k => (rl r k : EReal))
        (fun k j => (W k j : EReal)) (fun k j => (WL k j : EReal)) (fun j => (bb j : EReal))
        (fun k => (lrr k : EReal))
      = fun t j => ((layerRealR n μ h rl W WL bb lrr t j : ℝ) : EReal) := by
  funext t j
  unfold layerR layerRealR
  rw [← Ideal.tanh_coe]
  congr 1
  simp only [EReal.coe_add, EReal.coe_mul, coe_sum, coe_ite_zero]

/-- Over the reals the messages added into a node are the contraction of the summed sources: distributivity and
    the exchange of the edge sum with the feature sum. -/
theorem edge_sum_eq (n : Fin 512 → ℝ) (μ : Adj) (h : Fin 512 → Fin 128 → ℝ) (rl : Fin 2 → Fin 128 → ℝ)
    (W : Fin 128 → Fin 128 → ℝ) (t : Fin 512) (j : Fin 128) :
    (∑ r : Fin 2, ∑ s : Fin 512,
        if μ r s t = 1#1 then (∑ k : Fin 128, (h s k * rl r k) * W k j) * (n t * n s) else 0)
      = (∑ k : Fin 128, W k j * (∑ r : Fin 2, ∑ s : Fin 512, ((h s k * n s) * rl r k) * indR (μ r s t))) * n t := by
  have step : ∀ (r : Fin 2) (s : Fin 512),
      (if μ r s t = 1#1 then (∑ k : Fin 128, (h s k * rl r k) * W k j) * (n t * n s) else 0)
        = ∑ k : Fin 128, W k j * (((h s k * n s) * rl r k) * indR (μ r s t)) * n t := by
    intro r s
    unfold indR
    split_ifs
    · rw [Finset.sum_mul]
      exact Finset.sum_congr rfl fun k _ => by ring
    · simp
  have rhs : (∑ k : Fin 128, W k j * (∑ r : Fin 2, ∑ s : Fin 512, ((h s k * n s) * rl r k) * indR (μ r s t))) * n t
      = ∑ k : Fin 128, ∑ r : Fin 2, ∑ s : Fin 512, W k j * (((h s k * n s) * rl r k) * indR (μ r s t)) * n t := by
    rw [Finset.sum_mul]
    refine Finset.sum_congr rfl fun k _ => ?_
    rw [Finset.mul_sum, Finset.sum_mul]
    refine Finset.sum_congr rfl fun r _ => ?_
    rw [Finset.mul_sum, Finset.sum_mul]
  rw [rhs]
  calc (∑ r : Fin 2, ∑ s : Fin 512,
          if μ r s t = 1#1 then (∑ k : Fin 128, (h s k * rl r k) * W k j) * (n t * n s) else 0)
      = ∑ r : Fin 2, ∑ s : Fin 512, ∑ k : Fin 128, W k j * (((h s k * n s) * rl r k) * indR (μ r s t)) * n t :=
        Finset.sum_congr rfl fun r _ => Finset.sum_congr rfl fun s _ => step r s
    _ = ∑ r : Fin 2, ∑ k : Fin 128, ∑ s : Fin 512, W k j * (((h s k * n s) * rl r k) * indR (μ r s t)) * n t :=
        Finset.sum_congr rfl fun r _ => Finset.sum_comm
    _ = ∑ k : Fin 128, ∑ r : Fin 2, ∑ s : Fin 512, W k j * (((h s k * n s) * rl r k) * indR (μ r s t)) * n t :=
        Finset.sum_comm

/-- The two real layers are one function. -/
theorem layerRealR_eq (n : Fin 512 → ℝ) (μ : Adj) (h : Fin 512 → Fin 128 → ℝ) (rl : Fin 2 → Fin 128 → ℝ)
    (W WL : Fin 128 → Fin 128 → ℝ) (bb lrr : Fin 128 → ℝ) (t : Fin 512) (j : Fin 128) :
    layerRealR n μ h rl W WL bb lrr t j = layerReal n μ h rl W WL bb lrr t j := by
  unfold layerRealR layerReal
  rw [edge_sum_eq]
  congr 3
  exact Finset.sum_congr rfl fun k _ => mul_comm _ _

/-- The second arrangement of a layer, on real data, is the same real layer. -/
theorem layerR_coe (n : Fin 512 → ℝ) (μ : Adj) (h : Fin 512 → Fin 128 → ℝ) (rl : Fin 2 → Fin 128 → ℝ)
    (W WL : Fin 128 → Fin 128 → ℝ) (bb lrr : Fin 128 → ℝ) :
    layerR (fun t => (n t : EReal)) μ (fun t k => (h t k : EReal)) (fun r k => (rl r k : EReal))
        (fun k j => (W k j : EReal)) (fun k j => (WL k j : EReal)) (fun j => (bb j : EReal))
        (fun k => (lrr k : EReal))
      = fun t j => ((layerReal n μ h rl W WL bb lrr t j : ℝ) : EReal) := by
  rw [layerR_coe']
  funext t j
  rw [layerRealR_eq]

/-! ### The relation features of the next layer -/

/-- The next layer's relation features over the reals. -/
def relNextReal (rl : Fin 2 → Fin 128 → ℝ) (WR : Fin 128 → Fin 128 → ℝ) (r : Fin 2) (j : Fin 128) : ℝ :=
  ∑ k : Fin 128, WR k j * rl r k

theorem relNextK_coe (rl : Fin 2 → Fin 128 → ℝ) (WR : Fin 128 → Fin 128 → ℝ) :
    relNextK (fun r k => (rl r k : EReal)) (fun k j => (WR k j : EReal))
      = fun r j => ((relNextReal rl WR r j : ℝ) : EReal) := by
  funext r j
  unfold relNextK relNextReal
  simp only [EReal.coe_mul, coe_sum]

theorem relNextR_coe (rl : Fin 2 → Fin 128 → ℝ) (WR : Fin 128 → Fin 128 → ℝ) :
    relNextR (fun r k => (rl r k : EReal)) (fun k j => (WR k j : EReal))
      = fun r j => ((relNextReal rl WR r j : ℝ) : EReal) := by
  funext r j
  unfold relNextR relNextReal
  simp only [EReal.coe_mul, coe_sum]
  exact Finset.sum_congr rfl fun k _ => mul_comm _ _

/-- The forward relation rows of real data are real. -/
theorem fwd_coe (rr : Fin 4 → Fin 128 → ℝ) :
    fwd (fun r k => (rr r k : EReal)) = fun r k => ((rr (Fin.castLE (by decide) r) k : ℝ) : EReal) := rfl

/-- The two arrangements of the two-layer function agree when every float input but the adjacency is finite (the
    adjacency enters only through the comparison with one half). -/
theorem GK_eq_GR (X : Mat 512 128) (A : Fin 2 → Fin 512 → Fin 512 → EReal) (rel : Mat 4 128)
    (Ws Wl Wr : Fin 2 → Mat 128 128) (b lr : Mat 2 128)
    (hX : ∀ t k, ∃ x : ℝ, X t k = (x : EReal)) (hrel : ∀ r k, ∃ x : ℝ, rel r k = (x : EReal))
    (hWs : ∀ l k j, ∃ x : ℝ, Ws l k j = (x : EReal)) (hWl : ∀ l k j, ∃ x : ℝ, Wl l k j = (x : EReal))
    (hWr : ∀ l k j, ∃ x : ℝ, Wr l k j = (x : EReal)) (hb : ∀ l j, ∃ x : ℝ, b l j = (x : EReal))
    (hlr : ∀ l k, ∃ x : ℝ, lr l k = (x : EReal)) :
    GK X A rel Ws Wl Wr b lr = GR X A rel Ws Wl Wr b lr := by
  choose x hx using hX
  choose rr hrr using hrel
  choose ws hws using hWs
  choose wl hwl using hWl
  choose wr hwr using hWr
  choose bv hbv using hb
  choose lv hlv using hlr
  obtain rfl : X = fun t k => (x t k : EReal) := by funext t k; exact hx t k
  obtain rfl : rel = fun r k => (rr r k : EReal) := by funext r k; exact hrr r k
  obtain rfl : Ws = fun l k j => (ws l k j : EReal) := by funext l k j; exact hws l k j
  obtain rfl : Wl = fun l k j => (wl l k j : EReal) := by funext l k j; exact hwl l k j
  obtain rfl : Wr = fun l k j => (wr l k j : EReal) := by funext l k j; exact hwr l k j
  obtain rfl : b = fun l j => (bv l j : EReal) := by funext l j; exact hbv l j
  obtain rfl : lr = fun l k => (lv l k : EReal) := by funext l k; exact hlv l k
  unfold GK GR
  rw [nrmK_eq, nrmR_eq, fwd_coe]
  have hK := layerK_coe (nR (edge A)) (edge A) x (fun r k => rr (Fin.castLE (by decide) r) k)
    (ws 0) (wl 0) (bv 0) (lv 0)
  have hR := layerR_coe (nR (edge A)) (edge A) x (fun r k => rr (Fin.castLE (by decide) r) k)
    (ws 0) (wl 0) (bv 0) (lv 0)
  have hnK := relNextK_coe (fun r k => rr (Fin.castLE (by decide) r) k) (wr 0)
  have hnR := relNextR_coe (fun r k => rr (Fin.castLE (by decide) r) k) (wr 0)
  rw [show layerK (fun t => ((nR (edge A) t : ℝ) : EReal)) (edge A) (fun t k => (x t k : EReal))
        (fun r k => ((rr (Fin.castLE (by decide) r) k : ℝ) : EReal)) ((fun l k j => (ws l k j : EReal)) 0)
        ((fun l k j => (wl l k j : EReal)) 0) ((fun l j => (bv l j : EReal)) 0) ((fun l k => (lv l k : EReal)) 0)
        = _ from hK,
    show layerR (fun t => ((nR (edge A) t : ℝ) : EReal)) (edge A) (fun t k => (x t k : EReal))
        (fun r k => ((rr (Fin.castLE (by decide) r) k : ℝ) : EReal)) ((fun l k j => (ws l k j : EReal)) 0)
        ((fun l k j => (wl l k j : EReal)) 0) ((fun l j => (bv l j : EReal)) 0) ((fun l k => (lv l k : EReal)) 0)
        = _ from hR,
    show relNextK (fun r k => ((rr (Fin.castLE (by decide) r) k : ℝ) : EReal)) ((fun l k j => (wr l k j : EReal)) 0)
        = _ from hnK,
    show relNextR (fun r k => ((rr (Fin.castLE (by decide) r) k : ℝ) : EReal)) ((fun l k j => (wr l k j : EReal)) 0)
        = _ from hnR]
  exact (layerK_coe (nR (edge A)) (edge A) _ _ (ws 1) (wl 1) (bv 1) (lv 1)).trans
    (layerR_coe (nR (edge A)) (edge A) _ _ (ws 1) (wl 1) (bv 1) (lv 1)).symm

end Cert.Spec

end
-- ==== Proof.Finite.lean ====
import proofs.«146448_g81114752352452_cont_sun_c4_492_11_alg».proof.Pre_finite_inputs
import Idealize.ShloMosaic.Lib.ReduceAll
import Idealize.ShloMosaic.Lib.ValueIdx
import Idealize.ShloMosaic.PureOps.Ideal.Laws

/-!
# The precondition: every float input is finite

The precondition is a conjunction, over the eight inputs, of `all (|x| < +∞)`. Each conjunct says that every entry of
its input is a real number: an extended real whose absolute value is below `+∞` is neither infinity.
-/

noncomputable section

namespace Cert.Pre_finite_inputs.Hand

open Cert.Pre_finite_inputs Idealize.ShloMosaic Idealize.ShloMosaic.ValueIdx

instance : Subsingleton S_.Idx := ⟨fun a b => funext fun d => d.elim0⟩

/-- The pattern of `+∞`. -/
theorem ofBits_inf : Ideal.ofBits .f32 0x7F800000#32 = (⊤ : EReal) := by
  simp [Ideal.ofBits, Ideal.ieee]

/-- An extended real whose absolute value compares below `+∞` is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  rw [Ideal.cmpf_def, Ideal.hostAbsf_def, Ideal.absf_def, Ideal.ofBits_def, ofBits_inf] at h
  induction x using EReal.rec with
  | bot => simp [Ideal.cmp] at h
  | top => simp [Ideal.cmp] at h
  | coe r => exact ⟨r, rfl⟩

/-- One conjunct of the precondition: `all (|x| < +∞)` over an array says every entry is real. -/
theorem all_real {s : Shape} {axes : List (Fin s.rank)} (x : FVec Ideal s .f32) (bc : S_.BroadcastsInDim s (![] : Fin 0 → Fin s.rank))
    (hr : s.ReducesTo axes S_) (hu : 0 < S_.numel)
    (e : Host.reduce IntOp.andi (cmpf .olt (Host.absf x) (broadcastInDim s ![] bc (constant (F := Ideal) S_ .f32 0x7F800000#32)))
      (constantI S_ 1 1#1) hr hu ix0 = 1#1) (i : s.Idx) : ∃ r : ℝ, x i = (r : EReal) :=
  real_of_abs_lt_inf (x i) (Host.reduce_andi_all _ _ hr hu ix0 e i)

/-- The precondition says that every entry of every float input is a real number. -/
theorem finite_of_pre [Facts] (a0 : FVec Ideal S512x128 .f32) (a1 : FVec Ideal S2x512x512 .f32) (a2 : FVec Ideal S4x128 .f32)
    (a3 a4 a5 : FVec Ideal S2x128x128 .f32) (a6 : FVec Ideal S2x128 .f32) (a7 : FVec Ideal S2x1x128 .f32)
    (h : fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) := by
  have h0 := congrFun h ix0
  dsimp only [fn, fn_part1, fn_part2] at h0
  simp only [andi, IntOp.andi_eq_one] at h0
  obtain ⟨⟨⟨⟨⟨⟨⟨e0, e1⟩, e2⟩, e3⟩, e4⟩, e5⟩, e6⟩, e7⟩ := h0
  exact ⟨all_real a0 _ _ _ e0, all_real a1 _ _ _ e1, all_real a2 _ _ _ e2, all_real a3 _ _ _ e3, all_real a4 _ _ _ e4,
    all_real a5 _ _ _ e5, all_real a6 _ _ _ e6, all_real a7 _ _ _ e7⟩

end Cert.Pre_finite_inputs.Hand

end
-- ==== Proof.Claims.lean ====
import proofs.«146448_g81114752352452_cont_sun_c4_492_11_alg».proof.Defs
import proofs.«146448_g81114752352452_cont_sun_c4_492_11_alg».proof.Proof.Gen.Kernel
import proofs.«146448_g81114752352452_cont_sun_c4_492_11_alg».proof.Proof.Gen.Kernel.Frame
import proofs.«146448_g81114752352452_cont_sun_c4_492_11_alg».proof.Proof.Gen.KernelIdeal
import proofs.«146448_g81114752352452_cont_sun_c4_492_11_alg».proof.Proof.Gen.KernelIdeal.Frame
import proofs.«146448_g81114752352452_cont_sun_c4_492_11_alg».proof.Proof.Gen.ReferenceIdeal
import proofs.«146448_g81114752352452_cont_sun_c4_492_11_alg».proof.Proof.Gen.Pre_finite_inputs
import proofs.«146448_g81114752352452_cont_sun_c4_492_11_alg».proof.Proof.KRun
import proofs.«146448_g81114752352452_cont_sun_c4_492_11_alg».proof.Proof.RefRun
import proofs.«146448_g81114752352452_cont_sun_c4_492_11_alg».proof.Proof.RefRead
import proofs.«146448_g81114752352452_cont_sun_c4_492_11_alg».proof.Proof.RLayer
import proofs.«146448_g81114752352452_cont_sun_c4_492_11_alg».proof.Proof.Algebra
import proofs.«146448_g81114752352452_cont_sun_c4_492_11_alg».proof.Proof.Finite

/-!
# The five claims

The three frames are the generated frame proofs (for the reference, its run with the result dropped). Nothing was
rewritten by the idealization, so `preserves` is trivial. For `algebraic`: the kernel's output array ends at the
two-layer graph convolution in its first arrangement (edge sum inside the contraction, normalizer `(√deg)⁻¹`), the
reference's result at the same function in its second arrangement (a message per edge added into its target,
normalizer `deg ^ (-1/2)`), and on finite inputs the two arrangements are one function.
-/

noncomputable section

namespace Cert.Proof.Claims

open Idealize.ShloMosaic Idealize.ShloMosaic.TcCoe Idealize.SL.Sem Idealize.ShloMosaic.ValueIdx Cert.Spec

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On finite arguments the reference's result (second arrangement) is the kernel's output function (first
    arrangement) of the same arguments. -/
theorem result_eq (a0 : Vec Ideal Cert.KernelIdeal.S512x128 .f32) (a1 : Vec Ideal Cert.KernelIdeal.S2x512x512 .f32) (a2 : Vec Ideal Cert.KernelIdeal.S4x128 .f32)
    (a3 a4 a5 : Vec Ideal Cert.KernelIdeal.S2x128x128 .f32) (a6 : Vec Ideal Cert.KernelIdeal.S2x128 .f32) (a7 : Vec Ideal Cert.KernelIdeal.S2x1x128 .f32)
    (f0 : ∀ i, ∃ r : ℝ, a0 i = (r : EReal)) (f2 : ∀ i, ∃ r : ℝ, a2 i = (r : EReal)) (f3 : ∀ i, ∃ r : ℝ, a3 i = (r : EReal))
    (f4 : ∀ i, ∃ r : ℝ, a4 i = (r : EReal)) (f5 : ∀ i, ∃ r : ℝ, a5 i = (r : EReal)) (f6 : ∀ i, ∃ r : ℝ, a6 i = (r : EReal))
    (f7 : ∀ i, ∃ r : ℝ, a7 i = (r : EReal)) :
    Cert.ReferenceIdeal.Read.val_main_v147 (F := Ideal) a0 a1 a2 a3 a4 a5 a6 a7 = Cert.KernelIdeal.Hand.outOf a0 a1 a2 a3 a4 a5 a6 a7 := by
  funext i
  obtain ⟨t, j, rfl⟩ : ∃ (t : Fin 512) (j : Fin 128), i = ix2 t j := ⟨i 0, i 1, eq_ix2 i⟩
  rw [Cert.ReferenceIdeal.Hand.ref_apply]
  exact (congrFun (congrFun (GK_eq_GR _ _ _ _ _ _ _ _ (fun t k => f0 _) (fun r k => f2 _) (fun l k j => f3 _)
    (fun l k j => f4 _) (fun l k j => f5 _) (fun l j => f6 _) (fun l k => f7 _)) t) j).symm

theorem algebraic : Cert.algebraic_KernelIdeal_ReferenceIdeal := by
  intro m ρ m' ρ' hpre hagree
  refine ⟨fun c => Cert.KernelIdeal.Hand.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.Hand.run m ρ, ?_⟩
  refine (θ_run Cert.ReferenceIdeal.defs _ _).mono (fun _ h c => ⟨(h c).1.trans ?_, (h c).2⟩) (Cert.ReferenceIdeal.Value.run (F := Ideal) m' ρ')
  obtain ⟨e0, e1, e2, e3, e4, e5, e6, e7⟩ := hagree c
  obtain ⟨f0, f1, f2, f3, f4, f5, f6, f7⟩ := Cert.Pre_finite_inputs.Hand.finite_of_pre _ _ _ _ _ _ _ _ (hpre c)
  rw [Cert.ReferenceIdeal.Read.val_main_v147_eq, e0, e1, e2, e3, e4, e5, e6, e7]
  exact result_eq _ _ _ _ _ _ _ _ f0 f2 f3 f4 f5 f6 f7

end Cert.Proof.Claims

end
-- ==== Proof.lean ====
/- Two layers of a relational graph convolution on 512 nodes with 128 features and 2 edge types: the kernel against the
   reference, over the extended reals.

   The edge `s → t` of type `r` is present when the dense adjacency exceeds one half; the in-degree of a node counts the
   present edges into it, and a node's normalizer is its in-degree to the power `-1/2` (zero for an isolated node). A
   layer sends node features `h` and relation features `rl` to
     `tanh (Σ_{r, s : edge into t} nrm t · nrm s · Σ_k h s k · rl r k · W k j + Σ_k h t k · lr k · WL k j + b j)`
   and the relation features to `rl · WR`.

   The kernel keeps everything transposed, stacks the two edge masks into one 0/1 matrix, takes the edge sum as a
   product with that matrix BEFORE the contraction with `W`, and normalizes by `(√deg)⁻¹` (Proof/KNorm.lean,
   Proof/KLayer.lean; its one grid point writes the whole array, Proof/KRun.lean). The reference lists all 2 · 512 · 512
   candidate edges, gathers the endpoint features, forms one message per candidate weighted by `nrm t · nrm s · valid`
   and scatter-adds the messages into their targets, with `deg ^ (-1/2)` (Proof/RIdx.lean, Proof/RDeg.lean,
   Proof/RLayer.lean, over the reference's run). Both are stated once in Proof/Spec.lean; on finite inputs
   (Proof/Finite.lean, from the precondition) they are one real function, by distributivity, the exchange of finite sums,
   and `d ^ (-1/2) = (√d)⁻¹` for a positive real `d` (Proof/Algebra.lean). The claims are assembled in Proof/Claims.lean. -/
import proofs.«146448_g81114752352452_cont_sun_c4_492_11_alg».proof.Defs
import proofs.«146448_g81114752352452_cont_sun_c4_492_11_alg».proof.Proof.Gen.Kernel
import proofs.«146448_g81114752352452_cont_sun_c4_492_11_alg».proof.Proof.Gen.KernelIdeal
import proofs.«146448_g81114752352452_cont_sun_c4_492_11_alg».proof.Proof.Gen.ReferenceIdeal
import proofs.«146448_g81114752352452_cont_sun_c4_492_11_alg».proof.Proof.Gen.Pre_finite_inputs
import proofs.«146448_g81114752352452_cont_sun_c4_492_11_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
